-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x256 : Shape := ⟨2, ![40000, 256]⟩
abbrev S640000 : Shape := ⟨1, ![640000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S_ : Shape := ⟨0, ![]⟩

class Facts : Prop where
  bcast_S_S40000x256 : S_.BroadcastsInDim S40000x256 (![] : Fin 0 → Fin S40000x256.rank)
  reducesTo_S40000x256_S_d0_1 : S40000x256.ReducesTo [0, 1] S_
  h_S_ : 0 < S_.numel
  bcast_S_S640000 : S_.BroadcastsInDim S640000 (![] : Fin 0 → Fin S640000.rank)
  reducesTo_S640000_S_d0 : S640000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  reducesTo_S_S_d : S_.ReducesTo [] S_

variable [Facts]

def fn_part2 {F : FTy → Type} [FloatOps F] (main_arg9 : FVec F S64 .f32) (main_arg10 : FVec F S_ .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S_ .f32 := Host.absf main_arg10
  let main_cst_14 : FVec F S_ .f32 := constant S_ .f32 0x7F800000#32
  let main_v40 : IVec S_ 1 := cmpf .olt main_v39 main_cst_14
  let main_c_15 : IVec S_ 1 := constantI S_ 1 1#1
  let main_v41 : IVec S_ 1 := (fun x v => Host.reduce IntOp.andi x v reducesTo_S_S_d h_S_) main_v40 main_c_15
  let main_v42 : IVec S_ 1 := andi main_v38 main_v41
  main_v42

def fn_part1 {F : FTy → Type} [FloatOps F] (main_arg6 : FVec F S2x128x128 .f32) (main_arg7 : FVec F S2x128 .f32) (main_arg8 : FVec F S128x64 .f32) (main_arg9 : FVec F S64 .f32) (main_arg10 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S2x128x128 .f32 := Host.absf main_arg6
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_arg10 main_v33

def fn {F : FTy → Type} [FloatOps F] (main_arg0 : FVec F S40000x256 .f32) (main_arg1 : IVec S640000 32) (main_arg2 : IVec S640000 32) (main_arg3 : FVec F S640000 .f32) (main_arg4 : FVec F S256x128 .f32) (main_arg5 : FVec F S128 .f32) (main_arg6 : FVec F S2x128x128 .f32) (main_arg7 : FVec F S2x128 .f32) (main_arg8 : FVec F S128x64 .f32) (main_arg9 : FVec F S64 .f32) (main_arg10 : FVec F S_ .f32) : IVec S_ 1 :=
  let main_v0 : FVec F S40000x256 .f32 := Host.absf main_arg0
  let main_cst : FVec F S_ .f32 := constant S_ .f32 0x7F800000#32
  let main_v1 : FVec F S40000x256 .f32 := broadcastInDim S40000x256 ![] bcast_S_S40000x256 main_cst
  let main_v2 : IVec S40000x256 1 := cmpf .olt main_v0 main_v1
  let main_c : IVec S_ 1 := constantI S_ 1 1#1
  let main_v3 : IVec S_ 1 := (fun x v => Host.reduce IntOp.andi x v reducesTo_S40000x256_S_d0_1 h_S_) main_v2 main_c
  let main_v4 : FVec F S640000 .f32 := Host.absf main_arg3
  let main_cst_0 : FVec F S_ .f32 := constant S_ .f32 0x7F800000#32
  let main_v5 : FVec F S640000 .f32 := broadcastInDim S640000 ![] bcast_S_S640000 main_cst_0
  let main_v6 : IVec S640000 1 := cmpf .olt main_v4 main_v5
  let main_c_1 : IVec S_ 1 := constantI S_ 1 1#1
  let main_v7 : IVec S_ 1 := (fun x v => Host.reduce IntOp.andi x v reducesTo_S640000_S_d0 h_S_) main_v6 main_c_1
  let main_v8 : IVec S_ 1 := andi main_v3 main_v7
  let main_v9 : FVec F S256x128 .f32 := Host.absf main_arg4
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_v13 main_v16
-- ==== Kernel.lean ====
abbrev S40000x256 : Shape := ⟨2, ![40000, 256]⟩
abbrev S640000 : Shape := ⟨1, ![640000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S_ : Shape := ⟨0, ![]⟩
abbrev S40000 : Shape := ⟨1, ![40000]⟩
abbrev S640000x1 : Shape := ⟨2, ![640000, 1]⟩
abbrev S40000x1 : Shape := ⟨2, ![40000, 1]⟩
abbrev S1x128 : Shape := ⟨2, ![1, 128]⟩
abbrev S40000x128 : Shape := ⟨2, ![40000, 128]⟩
abbrev S5000x256 : Shape := ⟨2, ![5000, 256]⟩
abbrev S5000x128 : Shape := ⟨2, ![5000, 128]⟩
abbrev S640000x128 : Shape := ⟨2, ![640000, 128]⟩
abbrev S1x128x128 : Shape := ⟨3, ![1, 128, 128]⟩
abbrev S128x128 : Shape := ⟨2, ![128, 128]⟩
abbrev S1x1 : Shape := ⟨2, ![1, 1]⟩
abbrev S5000x1 : Shape := ⟨2, ![5000, 1]⟩
abbrev S1x64 : Shape := ⟨2, ![1, 64]⟩
abbrev S40000x64 : Shape := ⟨2, ![40000, 64]⟩
abbrev S5000x64 : Shape := ⟨2, ![5000, 64]⟩
abbrev S640000x64 : Shape := ⟨2, ![640000, 64]⟩

abbrev nBuf : Space → Nat
  | .hbm => 99
  | .vmem => 38
  | .smem => 0
  | _ => 0

abbrev bufTy : (tb : Table) → Fin (tcTables nBuf tb) → BufTy
  | .hbm, ⟨0, _⟩ => ⟨S40000x256, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S256x128, .f32⟩
  | .hbm, ⟨5, _⟩ => ⟨S128, .f32⟩
  | .hbm, ⟨6, _⟩ => ⟨S2x128x128, .f32⟩
  | .hbm, ⟨7, _⟩ => ⟨S2x128, .f32⟩
  | .hbm, ⟨8, _⟩ => ⟨S128x64, .f32⟩
  | .hbm, ⟨9, _⟩ => ⟨S64, .f32⟩
  | .hbm, ⟨10, _⟩ => ⟨S_, .f32⟩
  | .hbm, ⟨11, _⟩ => ⟨S_, .f32⟩
  | .hbm, ⟨12, _⟩ => ⟨S40000, .f32⟩
  | .hbm, ⟨13, _⟩ => ⟨S640000x1, .i32⟩
  | .hbm, ⟨14, _⟩ => ⟨S40000, .f32⟩
  | .hbm, ⟨15, _⟩ => ⟨S40000x1, .f32⟩
  | .hbm, ⟨16, _⟩ => ⟨S1x128, .f32⟩
  | .hbm, ⟨17, _⟩ => ⟨S40000x128, .f32⟩
  | .hbm, ⟨18, _⟩ => ⟨S640000x1, .f32⟩
  | .hbm, ⟨19, _⟩ => ⟨S_, .i32⟩
  | .hbm, ⟨20, _⟩ => ⟨S640000, .i32⟩
  | .hbm, ⟨21, _⟩ => ⟨S640000, .i1⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S640000, .i32⟩
  | .hbm, ⟨26, _⟩ => ⟨S640000x1, .i32⟩
  | .hbm, ⟨27, _⟩ => ⟨S640000x128, .f32⟩
  | .hbm, ⟨28, _⟩ => ⟨S640000x128, .f32⟩
  | .hbm, ⟨29, _⟩ => ⟨S640000x128, .f32⟩
  | .hbm, ⟨30, _⟩ => ⟨S_, .f32⟩
  | .hbm, ⟨31, _⟩ => ⟨S40000x128, .f32⟩
  | .hbm, ⟨32, _⟩ => ⟨S640000x1, .i32⟩
  | .hbm, ⟨33, _⟩ => ⟨S40000x128, .f32⟩
  | .hbm, ⟨34, _⟩ => ⟨S40000x128, .f32⟩
  | .hbm, ⟨35, _⟩ => ⟨S640000x1, .f32⟩
  | .hbm, ⟨36, _⟩ => ⟨S_, .i32⟩
  | .hbm, ⟨37, _⟩ => ⟨S640000, .i32⟩
  | .hbm, ⟨38, _⟩ => ⟨S640000, .i1⟩
  | .hbm, ⟨39, _⟩ => ⟨S_, .i32⟩
  | .hbm, ⟨40, _⟩ => ⟨S640000, .i32⟩
  | .hbm, ⟨41, _⟩ => ⟨S640000, .i32⟩
  | .hbm, ⟨42, _⟩ => ⟨S640000, .i32⟩
  | .hbm, ⟨43, _⟩ => ⟨S640000x1, .i32⟩
  | .hbm, ⟨44, _⟩ => ⟨S640000x128, .f32⟩
  | .hbm, ⟨45, _⟩ => ⟨S640000x128, .f32⟩
  | .hbm, ⟨46, _⟩ => ⟨S640000x128, .f32⟩
  | .hbm, ⟨47, _⟩ => ⟨S_, .f32⟩
  | .hbm, ⟨48, _⟩ => ⟨S40000x128, .f32⟩
  | .hbm, ⟨49, _⟩ => ⟨S640000x1, .i32⟩
  | .hbm, ⟨50, _⟩ => ⟨S40000x128, .f32⟩
  | .hbm, ⟨51, _⟩ => ⟨S1x128x128, .f32⟩
  | .hbm, ⟨52, _⟩ => ⟨S128x128, .f32⟩
  | .hbm, ⟨53, _⟩ => ⟨S1x128, .f32⟩
  | .hbm, ⟨54, _⟩ => ⟨S128, .f32⟩
  | .hbm, ⟨55, _⟩ => ⟨S1x128, .f32⟩
  | .hbm, ⟨56, _⟩ => ⟨S1x1, .f32⟩
  | .hbm, ⟨57, _⟩ => ⟨S40000x128, .f32⟩
  | .hbm, ⟨58, _⟩ => ⟨S640000x1, .f32⟩
  | .hbm, ⟨59, _⟩ => ⟨S_, .i32⟩
  | .hbm, ⟨60, _⟩ => ⟨S640000, .i32⟩
  | .hbm, ⟨61, _⟩ => ⟨S640000, .i1⟩
  | .hbm, ⟨62, _⟩ => ⟨S_, .i32⟩
  | .hbm, ⟨63, _⟩ => ⟨S640000, .i32⟩
  | .hbm, ⟨64, _⟩ => ⟨S640000, .i32⟩
  | .hbm, ⟨65, _⟩ => ⟨S640000, .i32⟩
  | .hbm, ⟨66, _⟩ => ⟨S640000x1, .i32⟩
  | .hbm, ⟨67, _⟩ => ⟨S640000x128, .f32⟩
  | .hbm, ⟨68, _⟩ => ⟨S640000x128, .f32⟩
  | .hbm, ⟨69, _⟩ => ⟨S640000x128, .f32⟩
  | .hbm, ⟨70, _⟩ => ⟨S_, .f32⟩
  | .hbm, ⟨71, _⟩ => ⟨S40000x128, .f32⟩
  | .hbm, ⟨72, _⟩ => ⟨S640000x1, .i32⟩
  | .hbm, ⟨73, _⟩ => ⟨S40000x128, .f32⟩
  | .hbm, ⟨74, _⟩ => ⟨S1x128x128, .f32⟩
  | .hbm, ⟨75, _⟩ => ⟨S128x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S1x1, .f32⟩
  | .hbm, ⟨80, _⟩ => ⟨S40000x128, .f32⟩
  | .hbm, ⟨81, _⟩ => ⟨S1x64, .f32⟩
  | .hbm, ⟨82, _⟩ => ⟨S40000x64, .f32⟩
  | .hbm, ⟨83, _⟩ => ⟨S640000x1, .f32⟩
  | .hbm, ⟨84, _⟩ => ⟨S_, .i32⟩
  | .hbm, ⟨85, _⟩ => ⟨S640000, .i32⟩
  | .hbm, ⟨86, _⟩ => ⟨S640000, .i1⟩
  | .hbm, ⟨87, _⟩ => ⟨S_, .i32⟩
  | .hbm, ⟨88, _⟩ => ⟨S640000, .i32⟩
  | .hbm, ⟨89, _⟩ => ⟨S640000, .i32⟩
  | .hbm, ⟨90, _⟩ => ⟨S640000, .i32⟩
  | .hbm, ⟨91, _⟩ => ⟨S640000x1, .i32⟩
  | .hbm, ⟨92, _⟩ => ⟨S640000x64, .f32⟩
  | .hbm, ⟨93, _⟩ => ⟨S640000x64, .f32⟩
  | .hbm, ⟨94, _⟩ => ⟨S640000x64, .f32⟩
  | .hbm, ⟨95, _⟩ => ⟨S_, .f32⟩
  | .hbm, ⟨96, _⟩ => ⟨S40000x64, .f32⟩
  | .hbm, ⟨97, _⟩ => ⟨S640000x1, .i32⟩
  | .hbm, ⟨98, _⟩ => ⟨S40000x64, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S1x128, .f32⟩
  | .local _ .vmem, ⟨14, _⟩ => ⟨S5000x1, .f32⟩
  | .local _ .vmem, ⟨15, _⟩ => ⟨S5000x1, .f32⟩
  | .local _ .vmem, ⟨16, _⟩ => ⟨S5000x128, .f32⟩
  | .local _ .vmem, ⟨17, _⟩ => ⟨S5000x128, .f32⟩
  | .local _ .vmem, ⟨18, _⟩ => ⟨S1x1, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S128x128, .f32⟩
  | .local _ .vmem, ⟨24, _⟩ => ⟨S1x128, .f32⟩
  | .local _ .vmem, ⟨25, _⟩ => ⟨S5000x1, .f32⟩
  | .local _ .vmem, ⟨26, _⟩ => ⟨S5000x1, .f32⟩
  | .local _ .vmem, ⟨27, _⟩ => ⟨S5000x128, .f32⟩
  | .local _ .vmem, ⟨28, _⟩ => ⟨S5000x128, .f32⟩
  | .local _ .vmem, ⟨29, _⟩ => ⟨S1x1, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S128x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | _, _ => ⟨S40000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_c_0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_c_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_5 : Ref sig .tc := ⟨.hbm, 59, rfl⟩
abbrev main_v41 : Ref sig .tc := ⟨.hbm, 60, rfl⟩
abbrev main_v42 : Ref sig .tc := ⟨.hbm, 61, rfl⟩
abbrev main_c_6 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_7 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_c_8 : Ref sig .tc := ⟨.hbm, 84, rfl⟩
abbrev main_v63 : Ref sig .tc := ⟨.hbm, 85, rfl⟩
abbrev main_v64 : Ref sig .tc := ⟨.hbm, 86, rfl⟩
abbrev main_c_9 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_cst_10 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg6_0 : Ref sig .tc := ⟨.vmem, 19, rfl⟩
abbrev cc2_stg6_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc3_stg4_0 : Ref sig .tc := ⟨.vmem, 27, rfl⟩
abbrev cc3_stg4_1 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem6_0 : DmaSem sig := 19
abbrev cc2_sem6_1 : DmaSem sig := 20
abbrev cc3_sem0_0 : DmaSem sig := 21
abbrev cc3_sem0_1 : DmaSem sig := 22
abbrev cc3_sem1_0 : DmaSem sig := 23
abbrev cc3_sem2_0 : DmaSem sig := 24
abbrev cc3_sem3_0 : DmaSem sig := 25
abbrev cc3_sem3_1 : DmaSem sig := 26
abbrev cc3_sem4_0 : DmaSem sig := 27
abbrev cc3_sem4_1 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S5000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S40000 : S_.BroadcastsInDim S40000 (![] : Fin 0 → Fin S40000.rank)
  bcast_S640000_S640000x1_0 : S640000.BroadcastsInDim S640000x1 (![0] : Fin 1 → Fin S640000x1.rank)
  shapeCasts_S40000_S40000x1 : S40000.ShapeCasts S40000x1
  shapeCasts_S128_S1x128 : S128.ShapeCasts S1x128
  inb_S5000x256_S5000x256_0_0 : ∀ a, (![0, 0] : Fin 2 → Nat) a + S5000x256.size a ≤ S5000x256.size a
  h_S5000x256 : 0 < S5000x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  shapeCasts_S5000x128_S5000x128 : S5000x128.ShapeCasts S5000x128
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S_S1x1 : S_.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  slices_S2x128x128_S1x128x128_1_0_0 : S2x128x128.Slices ![1, 0, 0] S1x128x128
  slices_S2x128_S1x128_1_0 : S2x128.Slices ![1, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S640000x1_S640000x64_0_1 : S640000x1.BroadcastsInDim S640000x64 (![0, 1] : Fin 2 → Fin S640000x64.rank)
  bcast_S_S40000x64 : S_.BroadcastsInDim S40000x64 (![] : Fin 0 → Fin S40000x64.rank)
  scatter_S40000_S640000x1_S640000_n_0_0_1_wf : ScatterDims.WF S40000 S640000x1 S640000 [] [0] [0] 1
  dot_S5000x256_S256x128_S5000x128_1_0_0_1_n_n_wf : DotDims.WF S5000x256 S256x128 S5000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S40000x256.size a
  hwx0_0 : ∀ i : grid0.Coords, EltTy.bits .f32 = 32 ∨ (Rect.block (s := S40000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S40000x128.size a
  hwx0_3 : ∀ i : grid0.Coords, EltTy.bits .f32 = 32 ∨ (Rect.block (s := S40000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S40000x128.size a
  hwx1_0 : ∀ i : grid1.Coords, EltTy.bits .f32 = 32 ∨ (Rect.block (s := S40000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S40000x128.size a
  hwx1_1 : ∀ i : grid1.Coords, EltTy.bits .f32 = 32 ∨ (Rect.block (s := S40000x128) S5000x128.size (cc1_transform_1 i) (hinb1_1 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S40000x128.size a
  hwx2_0 : ∀ i : grid2.Coords, EltTy.bits .f32 = 32 ∨ (Rect.block (s := S40000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S40000x1.size a
  hwx2_3 : ∀ i : grid2.Coords, EltTy.bits .f32 = 32 ∨ (Rect.block (s := S40000x1) S5000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x128.size a ≤ S40000x128.size a
  hwx2_4 : ∀ i : grid2.Coords, EltTy.bits .f32 = 32 ∨ (Rect.block (s := S40000x128) S5000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x1.size a ≤ S1x1.size a
  hwx2_5 : ∀ i : grid2.Coords, EltTy.bits .f32 = 32 ∨ (Rect.block (s := S1x1) S1x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S40000x128.size a
  hwx2_6 : ∀ i : grid2.Coords, EltTy.bits .f32 = 32 ∨ (Rect.block (s := S40000x128) S5000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S40000x128.size a
  hwx3_0 : ∀ i : grid3.Coords, EltTy.bits .f32 = 32 ∨ (Rect.block (s := S40000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x1.size a ≤ S40000x1.size a
  hwx3_3 : ∀ i : grid3.Coords, EltTy.bits .f32 = 32 ∨ (Rect.block (s := S40000x1) S5000x1.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x128.size a ≤ S40000x128.size a
  hwx3_4 : ∀ i : grid3.Coords, EltTy.bits .f32 = 32 ∨ (Rect.block (s := S40000x128) S5000x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S40000x128.size a
  hwx3_6 : ∀ i : grid3.Coords, EltTy.bits .f32 = 32 ∨ (Rect.block (s := S40000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S40000x128.size a
  hwx4_0 : ∀ i : grid4.Coords, EltTy.bits .f32 = 32 ∨ (Rect.block (s := S40000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x64.size a ≤ S40000x64.size a
  hwx4_3 : ∀ i : grid4.Coords, EltTy.bits .f32 = 32 ∨ (Rect.block (s := S40000x64) S5000x64.size (cc4_transform_3 i) (hinb4_3 i)).WholeWords (EltTy.packing .f32)

variable [Facts₀]

def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v32) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S5000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v19) S5000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v38) S1x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v57) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v3) S5000x1.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v39) S5000x128.size cc3_transform_4 reads3_4 false false 2 stage3_4 sem3_4
    hrank3 hreads3_4 hinb3_4 nbuf3_4 (Memref.isWhole_whole _) hwx3_4 hstage3_4

abbrev win3_5 : Pipeline.Window sig grid3 :=
  Pipeline.Window.ofSpec (Memref.whole main_v58) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v59) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v59) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v61) S5000x64.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S40000x256 : Shape := ⟨2, ![40000, 256]⟩
abbrev S640000 : Shape := ⟨1, ![640000]⟩
abbrev S256x128 : Shape := ⟨2, ![256, 128]⟩
abbrev S128 : Shape := ⟨1, ![128]⟩
abbrev S2x128x128 : Shape := ⟨3, ![2, 128, 128]⟩
abbrev S2x128 : Shape := ⟨2, ![2, 128]⟩
abbrev S128x64 : Shape := ⟨2, ![128, 64]⟩
abbrev S64 : Shape := ⟨1, ![64]⟩
abbrev S_ : Shape := ⟨0, ![]⟩
abbrev S40000x128 : Shape := ⟨2, ![40000, 128]⟩
abbrev S1x128 : Shape := ⟨2, ![1, 128]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S40000x64 : Shape := ⟨2, ![40000, 64]⟩
abbrev S1x64 : Shape := ⟨2, ![1, 64]⟩
abbrev S640000x64 : Shape := ⟨2, ![640000, 64]⟩

abbrev nBuf : Space → Nat
  | .hbm => 114
  | .vmem => 0
  | .smem => 0
  | _ => 0

abbrev bufTy : (tb : Table) → Fin (tcTables nBuf tb) → BufTy
  | .hbm, ⟨0, _⟩ => ⟨S40000x256, .f32⟩
  | .hbm, ⟨1, _⟩ => ⟨S640000, .i32⟩
  | .hbm, ⟨2, _⟩ => ⟨S640000, .i32⟩
  | .hbm, ⟨3, _⟩ => ⟨S640000, .f32⟩
  | .hbm, ⟨4, _⟩ => ⟨S256x128, .f32⟩
  | .hbm, ⟨5, _⟩ => ⟨S128, .f32⟩
  | .hbm, ⟨6, _⟩ => ⟨S2x128x128, .f32⟩
  | .hbm, ⟨7, _⟩ => ⟨S2x128, .f32⟩
  | .hbm, ⟨8, _⟩ => ⟨S128x64, .f32⟩
  | .hbm, ⟨9, _⟩ => ⟨S64, .f32⟩
  | .hbm, ⟨10, _⟩ => ⟨S_, .f32⟩
  | .hbm, ⟨11, _⟩ => ⟨S40000x128, .f32⟩
  | .hbm, ⟨12, _⟩ => ⟨S1x128, .f32⟩
  | .hbm, ⟨13, _⟩ => ⟨S40000x128, .f32⟩
  | .hbm, ⟨14, _⟩ => ⟨S40000x128, .f32⟩
  | .hbm, ⟨15, _⟩ => ⟨S640000x1, .f32⟩
  | .hbm, ⟨16, _⟩ => ⟨S_, .i32⟩
  | .hbm, ⟨17, _⟩ => ⟨S640000, .i32⟩
  | .hbm, ⟨18, _⟩ => ⟨S640000, .i1⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S640000, .i32⟩
  | .hbm, ⟨23, _⟩ => ⟨S640000x1, .i32⟩
  | .hbm, ⟨24, _⟩ => ⟨S640000x128, .f32⟩
  | .hbm, ⟨25, _⟩ => ⟨S640000x128, .f32⟩
  | .hbm, ⟨26, _⟩ => ⟨S640000x128, .f32⟩
  | .hbm, ⟨27, _⟩ => ⟨S_, .f32⟩
  | .hbm, ⟨28, _⟩ => ⟨S40000x128, .f32⟩
  | .hbm, ⟨29, _⟩ => ⟨S640000x1, .i32⟩
  | .hbm, ⟨30, _⟩ => ⟨S40000x128, .f32⟩
  | .hbm, ⟨31, _⟩ => ⟨S_, .f32⟩
  | .hbm, ⟨32, _⟩ => ⟨S40000x128, .f32⟩
  | .hbm, ⟨33, _⟩ => ⟨S40000x128, .f32⟩
  | .hbm, ⟨34, _⟩ => ⟨S1x128x128, .f32⟩
  | .hbm, ⟨35, _⟩ => ⟨S128x128, .f32⟩
  | .hbm, ⟨36, _⟩ => ⟨S40000x128, .f32⟩
  | .hbm, ⟨37, _⟩ => ⟨S1x128, .f32⟩
  | .hbm, ⟨38, _⟩ => ⟨S128, .f32⟩
  | .hbm, ⟨39, _⟩ => ⟨S1x128, .f32⟩
  | .hbm, ⟨40, _⟩ => ⟨S40000x128, .f32⟩
  | .hbm, ⟨41, _⟩ => ⟨S40000x128, .f32⟩
  | .hbm, ⟨42, _⟩ => ⟨S640000x1, .f32⟩
  | .hbm, ⟨43, _⟩ => ⟨S_, .i32⟩
  | .hbm, ⟨44, _⟩ => ⟨S640000, .i32⟩
  | .hbm, ⟨45, _⟩ => ⟨S640000, .i1⟩
  | .hbm, ⟨46, _⟩ => ⟨S_, .i32⟩
  | .hbm, ⟨47, _⟩ => ⟨S640000, .i32⟩
  | .hbm, ⟨48, _⟩ => ⟨S640000, .i32⟩
  | .hbm, ⟨49, _⟩ => ⟨S640000, .i32⟩
  | .hbm, ⟨50, _⟩ => ⟨S640000x1, .i32⟩
  | .hbm, ⟨51, _⟩ => ⟨S640000x128, .f32⟩
  | .hbm, ⟨52, _⟩ => ⟨S640000x128, .f32⟩
  | .hbm, ⟨53, _⟩ => ⟨S640000x128, .f32⟩
  | .hbm, ⟨54, _⟩ => ⟨S_, .f32⟩
  | .hbm, ⟨55, _⟩ => ⟨S40000x128, .f32⟩
  | .hbm, ⟨56, _⟩ => ⟨S640000x1, .i32⟩
  | .hbm, ⟨57, _⟩ => ⟨S40000x128, .f32⟩
  | .hbm, ⟨58, _⟩ => ⟨S_, .f32⟩
  | .hbm, ⟨59, _⟩ => ⟨S40000x128, .f32⟩
  | .hbm, ⟨60, _⟩ => ⟨S40000x128, .f32⟩
  | .hbm, ⟨61, _⟩ => ⟨S40000x128, .f32⟩
  | .hbm, ⟨62, _⟩ => ⟨S40000x128, .f32⟩
  | .hbm, ⟨63, _⟩ => ⟨S40000x128, .f32⟩
  | .hbm, ⟨64, _⟩ => ⟨S1x128x128, .f32⟩
  | .hbm, ⟨65, _⟩ => ⟨S128x128, .f32⟩
  | .hbm, ⟨66, _⟩ => ⟨S40000x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S40000x128, .f32⟩
  | .hbm, ⟨71, _⟩ => ⟨S40000x128, .f32⟩
  | .hbm, ⟨72, _⟩ => ⟨S640000x1, .f32⟩
  | .hbm, ⟨73, _⟩ => ⟨S_, .i32⟩
  | .hbm, ⟨74, _⟩ => ⟨S640000, .i32⟩
  | .hbm, ⟨75, _⟩ => ⟨S640000, .i1⟩
  | .hbm, ⟨76, _⟩ => ⟨S_, .i32⟩
  | .hbm, ⟨77, _⟩ => ⟨S640000, .i32⟩
  | .hbm, ⟨78, _⟩ => ⟨S640000, .i32⟩
  | .hbm, ⟨79, _⟩ => ⟨S640000, .i32⟩
  | .hbm, ⟨80, _⟩ => ⟨S640000x1, .i32⟩
  | .hbm, ⟨81, _⟩ => ⟨S640000x128, .f32⟩
  | .hbm, ⟨82, _⟩ => ⟨S640000x128, .f32⟩
  | .hbm, ⟨83, _⟩ => ⟨S640000x128, .f32⟩
  | .hbm, ⟨84, _⟩ => ⟨S_, .f32⟩
  | .hbm, ⟨85, _⟩ => ⟨S40000x128, .f32⟩
  | .hbm, ⟨86, _⟩ => ⟨S640000x1, .i32⟩
  | .hbm, ⟨87, _⟩ => ⟨S40000x128, .f32⟩
  | .hbm, ⟨88, _⟩ => ⟨S_, .f32⟩
  | .hbm, ⟨89, _⟩ => ⟨S40000x128, .f32⟩
  | .hbm, ⟨90, _⟩ => ⟨S40000x128, .f32⟩
  | .hbm, ⟨91, _⟩ => ⟨S40000x128, .f32⟩
  | .hbm, ⟨92, _⟩ => ⟨S40000x128, .f32⟩
  | .hbm, ⟨93, _⟩ => ⟨S40000x128, .f32⟩
  | .hbm, ⟨94, _⟩ => ⟨S40000x64, .f32⟩
  | .hbm, ⟨95, _⟩ => ⟨S1x64, .f32⟩
  | .hbm, ⟨96, _⟩ => ⟨S40000x64, .f32⟩
  | .hbm, ⟨97, _⟩ => ⟨S40000x64, .f32⟩
  | .hbm, ⟨98, _⟩ => ⟨S640000x1, .f32⟩
  | .hbm, ⟨99, _⟩ => ⟨S_, .i32⟩
  | .hbm, ⟨100, _⟩ => ⟨S640000, .i32⟩
  | .hbm, ⟨101, _⟩ => ⟨S640000, .i1⟩
  | .hbm, ⟨102, _⟩ => ⟨S_, .i32⟩
  | .hbm, ⟨103, _⟩ => ⟨S640000, .i32⟩
  | .hbm, ⟨104, _⟩ => ⟨S640000, .i32⟩
  | .hbm, ⟨105, _⟩ => ⟨S640000, .i32⟩
  | .hbm, ⟨106, _⟩ => ⟨S640000x1, .i32⟩
  | .hbm, ⟨107, _⟩ => ⟨S640000x64, .f32⟩
  | .hbm, ⟨108, _⟩ => ⟨S640000x64, .f32⟩
  | .hbm, ⟨109, _⟩ => ⟨S640000x64, .f32⟩
  | .hbm, ⟨110, _⟩ => ⟨S_, .f32⟩
  | .hbm, ⟨111, _⟩ => ⟨S40000x64, .f32⟩
  | .hbm, ⟨112, _⟩ => ⟨S640000x1, .i32⟩
  | .hbm, ⟨113, _⟩ => ⟨S40000x64, .f32⟩
  | _, _ => ⟨S40000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_call0_cst : Ref sig .tc := ⟨.hbm, 31, rfl⟩
abbrev main_call0_v0 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_1 : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_call1_cst : Ref sig .tc := ⟨.hbm, 58, rfl⟩
abbrev main_call1_v0 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_4 : Ref sig .tc := ⟨.hbm, 73, rfl⟩
abbrev main_v52 : Ref sig .tc := ⟨.hbm, 74, rfl⟩
abbrev main_v53 : Ref sig .tc := ⟨.hbm, 75, rfl⟩
abbrev main_c_5 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_6 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_call2_cst : Ref sig .tc := ⟨.hbm, 88, rfl⟩
abbrev main_call2_v0 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_c_7 : Ref sig .tc := ⟨.hbm, 99, rfl⟩
abbrev main_v73 : Ref sig .tc := ⟨.hbm, 100, rfl⟩
abbrev main_v74 : Ref sig .tc := ⟨.hbm, 101, rfl⟩
abbrev main_c_8 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_9 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S40000x128_0_1 : S1x128.BroadcastsInDim S40000x128 (![0, 1] : Fin 2 → Fin S40000x128.rank)
  bcast_S640000_S640000x1_0 : S640000.BroadcastsInDim S640000x1 (![0] : Fin 1 → Fin S640000x1.rank)
  bcast_S_S640000 : S_.BroadcastsInDim S640000 (![] : Fin 0 → Fin S640000.rank)
  bcast_S640000x1_S640000x128_0_1 : S640000x1.BroadcastsInDim S640000x128 (![0, 1] : Fin 2 → Fin S640000x128.rank)
  bcast_S_S40000x128 : S_.BroadcastsInDim S40000x128 (![] : Fin 0 → Fin S40000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  slices_S2x128x128_S1x128x128_1_0_0 : S2x128x128.Slices ![1, 0, 0] S1x128x128
  slices_S2x128_S1x128_1_0 : S2x128.Slices ![1, 0] S1x128
  bcast_S64_S1x64_1 : S64.BroadcastsInDim S1x64 (![1] : Fin 1 → Fin S1x64.rank)
  bcast_S1x64_S40000x64_0_1 : S1x64.BroadcastsInDim S40000x64 (![0, 1] : Fin 2 → Fin S40000x64.rank)
  bcast_S640000x1_S640000x64_0_1 : S640000x1.BroadcastsInDim S640000x64 (![0, 1] : Fin 2 → Fin S640000x64.rank)
  bcast_S_S40000x64 : S_.BroadcastsInDim S40000x64 (![] : Fin 0 → Fin S40000x64.rank)
  dot_S40000x256_S256x128_S40000x128_1_0_0_1_n_n_wf : DotDims.WF S40000x256 S256x128 S40000x128 [1] [0] [0] [1] [] []
  gather_S40000x128_S640000x1_S640000x128_1_0_n_n_0_1_1128_wf : GatherDims.WF S40000x128 S640000x1 S640000x128 [1] [0] [] [0] [] 1 ![1, 128]
  scatter_S40000x128_S640000x1_S640000x128_1_0_0_1_wf : ScatterDims.WF S40000x128 S640000x1 S640000x128 [1] [0] [0] 1
  dot_S40000x128_S128x128_S40000x128_1_0_0_1_n_n_wf : DotDims.WF S40000x128 S128x128 S40000x128 [1] [0] [0] [1] [] []
  dot_S40000x128_S128x64_S40000x64_1_0_0_1_n_n_wf : DotDims.WF S40000x128 S128x64 S40000x64 [1] [0] [0] [1] [] []
  gather_S40000x64_S640000x1_S640000x64_1_0_n_n_0_1_164_wf : GatherDims.WF S40000x64 S640000x1 S640000x64 [1] [0] [] [0] [] 1 ![1, 64]
  scatter_S40000x64_S640000x1_S640000x64_1_0_0_1_wf : ScatterDims.WF S40000x64 S640000x1 S640000x64 [1] [0] [0] 1

variable [Facts₀]

def dot_S40000x256_S256x128_S40000x128_1_0_0_1_n_n : DotDims S40000x256 S256x128 S40000x128 where
  lhsContracting := [1]
  rhsContracting := [0]
  lhsNonContracting := [0]
  rhsNonContracting := [1]
  lhsBatch := []
  rhsBatch := []
  wf := dot_S40000x256_S256x128_S40000x128_1_0_0_1_n_n_wf
def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf
def dot_S40000x128_S128x64_S40000x64_1_0_0_1_n_n : DotDims S40000x128 S128x64 S40000x64 where
  lhsContracting := [1]
  rhsContracting := [0]
  lhsNonContracting := [0]
  rhsNonContracting := [1]
  lhsBatch := []
  rhsBatch := []
  wf := dot_S40000x128_S128x64_S40000x64_1_0_0_1_n_n_wf
def gather_S40000x64_S640000x1_S640000x64_1_0_n_n_0_1_164 : GatherDims S40000x64 S640000x1 S640000x64 where
  offsetDims := [1]
  collapsedSliceDims := [0]
  operandBatchingDims := []
  startIndicesBatchingDims := []
  startIndexMap := [0]
  indexVectorDim := 1
  sliceSizes := ![1, 64]
  wf := gather_S40000x64_S640000x1_S640000x64_1_0_n_n_0_1_164_wf
def scatter_S40000x64_S640000x1_S640000x64_1_0_0_1 : ScatterDims S40000x64 S640000x1 S640000x64 where
  updateWindowDims := [1]
  insertedWindowDims := [0]
  scatterDimsToOperandDims := [0]
  indexVectorDim := 1
  wf := scatter_S40000x64_S640000x1_S640000x64_1_0_0_1_wf

class Facts : Prop extends Facts₀ where

variable [Facts]
-- ==== Proof.Carry.lean ====
/-
  Buffers that a stretch of @main leaves alone keep their contents.

  @main is six stretches of host operations with five pallas_calls between them; the contents of the TensorCore's
  buffers at the eleven boundaries are the fold W0 (the launch memory), W1, …, W11. A host stretch rewrites only the
  buffers its operations write; a pallas_call rewrites only its output array. So an argument array is, at every
  boundary, what the launch memory holds, and an intermediate array is, at a later boundary, what it was when it was
  last written. These are the instances the value proof reads.
-/
import proofs.«400381_j16071767622287_3_alg».proof.Proof.Gen.KernelIdeal.Frame

set_option maxRecDepth 16384

noncomputable section

namespace Cert.KernelIdeal.Carry

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- The arguments some later stretch or call still reads, by boundary. -/
abbrev argsA : List (Ref sig .tc) := [main_arg0, main_arg1, main_arg2, main_arg3, main_arg4, main_arg6, main_arg7, main_arg8, main_arg9, main_arg10]
abbrev argsB : List (Ref sig .tc) := [main_arg1, main_arg2, main_arg3, main_arg6, main_arg7, main_arg8, main_arg9, main_arg10]
abbrev argsC : List (Ref sig .tc) := [main_arg1, main_arg2, main_arg3, main_arg8, main_arg9]
abbrev argsD : List (Ref sig .tc) := [main_arg1, main_arg2, main_arg3, main_arg8]
abbrev argsE : List (Ref sig .tc) := [main_arg1, main_arg2, main_arg3]

/-- A host stretch leaves a buffer alone when none of its operations writes it: the stretch's operations are
    listed out, each one's written buffer is a single reference, and that reference differs from the one kept. -/
local macro "host_keep" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ### The arguments

Walking back from a boundary to the launch, one step per boundary: a host stretch writes only its own results, and
none of the five calls has one of the listed arguments as an array once the argument is past its last reader (the
first call reads main_arg0 and main_arg4, which the lists drop after the first boundary; the last call reads
main_arg8, which the last list drops). -/

theorem W1_arg {b : Ref sig .tc} (hb : b ∈ argsA) : W1 m ρ c (Proc.devRef .tc b) = m ((c : Thread nD τ).loc b) := by
  have step : W1 m ρ c (Proc.devRef .tc b) = W0 m ρ c (Proc.devRef .tc b) := by
    simp only [argsA, List.mem_cons, List.not_mem_nil, or_false] at hb
    rcases hb with rfl | rfl | rfl | rfl | rfl | rfl | rfl | rfl | rfl | rfl <;> host_keep hostOps0
  exact step.trans rfl
theorem W2_arg {b : Ref sig .tc} (hb : b ∈ argsB) : W2 m ρ c (Proc.devRef .tc b) = m ((c : Thread nD τ).loc b) := by
  have prev : b ∈ argsA := by
    simp only [argsB, List.mem_cons, List.not_mem_nil, or_false] at hb
    rcases hb with rfl | rfl | rfl | rfl | rfl | rfl | rfl | rfl <;> simp [argsA]
  have step : W2 m ρ c (Proc.devRef .tc b) = W1 m ρ c (Proc.devRef .tc b) := by
    simp only [argsB, List.mem_cons, List.not_mem_nil, or_false] at hb
    rcases hb with rfl | rfl | rfl | rfl | rfl | rfl | rfl | rfl <;> exact W2_of_ne m ρ c _ (by decide)
  exact step.trans (W1_arg m ρ c prev)
theorem W3_arg {b : Ref sig .tc} (hb : b ∈ argsB) : W3 m ρ c (Proc.devRef .tc b) = m ((c : Thread nD τ).loc b) := by
  have step : W3 m ρ c (Proc.devRef .tc b) = W2 m ρ c (Proc.devRef .tc b) := by
    simp only [argsB, List.mem_cons, List.not_mem_nil, or_false] at hb
    rcases hb with rfl | rfl | rfl | rfl | rfl | rfl | rfl | rfl <;> host_keep hostOps1
  exact step.trans (W2_arg m ρ c hb)
theorem W4_arg {b : Ref sig .tc} (hb : b ∈ argsB) : W4 m ρ c (Proc.devRef .tc b) = m ((c : Thread nD τ).loc b) := by
  have step : W4 m ρ c (Proc.devRef .tc b) = W3 m ρ c (Proc.devRef .tc b) := by
    simp only [argsB, List.mem_cons, List.not_mem_nil, or_false] at hb
    rcases hb with rfl | rfl | rfl | rfl | rfl | rfl | rfl | rfl <;> exact W4_of_ne m ρ c _ (by decide)
  exact step.trans (W3_arg m ρ c hb)
theorem W5_arg {b : Ref sig .tc} (hb : b ∈ argsB) : W5 m ρ c (Proc.devRef .tc b) = m ((c : Thread nD τ).loc b) := by
  have step : W5 m ρ c (Proc.devRef .tc b) = W4 m ρ c (Proc.devRef .tc b) := by
    simp only [argsB, List.mem_cons, List.not_mem_nil, or_false] at hb
    rcases hb with rfl | rfl | rfl | rfl | rfl | rfl | rfl | rfl <;> host_keep hostOps2
  exact step.trans (W4_arg m ρ c hb)
theorem W6_arg {b : Ref sig .tc} (hb : b ∈ argsB) : W6 m ρ c (Proc.devRef .tc b) = m ((c : Thread nD τ).loc b) := by
  have step : W6 m ρ c (Proc.devRef .tc b) = W5 m ρ c (Proc.devRef .tc b) := by
    simp only [argsB, List.mem_cons, List.not_mem_nil, or_false] at hb
    rcases hb with rfl | rfl | rfl | rfl | rfl | rfl | rfl | rfl <;> exact W6_of_ne m ρ c _ (by decide)
  exact step.trans (W5_arg m ρ c hb)
theorem W7_arg {b : Ref sig .tc} (hb : b ∈ argsC) : W7 m ρ c (Proc.devRef .tc b) = m ((c : Thread nD τ).loc b) := by
  have prev : b ∈ argsB := by
    simp only [argsC, List.mem_cons, List.not_mem_nil, or_false] at hb
    rcases hb with rfl | rfl | rfl | rfl | rfl <;> simp [argsB]
  have step : W7 m ρ c (Proc.devRef .tc b) = W6 m ρ c (Proc.devRef .tc b) := by
    simp only [argsC, List.mem_cons, List.not_mem_nil, or_false] at hb
    rcases hb with rfl | rfl | rfl | rfl | rfl <;> host_keep hostOps3
  exact step.trans (W6_arg m ρ c prev)
theorem W8_arg {b : Ref sig .tc} (hb : b ∈ argsC) : W8 m ρ c (Proc.devRef .tc b) = m ((c : Thread nD τ).loc b) := by
  have step : W8 m ρ c (Proc.devRef .tc b) = W7 m ρ c (Proc.devRef .tc b) := by
    simp only [argsC, List.mem_cons, List.not_mem_nil, or_false] at hb
    rcases hb with rfl | rfl | rfl | rfl | rfl <;> exact W8_of_ne m ρ c _ (by decide)
  exact step.trans (W7_arg m ρ c hb)
theorem W9_arg {b : Ref sig .tc} (hb : b ∈ argsD) : W9 m ρ c (Proc.devRef .tc b) = m ((c : Thread nD τ).loc b) := by
  have prev : b ∈ argsC := by
    simp only [argsD, List.mem_cons, List.not_mem_nil, or_false] at hb
    rcases hb with rfl | rfl | rfl | rfl <;> simp [argsC]
  have step : W9 m ρ c (Proc.devRef .tc b) = W8 m ρ c (Proc.devRef .tc b) := by
    simp only [argsD, List.mem_cons, List.not_mem_nil, or_false] at hb
    rcases hb with rfl | rfl | rfl | rfl <;> host_keep hostOps4
  exact step.trans (W8_arg m ρ c prev)
theorem W10_arg {b : Ref sig .tc} (hb : b ∈ argsE) : W10 m ρ c (Proc.devRef .tc b) = m ((c : Thread nD τ).loc b) := by
  have prev : b ∈ argsD := by
    simp only [argsE, List.mem_cons, List.not_mem_nil, or_false] at hb
    rcases hb with rfl | rfl | rfl <;> simp [argsD]
  have step : W10 m ρ c (Proc.devRef .tc b) = W9 m ρ c (Proc.devRef .tc b) := by
    simp only [argsE, List.mem_cons, List.not_mem_nil, or_false] at hb
    rcases hb with rfl | rfl | rfl <;> exact W10_of_ne m ρ c _ (by decide)
  exact step.trans (W9_arg m ρ c prev)

/-! ### The intermediate arrays -/

/-- The column of the nodes' total edge weights, written by the first stretch, is still there when the two fused calls are entered. -/
theorem W5_v3 : W5 m ρ c (Proc.devRef .tc main_v3) = W1 m ρ c (Proc.devRef .tc main_v3) :=
  calc W5 m ρ c (Proc.devRef .tc main_v3)
    _ = W4 m ρ c (Proc.devRef .tc main_v3) := by host_keep hostOps2
    _ = W3 m ρ c (Proc.devRef .tc main_v3) := W4_of_ne m ρ c main_v3 (by decide)
    _ = W2 m ρ c (Proc.devRef .tc main_v3) := by host_keep hostOps1
    _ = W1 m ρ c (Proc.devRef .tc main_v3) := W2_of_ne m ρ c main_v3 (by decide)
/-- The first fused call only reads the column (its fourth window), so it leaves the call as it entered. -/
theorem W7_v3 : W7 m ρ c (Proc.devRef .tc main_v3) = W1 m ρ c (Proc.devRef .tc main_v3) :=
  calc W7 m ρ c (Proc.devRef .tc main_v3)
    _ = W6 m ρ c (Proc.devRef .tc main_v3) := by host_keep hostOps3
    _ = W5 m ρ c (Proc.devRef .tc main_v3) :=
        (W6_arr m ρ c 3).trans (((dat2 (V5 m ρ) c).arrAt_in 3 rfl _).trans (A_eq2 (V5 m ρ) c 3))
    _ = W1 m ρ c (Proc.devRef .tc main_v3) := W5_v3 m ρ c
/-- Each residual input is still there when its fused call is entered, and the last residual output when the last dense call is. -/
theorem W5_v19 : W5 m ρ c (Proc.devRef .tc main_v19) = W4 m ρ c (Proc.devRef .tc main_v19) := by
  host_keep hostOps2
theorem W7_v39 : W7 m ρ c (Proc.devRef .tc main_v39) = W6 m ρ c (Proc.devRef .tc main_v39) := by
  host_keep hostOps3
theorem W9_v59 : W9 m ρ c (Proc.devRef .tc main_v59) = W8 m ρ c (Proc.devRef .tc main_v59) := by
  host_keep hostOps4

end Cert.KernelIdeal.Carry

end
-- ==== Proof.LibScatterRead.lean ====
/-
  The two accumulating scatters and the row gather of a sparse-times-dense product, read at an index on the extended
  reals.

  An accumulating scatter leaves, at every element of its operand, that element plus the sum of the updates that land
  on it; an update lands where its start index, read signed and not clamped, plus its window coordinate says, and is
  dropped when that is outside the operand. Two layouts occur here. CELLS: the operand is a matrix [R, C], the start
  indices are pairs (row, column) in an array [N, 2], and update `k` of a vector [N] lands on the cell its pair names.
  ROWS: the operand is [R, B], the start indices a column [N, 1] of rows, and the updates an array [N, B] whose row
  `k` lands, entry by entry, on the operand row its start index names. The gather is the inverse reading: an operand
  [S, B] at a column [N, 1] of start indices gives [N, B], row `k` the operand's row at the start index, read signed
  and clamped into [0, S - 1].
-/
import Idealize.ShloMosaic.Lib.ValueIdx

noncomputable section

open scoped BigOperators

namespace Cert.SparseMM

open Idealize.ShloMosaic Idealize.ShloMosaic.ValueIdx

/-! ## Where an update lands, for any dimension numbers -/

/-- An update index lands on operand index `i` exactly when on every axis its start plus its window coordinate is
    `i`'s coordinate: inside the operand the landing index is those sums, and outside it there is none. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    constructor
    · intro e a
      have e' := congrFun (Option.some.inj e) a
      rw [← e']
      exact (Int.toNat_of_nonneg (h a).1).symm
    · intro e
      refine congrArg some (funext fun a => Fin.ext ?_)
      show (d.start j idx a + (d.window j a : Int)).toNat = (i a).val
      rw [e a]
      exact Int.toNat_natCast _
  · rename_i h
    constructor
    · intro e
      cases e
    · intro e
      refine absurd (fun a => ?_) h
      rw [e a]
      exact ⟨Int.natCast_nonneg _, by exact_mod_cast (i a).isLt⟩

/-- A vector's indices are its positions. -/
def idxEquiv1 {n : Nat} : (⟨1, ![n]⟩ : Shape).Idx ≃ Fin n where
  toFun i := i 0
  invFun k := ix1 k
  left_inv i := (eq_ix1 i).symm
  right_inv _ := rfl

/-! ## Cells: pairs (row, column) name the cell each update lands on -/

section Cells

/-- The dimension numbers of the scatter onto cells: no window axes, both operand axes inserted and named, in order,
    by the two entries of a start index, the index vector along axis 1. -/
abbrev cellDims (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

variable {R C N w : Nat} (wf : ScatterDims.WF ⟨2, ![R, C]⟩ ⟨2, ![N, 2]⟩ ⟨1, ![N]⟩ [] [0, 1] [0, 1] 1)

/-- On the row axis update `k` starts at the first entry of its pair. -/
theorem cell_start0 (idx : IVec ⟨2, ![N, 2]⟩ w) (k : Fin N) :
    (cellDims R C N wf).start (ix1 k) idx 0 = (idx (ix2 k 0)).toInt := by
  unfold ScatterDims.start
  rw [dif_pos (show (0 : Fin 2) ∈ ([0, 1] : List (Fin 2)) by decide)]
  have hsi : (cellDims R C N wf).siIdx (ix1 k) ⟨List.idxOf (0 : Fin 2) (cellDims R C N wf).scatterDimsToOperandDims,
      List.idxOf_lt_length_iff.2 (show (0 : Fin 2) ∈ ([0, 1] : List (Fin 2)) by decide)⟩ = ix2 k 0 := by
    funext b; refine Fin.ext ?_
    match b with
    | ⟨0, _⟩ => rfl
    | ⟨1, _⟩ => rfl
  rw [hsi]

/-- On the column axis it starts at the second entry. -/
theorem cell_start1 (idx : IVec ⟨2, ![N, 2]⟩ w) (k : Fin N) :
    (cellDims R C N wf).start (ix1 k) idx 1 = (idx (ix2 k 1)).toInt := by
  unfold ScatterDims.start
  rw [dif_pos (show (1 : Fin 2) ∈ ([0, 1] : List (Fin 2)) by decide)]
  have hsi : (cellDims R C N wf).siIdx (ix1 k) ⟨List.idxOf (1 : Fin 2) (cellDims R C N wf).scatterDimsToOperandDims,
      List.idxOf_lt_length_iff.2 (show (1 : Fin 2) ∈ ([0, 1] : List (Fin 2)) by decide)⟩ = ix2 k 1 := by
    funext b; refine Fin.ext ?_
    match b with
    | ⟨0, _⟩ => rfl
    | ⟨1, _⟩ => rfl
  rw [hsi]

/-- There is no window: both operand axes are inserted. -/
theorem cell_window (j : (⟨1, ![N]⟩ : Shape).Idx) (a : Fin 2) : (cellDims R C N wf).window j a = 0 := by
  unfold ScatterDims.window
  refine dif_neg ?_
  show ¬ (a ∈ ((List.finRange 2).filter (· ∉ ([0, 1] : List (Fin 2)))))
  revert a
  decide

/-- Update `k` lands on cell (r, c) exactly when its pair, read signed, is (r, c). -/
theorem cell_lands_iff (idx : IVec ⟨2, ![N, 2]⟩ w) (k : Fin N) (r : Fin R) (c : Fin C) :
    (cellDims R C N wf).resultIdx? (ix1 k) idx = some (ix2 r c) ↔
      (idx (ix2 k 0)).toInt = (r.val : Int) ∧ (idx (ix2 k 1)).toInt = (c.val : Int) := by
  rw [resultIdx?_eq_some_iff]
  constructor
  · intro h
    have h0 := h 0
    have h1 := h 1
    rw [cell_start0, cell_window, Nat.cast_zero, add_zero] at h0
    rw [cell_start1, cell_window, Nat.cast_zero, add_zero] at h1
    exact ⟨h0, h1⟩
  · intro h a
    match a with
    | ⟨0, _⟩ =>
      show (cellDims R C N wf).start (ix1 k) idx 0 + ((cellDims R C N wf).window (ix1 k) 0 : Int) = (r.val : Int)
      rw [cell_start0, cell_window, Nat.cast_zero, add_zero]; exact h.1
    | ⟨1, _⟩ =>
      show (cellDims R C N wf).start (ix1 k) idx 1 + ((cellDims R C N wf).window (ix1 k) 1 : Int) = (c.val : Int)
      rw [cell_start1, cell_window, Nat.cast_zero, add_zero]; exact h.2

/-- THE SCATTER ONTO CELLS READ AT (r, c): the operand's cell plus the sum of the updates whose pair is (r, c). -/
theorem scatterAdd_cells_apply {φ : FTy} (x : FVec Ideal ⟨2, ![R, C]⟩ φ) (idx : IVec ⟨2, ![N, 2]⟩ w)
    (upd : FVec Ideal ⟨1, ![N]⟩ φ) (r : Fin R) (c : Fin C) :
    Host.scatterAdd (cellDims R C N wf) x idx upd (ix2 r c)
      = x (ix2 r c) + ∑ k ∈ Finset.univ.filter (fun k : Fin N =>
          (idx (ix2 k 0)).toInt = (r.val : Int) ∧ (idx (ix2 k 1)).toInt = (c.val : Int)), upd (ix1 k) := by
  show Ideal.hostScatterAdd (cellDims R C N wf) x idx upd (ix2 r c) = _
  unfold Ideal.hostScatterAdd
  refine congrArg (x (ix2 r c) + ·) ?_
  refine Finset.sum_equiv idxEquiv1 (fun j => ?_) (fun j _ => congrArg upd (eq_ix1 j))
  rw [Finset.mem_filter, Finset.mem_filter]
  refine and_congr (by simp) ?_
  rw [eq_ix1 j]
  exact cell_lands_iff wf idx (j 0) r c

end Cells

/-! ## Rows: a column of row numbers names the operand row each update row lands on -/

section Rows

/-- The dimension numbers of the scatter onto rows: the updates' axis 1 is the window, the operand's axis 0 is inserted
    and named by the one entry of a start index, the index vector along axis 1. -/
abbrev rowDims (R B N : Nat) (wf : ScatterDims.WF ⟨2, ![R, B]⟩ ⟨2, ![N, 1]⟩ ⟨2, ![N, B]⟩ [1] [0] [0] 1) :
    ScatterDims ⟨2, ![R, B]⟩ ⟨2, ![N, 1]⟩ ⟨2, ![N, B]⟩ where
  updateWindowDims := [1]
  insertedWindowDims := [0]
  scatterDimsToOperandDims := [0]
  indexVectorDim := 1
  wf := wf

variable {R B N w : Nat} (wf : ScatterDims.WF ⟨2, ![R, B]⟩ ⟨2, ![N, 1]⟩ ⟨2, ![N, B]⟩ [1] [0] [0] 1)

/-- On the row axis update (k, b) starts at entry `k` of the column of row numbers. -/
theorem row_start0 (idx : IVec ⟨2, ![N, 1]⟩ w) (k : Fin N) (b : Fin B) :
    (rowDims R B N wf).start (ix2 k b) idx 0 = (idx (ix2 k 0)).toInt := by
  unfold ScatterDims.start
  rw [dif_pos (show (0 : Fin 2) ∈ ([0] : List (Fin 2)) by decide)]
  have hsi : (rowDims R B N wf).siIdx (ix2 k b) ⟨List.idxOf (0 : Fin 2) (rowDims R B N wf).scatterDimsToOperandDims,
      List.idxOf_lt_length_iff.2 (show (0 : Fin 2) ∈ ([0] : List (Fin 2)) by decide)⟩ = ix2 k 0 := by
    funext a; refine Fin.ext ?_
    match a with
    | ⟨0, _⟩ => rfl
    | ⟨1, _⟩ => rfl
  rw [hsi]

/-- On the other axis it starts at zero: no entry names it. -/
theorem row_start1 (idx : IVec ⟨2, ![N, 1]⟩ w) (j : (⟨2, ![N, B]⟩ : Shape).Idx) :
    (rowDims R B N wf).start j idx 1 = 0 := by
  unfold ScatterDims.start
  exact dif_neg (show ¬ ((1 : Fin 2) ∈ ([0] : List (Fin 2))) by decide)

/-- The row axis is inserted: no window coordinate there. -/
theorem row_window0 (j : (⟨2, ![N, B]⟩ : Shape).Idx) : (rowDims R B N wf).window j 0 = 0 := by
  unfold ScatterDims.window
  exact dif_neg (show ¬ ((0 : Fin 2) ∈ ((List.finRange 2).filter (· ∉ ([0] : List (Fin 2))))) by decide)

/-- On the other axis the window coordinate is the update's own. -/
theorem row_window1 (k : Fin N) (b : Fin B) : (rowDims R B N wf).window (ix2 k b) 1 = b.val := by
  unfold ScatterDims.window
  have h1 : (1 : Fin 2) ∈ (rowDims R B N wf).sKept :=
    show (1 : Fin 2) ∈ ((List.finRange 2).filter (· ∉ ([0] : List (Fin 2)))) by decide
  rw [dif_pos h1]
  rfl

/-- Update (k, b') lands on (r, b) exactly when entry `k` of the row numbers, read signed, is `r`, and b' is b. -/
theorem row_lands_iff (idx : IVec ⟨2, ![N, 1]⟩ w) (k : Fin N) (b' : Fin B) (r : Fin R) (b : Fin B) :
    (rowDims R B N wf).resultIdx? (ix2 k b') idx = some (ix2 r b) ↔
      (idx (ix2 k 0)).toInt = (r.val : Int) ∧ b' = b := by
  rw [resultIdx?_eq_some_iff]
  constructor
  · intro h
    have h0 := h 0
    have h1 := h 1
    rw [row_start0, row_window0, Nat.cast_zero, add_zero] at h0
    rw [row_start1, row_window1, zero_add] at h1
    exact ⟨h0, Fin.ext (by exact_mod_cast h1)⟩
  · intro h a
    match a with
    | ⟨0, _⟩ =>
      show (rowDims R B N wf).start (ix2 k b') idx 0 + ((rowDims R B N wf).window (ix2 k b') 0 : Int) = (r.val : Int)
      rw [row_start0, row_window0, Nat.cast_zero, add_zero]; exact h.1
    | ⟨1, _⟩ =>
      show (rowDims R B N wf).start (ix2 k b') idx 1 + ((rowDims R B N wf).window (ix2 k b') 1 : Int) = (b.val : Int)
      rw [row_start1, row_window1, zero_add, h.2]

/-- THE SCATTER ONTO ROWS READ AT (r, b): the operand's entry plus the sum, over the update rows `k` whose row number is
    `r`, of entry `b` of update row `k`. -/
theorem scatterAdd_rows_apply {φ : FTy} (x : FVec Ideal ⟨2, ![R, B]⟩ φ) (idx : IVec ⟨2, ![N, 1]⟩ w)
    (upd : FVec Ideal ⟨2, ![N, B]⟩ φ) (r : Fin R) (b : Fin B) :
    Host.scatterAdd (rowDims R B N wf) x idx upd (ix2 r b)
      = x (ix2 r b) + ∑ k ∈ Finset.univ.filter (fun k : Fin N => (idx (ix2 k 0)).toInt = (r.val : Int)), upd (ix2 k b) := by
  show Ideal.hostScatterAdd (rowDims R B N wf) x idx upd (ix2 r b) = _
  unfold Ideal.hostScatterAdd
  refine congrArg (x (ix2 r b) + ·) ?_
  have lands : ∀ j : (⟨2, ![N, B]⟩ : Shape).Idx, (rowDims R B N wf).resultIdx? j idx = some (ix2 r b) →
      (idx (ix2 (j 0 : Fin N) 0)).toInt = (r.val : Int) ∧ (j 1 : Fin B) = b := by
    intro j hj
    rw [eq_ix2 j] at hj
    exact (row_lands_iff wf idx (j 0) (j 1) r b).mp hj
  refine Finset.sum_bij' (fun j _ => (j 0 : Fin N)) (fun k _ => ix2 k b) ?_ ?_ ?_ ?_ ?_
  · intro j hj
    exact Finset.mem_filter.mpr ⟨Finset.mem_univ _, (lands j (Finset.mem_filter.mp hj).2).1⟩
  · intro k hk
    exact Finset.mem_filter.mpr ⟨Finset.mem_univ _,
      (row_lands_iff wf idx k b r b).mpr ⟨(Finset.mem_filter.mp hk).2, rfl⟩⟩
  · intro j hj
    have hb := (lands j (Finset.mem_filter.mp hj).2).2
    show ix2 (j 0 : Fin N) b = j
    rw [← hb]
    exact (eq_ix2 j).symm
  · intro k _
    rfl
  · intro j hj
    have hb := (lands j (Finset.mem_filter.mp hj).2).2
    show upd j = upd (ix2 (j 0 : Fin N) b)
    rw [← hb]
    exact congrArg upd (eq_ix2 j)

end Rows

/-! ## The row gather -/

section RowGather
variable {α : Type}

/-- The dimension numbers of the row gather for an operand [S, B], start indices [N, 1] and a result [N, B]: the
    result's axis 1 is the offset axis, the operand's axis 0 is collapsed and named by the one entry of a start index,
    slices of shape [1, B]. -/
abbrev rowGatherDims (S B N : Nat)
    (wf : GatherDims.WF ⟨2, ![S, B]⟩ ⟨2, ![N, 1]⟩ ⟨2, ![N, B]⟩ [1] [0] [] [0] [] 1 ![1, B]) :
    GatherDims ⟨2, ![S, B]⟩ ⟨2, ![N, 1]⟩ ⟨2, ![N, B]⟩ where
  offsetDims := [1]
  collapsedSliceDims := [0]
  operandBatchingDims := []
  startIndicesBatchingDims := []
  startIndexMap := [0]
  indexVectorDim := 1
  sliceSizes := ![1, B]
  wf := wf

/-- THE ROW GATHER READ AT (k, b): the operand at the row start index `k` names, read signed and clamped into
    [0, S - 1], and at column `b`. -/
theorem gather_rows_apply {S B N w : Nat} (hS : 0 < S)
    (wf : GatherDims.WF ⟨2, ![S, B]⟩ ⟨2, ![N, 1]⟩ ⟨2, ![N, B]⟩ [1] [0] [] [0] [] 1 ![1, B])
    (x : (⟨2, ![S, B]⟩ : Shape).Idx → α) (idx : IVec ⟨2, ![N, 1]⟩ w) (k : Fin N) (b : Fin B) :
    Host.gather (rowGatherDims S B N wf) x idx (ix2 k b)
      = x (ix2 ⟨min (idx (ix2 k 0)).toInt.toNat (S - 1), by omega⟩ b) := by
  unfold Host.gather
  congr 1
  funext a
  refine Fin.ext ?_
  match a with
  | ⟨0, _⟩ =>
    show (rowGatherDims S B N wf).start (ix2 k b) idx 0 + (rowGatherDims S B N wf).batchCoord (ix2 k b) 0
      + (rowGatherDims S B N wf).offCoord (ix2 k b) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 2) ∈ ([0] : List (Fin 2)) by decide))]
    simp only [Nat.add_zero]
    unfold GatherDims.start
    rw [dif_pos (show (0 : Fin 2) ∈ ([0] : List (Fin 2)) by decide)]
    have hsi : (rowGatherDims S B N wf).siIdx (ix2 k b) ⟨List.idxOf (0 : Fin 2) (rowGatherDims S B N wf).startIndexMap,
        List.idxOf_lt_length_iff.2 (show (0 : Fin 2) ∈ ([0] : List (Fin 2)) by decide)⟩ = ix2 k 0 := by
      funext c; refine Fin.ext ?_
      match c with
      | ⟨0, _⟩ => rfl
      | ⟨1, _⟩ => rfl
    rw [hsi]
    rfl
  | ⟨1, _⟩ =>
    show (rowGatherDims S B N wf).start (ix2 k b) idx 1 + (rowGatherDims S B N wf).batchCoord (ix2 k b) 1
      + (rowGatherDims S B N wf).offCoord (ix2 k b) 1 = b.val
    rw [GatherDims.batchCoord_eq_zero _ _ _ List.not_mem_nil]
    unfold GatherDims.start GatherDims.offCoord
    rw [dif_neg (show ¬ ((1 : Fin 2) ∈ ([0] : List (Fin 2))) by decide),
      dif_pos ((GatherDims.mem_sKept _ _).mpr
        ⟨show ¬ ((1 : Fin 2) ∈ ([0] : List (Fin 2))) by decide, List.not_mem_nil⟩)]
    simp only [Nat.add_zero, Nat.zero_add]
    rfl

end RowGather

end Cert.SparseMM

end
-- ==== Proof.LibScatterVec.lean ====
/-
  An accumulating scatter onto a VECTOR and a gather from a vector, read at an index on the extended reals.

  The operand is a vector [R], the start indices a column [N, 1], the updates a vector [N]: update `k` is added to the
  entry its start index names (read signed, not clamped), and is dropped when that is outside the vector. The gather
  is the inverse reading: entry `k` of the result is the operand's entry at start index `k`, read signed and clamped
  into [0, S - 1].
-/
import Idealize.ShloMosaic.Lib.ValueIdx
import proofs.«400381_j16071767622287_3_alg».proof.Proof.LibScatterRead

noncomputable section

open scoped BigOperators

namespace Cert.SparseVec

open Idealize.ShloMosaic Idealize.ShloMosaic.ValueIdx

/-- The dimension numbers of the scatter onto a vector: no window axis, the operand's one axis inserted and named by
    the one entry of a start index, the index vector along axis 1. -/
abbrev vecDims (R N : Nat) (wf : ScatterDims.WF ⟨1, ![R]⟩ ⟨2, ![N, 1]⟩ ⟨1, ![N]⟩ [] [0] [0] 1) :
    ScatterDims ⟨1, ![R]⟩ ⟨2, ![N, 1]⟩ ⟨1, ![N]⟩ where
  updateWindowDims := []
  insertedWindowDims := [0]
  scatterDimsToOperandDims := [0]
  indexVectorDim := 1
  wf := wf

/-- On the vector's one axis update `k` starts at entry `k` of the column of start indices, read signed. -/
theorem vec_start0 {R N w : Nat} (wf : ScatterDims.WF ⟨1, ![R]⟩ ⟨2, ![N, 1]⟩ ⟨1, ![N]⟩ [] [0] [0] 1)
    (idx : IVec ⟨2, ![N, 1]⟩ w) (k : Fin N) :
    (vecDims R N wf).start (ix1 k) idx 0 = (idx (ix2 k 0)).toInt := by
  unfold ScatterDims.start
  rw [dif_pos (show (0 : Fin 1) ∈ ([0] : List (Fin 1)) by decide)]
  have hsi : (vecDims R N wf).siIdx (ix1 k) ⟨List.idxOf (0 : Fin 1) (vecDims R N wf).scatterDimsToOperandDims,
      List.idxOf_lt_length_iff.2 (show (0 : Fin 1) ∈ ([0] : List (Fin 1)) by decide)⟩ = ix2 k 0 := by
    funext b; refine Fin.ext ?_
    match b with
    | ⟨0, _⟩ => rfl
    | ⟨1, _⟩ => rfl
  rw [hsi]

/-- There is no window: the vector's one axis is inserted. -/
theorem vec_window {R N : Nat} (wf : ScatterDims.WF ⟨1, ![R]⟩ ⟨2, ![N, 1]⟩ ⟨1, ![N]⟩ [] [0] [0] 1)
    (j : (⟨1, ![N]⟩ : Shape).Idx) (a : Fin 1) : (vecDims R N wf).window j a = 0 := by
  unfold ScatterDims.window
  refine dif_neg ?_
  show ¬ (a ∈ ((List.finRange 1).filter (· ∉ ([0] : List (Fin 1)))))
  revert a
  decide

/-- Update `k` lands on entry `r` exactly when its start index, read signed, is `r`. -/
theorem vec_lands_iff {R N w : Nat} (wf : ScatterDims.WF ⟨1, ![R]⟩ ⟨2, ![N, 1]⟩ ⟨1, ![N]⟩ [] [0] [0] 1)
    (idx : IVec ⟨2, ![N, 1]⟩ w) (k : Fin N) (r : Fin R) :
    (vecDims R N wf).resultIdx? (ix1 k) idx = some (ix1 r) ↔ (idx (ix2 k 0)).toInt = (r.val : Int) := by
  rw [Cert.SparseMM.resultIdx?_eq_some_iff]
  constructor
  · intro h
    have h0 := h 0
    rw [vec_start0, vec_window, Nat.cast_zero, add_zero] at h0
    exact h0
  · intro h a
    match a with
    | ⟨0, _⟩ =>
      show (vecDims R N wf).start (ix1 k) idx 0 + ((vecDims R N wf).window (ix1 k) 0 : Int) = (r.val : Int)
      rw [vec_start0, vec_window, Nat.cast_zero, add_zero]; exact h

/-- THE SCATTER ONTO A VECTOR READ AT r: the operand's entry plus the sum of the updates whose start index is r. -/
theorem scatterAdd_vec_apply {R N w : Nat} (wf : ScatterDims.WF ⟨1, ![R]⟩ ⟨2, ![N, 1]⟩ ⟨1, ![N]⟩ [] [0] [0] 1) {φ : FTy}
    (x : FVec Ideal ⟨1, ![R]⟩ φ) (idx : IVec ⟨2, ![N, 1]⟩ w) (upd : FVec Ideal ⟨1, ![N]⟩ φ) (r : Fin R) :
    Host.scatterAdd (vecDims R N wf) x idx upd (ix1 r)
      = x (ix1 r) + ∑ k ∈ Finset.univ.filter (fun k : Fin N => (idx (ix2 k 0)).toInt = (r.val : Int)), upd (ix1 k) := by
  show Ideal.hostScatterAdd (vecDims R N wf) x idx upd (ix1 r) = _
  unfold Ideal.hostScatterAdd
  refine congrArg (x (ix1 r) + ·) ?_
  -- the update indices are the positions 0 … N - 1: re-index the sum by them
  refine Finset.sum_equiv Cert.SparseMM.idxEquiv1 (fun j => ?_) (fun j _ => congrArg upd (eq_ix1 j))
  rw [Finset.mem_filter, Finset.mem_filter]
  refine and_congr (by simp) ?_
  rw [eq_ix1 j]
  exact vec_lands_iff wf idx (j 0) r

/-- The dimension numbers of the gather from a vector [S] at start indices [N, 1] into [N]. -/
abbrev vecGatherDims (S N : Nat) (wf : GatherDims.WF ⟨1, ![S]⟩ ⟨2, ![N, 1]⟩ ⟨1, ![N]⟩ [] [0] [] [0] [] 1 ![1]) :
    GatherDims ⟨1, ![S]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- THE GATHER FROM A VECTOR READ AT k: the operand at start index `k`, read signed and clamped into [0, S - 1]. -/
theorem gather_vec_apply {α : Type} {S N w : Nat} (hS : 0 < S)
    (wf : GatherDims.WF ⟨1, ![S]⟩ ⟨2, ![N, 1]⟩ ⟨1, ![N]⟩ [] [0] [] [0] [] 1 ![1])
    (x : (⟨1, ![S]⟩ : Shape).Idx → α) (idx : IVec ⟨2, ![N, 1]⟩ w) (k : Fin N) :
    Host.gather (vecGatherDims S N wf) x idx (ix1 k)
      = x (ix1 ⟨min (idx (ix2 k 0)).toInt.toNat (S - 1), by omega⟩) := by
  unfold Host.gather
  congr 1
  funext a
  refine Fin.ext ?_
  match a with
  | ⟨0, _⟩ =>
    -- the one axis is collapsed and is no batching axis: the operand coordinate is the clamped start alone
    show (vecGatherDims S N wf).start (ix1 k) idx 0 + (vecGatherDims S N wf).batchCoord (ix1 k) 0
      + (vecGatherDims S N wf).offCoord (ix1 k) 0 = min (idx (ix2 k 0)).toInt.toNat (S - 1)
    rw [GatherDims.batchCoord_eq_zero _ _ _ List.not_mem_nil,
      GatherDims.offCoord_eq_zero _ _ _ (fun h => ((GatherDims.mem_sKept _ _).mp h).1
        (show (0 : Fin 1) ∈ ([0] : List (Fin 1)) by decide))]
    simp only [Nat.add_zero]
    unfold GatherDims.start
    rw [dif_pos (show (0 : Fin 1) ∈ ([0] : List (Fin 1)) by decide)]
    have hsi : (vecGatherDims S N wf).siIdx (ix1 k) ⟨List.idxOf (0 : Fin 1) (vecGatherDims S N wf).startIndexMap,
        List.idxOf_lt_length_iff.2 (show (0 : Fin 1) ∈ ([0] : List (Fin 1)) by decide)⟩ = ix2 k 0 := by
      funext c; refine Fin.ext ?_
      match c with
      | ⟨0, _⟩ => rfl
      | ⟨1, _⟩ => rfl
    rw [hsi]
    rfl

end Cert.SparseVec

end
-- ==== Proof.GraphMath.lean ====
/-
  A graph network's layers over the extended reals, for arbitrary finite index types.

  An edge list gives, for every node r, the finite set S r of edges that land on r, and for every edge e the node
  g e whose row the edge reads. The aggregation of a node-by-feature array M with edge weights val is
      agg M r j = sum over e in S r of val e * M (g e) j ,
  a dense layer is  lin x w b r j = (sum over k of x r k * w k j) + b j , and relu is the maximum with zero.
  One residual step of the network is  h + relu (agg (lin h w b)) * ts.  A second way of computing the same step
  aggregates first:  h + max ((sum over k of agg h r k * w k j) + rowsum r * b j) 0 * ts  with
  rowsum r = sum over e in S r of val e.  The two agree when every entry is a real number, because the aggregation is
  linear:  sum_e val e * (sum_k h (g e) k * w k j + b j) = sum_k (sum_e val e * h (g e) k) * w k j + (sum_e val e) * b j ,
  which is distributivity and an exchange of two finite sums over the reals (it can fail at infinite entries, where
  the extended reals do not distribute).
-/
import Idealize.ShloMosaic.PureOps.Ideal

noncomputable section

open scoped BigOperators

namespace Cert.GraphNet

/-- Every entry of a one-index array of extended reals is a real number. -/
def Real1 {ι : Type} (x : ι → EReal) : Prop := ∃ x' : ι → ℝ, x = fun i => ((x' i : ℝ) : EReal)

/-- Every entry of a two-index array of extended reals is a real number. -/
def Real2 {ι κ : Type} (x : ι → κ → EReal) : Prop := ∃ x' : ι → κ → ℝ, x = fun i k => ((x' i k : ℝ) : EReal)

section Layers

variable {E N K J : Type} [Fintype K]

/-- The aggregation: at node r and feature j, the weighted sum over the edges landing on r of the source rows. -/
def agg (S : N → Finset E) (g : E → N) (val : E → EReal) (M : N → J → EReal) : N → J → EReal :=
  fun r j => ∑ e ∈ S r, val e * M (g e) j

/-- The total weight of the edges landing on a node. -/
def rowsum (S : N → Finset E) (val : E → EReal) : N → EReal := fun r => ∑ e ∈ S r, val e

/-- A dense layer: the matrix product plus the bias row. -/
def lin (x : N → K → EReal) (w : K → J → EReal) (b : J → EReal) : N → J → EReal :=
  fun r j => (∑ k, x r k * w k j) + b j

/-- The maximum with zero, entry by entry. -/
def relu (M : N → J → EReal) : N → J → EReal := fun r j => max (M r j) 0

/-- One residual step, the dense layer first and the aggregation after it. -/
def stepRef (S : N → Finset E) (g : E → N) (val : E → EReal) (h : N → K → EReal) (w : K → K → EReal) (b : K → EReal)
    (ts : EReal) : N → K → EReal :=
  fun r j => h r j + relu (agg S g val (lin h w b)) r j * ts

/-- One residual step, the aggregation first: the product of the aggregated rows with the weights plus the bias row
    scaled by the node's total edge weight. -/
def stepAgg (S : N → Finset E) (g : E → N) (val : E → EReal) (h : N → K → EReal) (w : K → K → EReal) (b : K → EReal)
    (ts : EReal) : N → K → EReal :=
  fun r j => h r j + max ((∑ k, agg S g val h r k * w k j) + rowsum S val r * b j) 0 * ts

/-- A real sum read on the extended reals. -/
theorem coe_sum {ι : Type} (s : Finset ι) (f : ι → ℝ) : ((∑ i ∈ s, f i : ℝ) : EReal) = ∑ i ∈ s, ((f i : ℝ) : EReal) := by
  classical
  -- induction on the finite set: the empty sum is zero on both sides, and one more term is one more addition
  induction s using Finset.induction_on with
  | empty => simp
  | insert a s ha ih => rw [Finset.sum_insert ha, Finset.sum_insert ha, EReal.coe_add, ih]

/-- The maximum of a real number with zero, read on the extended reals: the coercion is monotone, so it commutes with
    the maximum. -/
private theorem coe_max_zero (a : ℝ) : ((max a 0 : ℝ) : EReal) = max (a : EReal) 0 := by
  rw [EReal.coe_strictMono.monotone.map_max, EReal.coe_zero]

/-- The linearity of the aggregation over the reals: distribute the edge weight over the dense layer's sum and its
    bias, split the sum, pull the bias out of the second part, and in the first part exchange the sum over the edges
    with the sum over the features. -/
private theorem real_agg_lin (s : Finset E) (g : E → N) (v : E → ℝ) (h : N → K → ℝ) (w : K → J → ℝ) (b : J → ℝ) (j : J) :
    ∑ e ∈ s, v e * ((∑ k, h (g e) k * w k j) + b j)
      = (∑ k, (∑ e ∈ s, v e * h (g e) k) * w k j) + (∑ e ∈ s, v e) * b j := by
  simp only [mul_add, Finset.sum_add_distrib, Finset.mul_sum, Finset.sum_mul]
  rw [Finset.sum_comm]
  congr 1
  refine Finset.sum_congr rfl fun k _ => Finset.sum_congr rfl fun e _ => ?_
  ring

theorem real_lin {x : N → K → EReal} {w : K → J → EReal} {b : J → EReal} (hx : Real2 x) (hw : Real2 w) (hb : Real1 b) :
    Real2 (lin x w b) := by
  obtain ⟨x', rfl⟩ := hx
  obtain ⟨w', rfl⟩ := hw
  obtain ⟨b', rfl⟩ := hb
  -- the real dense layer is the witness; the coercion goes through the sum, the products and the addition
  refine ⟨fun r j => (∑ k, x' r k * w' k j) + b' j, ?_⟩
  funext r j
  simp only [lin, EReal.coe_add, coe_sum, EReal.coe_mul]

theorem real_agg (S : N → Finset E) (g : E → N) {val : E → EReal} {M : N → J → EReal} (hv : Real1 val) (hM : Real2 M) :
    Real2 (agg S g val M) := by
  obtain ⟨v', rfl⟩ := hv
  obtain ⟨M', rfl⟩ := hM
  -- the real aggregation is the witness
  refine ⟨fun r j => ∑ e ∈ S r, v' e * M' (g e) j, ?_⟩
  funext r j
  simp only [agg, coe_sum, EReal.coe_mul]

theorem real_relu {M : N → J → EReal} (hM : Real2 M) : Real2 (relu M) := by
  obtain ⟨M', rfl⟩ := hM
  -- the real maximum with zero is the witness
  refine ⟨fun r j => max (M' r j) 0, ?_⟩
  funext r j
  simp only [relu, coe_max_zero]

theorem real_stepRef (S : N → Finset E) (g : E → N) {val : E → EReal} {h : N → K → EReal} {w : K → K → EReal} {b : K → EReal}
    {ts : EReal} (hv : Real1 val) (hh : Real2 h) (hw : Real2 w) (hb : Real1 b) (hts : ∃ t : ℝ, ts = (t : EReal)) :
    Real2 (stepRef S g val h w b ts) := by
  -- the relu of the aggregated dense layer is real by the three lemmas above; the step adds its product with a real
  -- scalar to a real array
  obtain ⟨R', hR⟩ := real_relu (real_agg S g hv (real_lin hh hw hb))
  obtain ⟨h', rfl⟩ := hh
  obtain ⟨t, rfl⟩ := hts
  refine ⟨fun r j => h' r j + R' r j * t, ?_⟩
  funext r j
  show (h' r j : EReal) + relu (agg S g val (lin (fun i k => ((h' i k : ℝ) : EReal)) w b)) r j * (t : EReal) = _
  rw [hR, EReal.coe_add, EReal.coe_mul]

/-- THE LINEARITY OF THE AGGREGATION: on real entries the aggregation of a dense layer is the dense product of the
    aggregated rows plus the bias row scaled by the node's total edge weight. -/
theorem agg_lin (S : N → Finset E) (g : E → N) {val : E → EReal} {h : N → K → EReal} {w : K → J → EReal} {b : J → EReal}
    (hv : Real1 val) (hh : Real2 h) (hw : Real2 w) (hb : Real1 b) (r : N) (j : J) :
    agg S g val (lin h w b) r j = (∑ k, agg S g val h r k * w k j) + rowsum S val r * b j := by
  obtain ⟨v', rfl⟩ := hv
  obtain ⟨h', rfl⟩ := hh
  obtain ⟨w', rfl⟩ := hw
  obtain ⟨b', rfl⟩ := hb
  -- both sides are coercions of real expressions: pull every coercion to the outside, then use the real identity
  simp only [agg, lin, rowsum, ← EReal.coe_mul, ← EReal.coe_add, ← coe_sum]
  rw [real_agg_lin]

/-- The two ways of computing a residual step agree on real entries. -/
theorem stepAgg_eq_stepRef (S : N → Finset E) (g : E → N) {val : E → EReal} {h : N → K → EReal} {w : K → K → EReal}
    {b : K → EReal} (ts : EReal) (hv : Real1 val) (hh : Real2 h) (hw : Real2 w) (hb : Real1 b) :
    stepAgg S g val h w b ts = stepRef S g val h w b ts := by
  funext r j
  -- the two sides differ only in the argument of the maximum, and there by the linearity of the aggregation
  show h r j + max ((∑ k, agg S g val h r k * w k j) + rowsum S val r * b j) 0 * ts
      = h r j + max (agg S g val (lin h w b) r j) 0 * ts
  rw [agg_lin S g hv hh hw hb r j]

end Layers

section Network

variable {E N K0 K C : Type} [Fintype K0] [Fintype K]

/-- The whole network, every step the dense layer first. -/
def netRef (S : N → Finset E) (g : E → N) (val : E → EReal) (x : N → K0 → EReal) (w1 : K0 → K → EReal) (b1 : K → EReal)
    (wa : K → K → EReal) (ba : K → EReal) (wb : K → K → EReal) (bb : K → EReal) (w2 : K → C → EReal) (b2 : C → EReal)
    (ts : EReal) : N → C → EReal :=
  agg S g val (lin (stepRef S g val (stepRef S g val (relu (agg S g val (lin x w1 b1))) wa ba ts) wb bb ts) w2 b2)

/-- The whole network, the two residual steps aggregating first. -/
def netAgg (S : N → Finset E) (g : E → N) (val : E → EReal) (x : N → K0 → EReal) (w1 : K0 → K → EReal) (b1 : K → EReal)
    (wa : K → K → EReal) (ba : K → EReal) (wb : K → K → EReal) (bb : K → EReal) (w2 : K → C → EReal) (b2 : C → EReal)
    (ts : EReal) : N → C → EReal :=
  agg S g val (lin (stepAgg S g val (stepAgg S g val (relu (agg S g val (lin x w1 b1))) wa ba ts) wb bb ts) w2 b2)

/-- On real inputs the two networks are one function. -/
theorem netAgg_eq_netRef (S : N → Finset E) (g : E → N) {val : E → EReal} {x : N → K0 → EReal} {w1 : K0 → K → EReal}
    {b1 : K → EReal} {wa : K → K → EReal} {ba : K → EReal} {wb : K → K → EReal} {bb : K → EReal} {w2 : K → C → EReal}
    {b2 : C → EReal} {ts : EReal} (hv : Real1 val) (hx : Real2 x) (hw1 : Real2 w1) (hb1 : Real1 b1) (hwa : Real2 wa)
    (hba : Real1 ba) (hwb : Real2 wb) (hbb : Real1 bb) (hts : ∃ t : ℝ, ts = (t : EReal)) :
    netAgg S g val x w1 b1 wa ba wb bb w2 b2 ts = netRef S g val x w1 b1 wa ba wb bb w2 b2 ts := by
  unfold netAgg netRef
  -- the input of the first residual step is real, so that step may be computed either way; its result is real again,
  -- so the second step may be too
  have h0 : Real2 (relu (agg S g val (lin x w1 b1))) := real_relu (real_agg S g hv (real_lin hx hw1 hb1))
  rw [stepAgg_eq_stepRef S g ts hv h0 hwa hba]
  rw [stepAgg_eq_stepRef S g ts hv (real_stepRef S g hv h0 hwa hba hts) hwb hbb]

end Network

end Cert.GraphNet

end
-- ==== Proof.Spec.lean ====
/-
  The arrays of the graph network at their literal shapes, and each stretch of host operations of the two programs
  read as a layer of the network.

  An array [a, b] of extended reals is read as the two-index function (r, j) ↦ x (r, j) (`cur`), a vector as a
  one-index function (`cur1`). The edge list is three arrays over the 640000 edges: `row` (the node an edge lands
  on, read signed: an edge whose number is outside [0, 40000) lands nowhere), the start indices of the row gather
  (read signed and clamped into [0, 39999]: `src`), and the edge weights. With these the accumulating scatter of
  the weighted gathered rows is the aggregation `agg`, the accumulating scatter of the weights themselves is
  `rowsum`, a matrix product plus a broadcast bias row is `lin`, and the maximum with a zero splat is `relu`.
-/
import Idealize.ShloMosaic.Lib.ValueIdx
import Idealize.ShloMosaic.Lib.Pipeline.Value
import Idealize.ShloMosaic.Lib.StackMember
import Idealize.ShloMosaic.PureOps.Ideal.Laws
import proofs.«400381_j16071767622287_3_alg».proof.Proof.LibScatterRead
import proofs.«400381_j16071767622287_3_alg».proof.Proof.LibScatterVec
import proofs.«400381_j16071767622287_3_alg».proof.Proof.GraphMath

noncomputable section

open scoped BigOperators

namespace Cert.GraphNet

open Idealize.ShloMosaic Idealize.ShloMosaic.ValueIdx

/-- The shape of a vector of length `a`. -/
abbrev sh1 (a : Nat) : Shape := ⟨1, ![a]⟩
/-- The shape of an `a` by `b` matrix. -/
abbrev sh2 (a b : Nat) : Shape := ⟨2, ![a, b]⟩
/-- The shape of a scalar. -/
abbrev sh0 : Shape := ⟨0, ![]⟩

/-- A matrix read as a two-index function. -/
def cur {a b : Nat} (x : FVec Ideal (sh2 a b) .f32) : Fin a → Fin b → EReal := fun r j => x (ix2 r j)
/-- A vector read as a one-index function. -/
def cur1 {a : Nat} (x : FVec Ideal (sh1 a) .f32) : Fin a → EReal := fun r => x (ix1 r)
/-- A two-index function as a matrix. -/
def unc {a b : Nat} (f : Fin a → Fin b → EReal) : FVec Ideal (sh2 a b) .f32 := fun i => f (i 0) (i 1)

theorem unc_cur {a b : Nat} (x : FVec Ideal (sh2 a b) .f32) : unc (cur x) = x :=
  funext fun i => (congrArg x (eq_ix2 i)).symm
theorem cur_unc {a b : Nat} (f : Fin a → Fin b → EReal) : cur (unc f) = f := rfl
theorem unc_apply {a b : Nat} (f : Fin a → Fin b → EReal) (r : Fin a) (j : Fin b) : unc f (ix2 r j) = f r j := rfl

/-- The edges that land on node `r`: those whose row number, read signed, is `r`. -/
def lands (row : IVec (sh1 640000) 32) (r : Fin 40000) : Finset (Fin 640000) :=
  Finset.univ.filter fun e => (row (ix1 e)).toInt = (r.val : Int)

/-- The node whose row edge `e` reads: its start index, read signed and clamped into [0, 39999]. -/
def src (start : IVec (sh2 640000 1) 32) (e : Fin 640000) : Fin 40000 :=
  ⟨min (start (ix2 e 0)).toInt.toNat (40000 - 1), by omega⟩

/-! ## The layers as whole-array functions (what each pallas_call leaves in its output array) -/

/-- A dense layer on whole arrays, the bias a [1, d] row. -/
def denseArr {n k d : Nat} (X : FVec Ideal (sh2 n k) .f32) (W : FVec Ideal (sh2 k d) .f32) (B : FVec Ideal (sh2 1 d) .f32) :
    FVec Ideal (sh2 n d) .f32 :=
  unc (lin (cur X) (cur W) (fun j => B (ix2 0 j)))

/-- The maximum with zero on a whole array. -/
def reluArr {n d : Nat} (X : FVec Ideal (sh2 n d) .f32) : FVec Ideal (sh2 n d) .f32 := unc (relu (cur X))

/-- The fused residual step on whole arrays: `A` the aggregated rows, `W` the weights, `B` the bias as a [1, d] row,
    `R` the nodes' total edge weights as a column, `H` the residual input, `T` the step as a [1, 1] array. -/
def fusedArr {n d : Nat} (A : FVec Ideal (sh2 n d) .f32) (W : FVec Ideal (sh2 d d) .f32) (B : FVec Ideal (sh2 1 d) .f32)
    (R : FVec Ideal (sh2 n 1) .f32) (H : FVec Ideal (sh2 n d) .f32) (T : FVec Ideal (sh2 1 1) .f32) : FVec Ideal (sh2 n d) .f32 :=
  unc fun r j => cur H r j + max ((∑ k, cur A r k * cur W k j) + R (ix2 r 0) * B (ix2 0 j)) 0 * T (ix2 0 0)

/-! ## The host stretches read as layers -/

/-! ### Broadcasts read at an index

A broadcast reads its operand at the result index's coordinates on the axes it keeps, and at 0 on an operand axis of
extent one. Each layout below says which operand entry that is. An extent that is a variable may itself be one; then
the coordinate on that axis is 0 anyway, so both branches of the rule give the same entry. -/

/-- A scalar broadcast to any shape reads the scalar everywhere. -/
private theorem bcast_scalar_apply {α : Type} {t : Shape} (h : sh0.BroadcastsInDim t ![]) (x : sh0.Idx → α) (j : t.Idx) :
    broadcastInDim t ![] h x j = x ix0 :=
  broadcastInDim_apply _ h x j ix0 fun a => a.elim0

/-- A vector broadcast to a column reads entry `e` in row `e`. -/
private theorem bcast_col_apply {α : Type} {n : Nat} (h : (sh1 n).BroadcastsInDim (sh2 n 1) ![0]) (x : (sh1 n).Idx → α)
    (e : Fin n) : broadcastInDim (sh2 n 1) ![0] h x (ix2 e 0) = x (ix1 e) :=
  broadcastInDim_apply _ h x (ix2 e 0) (ix1 e) fun a => by
    match a with
    | ⟨0, _⟩ =>
      show e.val = if n = 1 then 0 else e.val
      split
      · have := e.isLt; omega
      · rfl

/-- A column broadcast along the rows of a matrix reads, anywhere in row `e`, the column's entry `e`. -/
private theorem bcast_col_mat_apply {α : Type} {n d : Nat} (h : (sh2 n 1).BroadcastsInDim (sh2 n d) ![0, 1])
    (x : (sh2 n 1).Idx → α) (e : Fin n) (j : Fin d) : broadcastInDim (sh2 n d) ![0, 1] h x (ix2 e j) = x (ix2 e 0) :=
  broadcastInDim_apply _ h x (ix2 e j) (ix2 e 0) fun a => by
    match a with
    | ⟨0, _⟩ =>
      show e.val = if n = 1 then 0 else e.val
      split
      · have := e.isLt; omega
      · rfl
    | ⟨1, _⟩ =>
      show (0 : Nat) = if (1 : Nat) = 1 then 0 else j.val
      rw [if_pos rfl]

/-- A vector broadcast to a one-row matrix reads entry `j` in column `j`. -/
private theorem bcast_row_apply {α : Type} {d : Nat} (h : (sh1 d).BroadcastsInDim (sh2 1 d) ![1]) (x : (sh1 d).Idx → α)
    (j : Fin d) : broadcastInDim (sh2 1 d) ![1] h x (ix2 0 j) = x (ix1 j) :=
  broadcastInDim_apply _ h x (ix2 0 j) (ix1 j) fun a => by
    match a with
    | ⟨0, _⟩ =>
      show j.val = if d = 1 then 0 else j.val
      split
      · have := j.isLt; omega
      · rfl

/-- A one-row matrix broadcast down the rows reads, anywhere in column `j`, the row's entry `j`. -/
private theorem bcast_rows_apply {α : Type} {n d : Nat} (h : (sh2 1 d).BroadcastsInDim (sh2 n d) ![0, 1])
    (x : (sh2 1 d).Idx → α) (r : Fin n) (j : Fin d) : broadcastInDim (sh2 n d) ![0, 1] h x (ix2 r j) = x (ix2 0 j) :=
  broadcastInDim_apply _ h x (ix2 r j) (ix2 0 j) fun a => by
    match a with
    | ⟨0, _⟩ =>
      show (0 : Nat) = if (1 : Nat) = 1 then 0 else r.val
      rw [if_pos rfl]
    | ⟨1, _⟩ =>
      show j.val = if d = 1 then 0 else j.val
      split
      · have := j.isLt; omega
      · rfl

section Chains

variable {D : Nat}

/-- THE AGGREGATION: the accumulating scatter onto a zero array [40000, D], at the rows `row` names, of the
    edge weights times the gathered rows of `M`. -/
theorem aggChain_cur
    (wfS : ScatterDims.WF (sh2 40000 D) (sh2 640000 1) (sh2 640000 D) [1] [0] [0] 1)
    (wfG : GatherDims.WF (sh2 40000 D) (sh2 640000 1) (sh2 640000 D) [1] [0] [] [0] [] 1 ![1, D])
    (hz : sh0.BroadcastsInDim (sh2 40000 D) ![]) (hr : (sh1 640000).BroadcastsInDim (sh2 640000 1) ![0])
    (hv : (sh1 640000).BroadcastsInDim (sh2 640000 1) ![0]) (hvv : (sh2 640000 1).BroadcastsInDim (sh2 640000 D) ![0, 1])
    (val : FVec Ideal (sh1 640000) .f32) (row : IVec (sh1 640000) 32) (start : IVec (sh2 640000 1) 32)
    (M : FVec Ideal (sh2 40000 D) .f32) :
    cur (Host.scatterAdd (Cert.SparseMM.rowDims 40000 D 640000 wfS)
          (broadcastInDim (sh2 40000 D) ![] hz (constant (F := Ideal) sh0 .f32 0x00000000#32))
          (broadcastInDim (sh2 640000 1) ![0] hr row)
          (mulf (broadcastInDim (sh2 640000 D) ![0, 1] hvv (broadcastInDim (sh2 640000 1) ![0] hv val))
            (Host.gather (Cert.SparseMM.rowGatherDims 40000 D 640000 wfG) M start)))
      = agg (lands row) (src start) (cur1 val) (cur M) := by
  funext r j
  show Host.scatterAdd (Cert.SparseMM.rowDims 40000 D 640000 wfS) _ _ _ (ix2 r j) = _
  -- the scatter at (r, j): the zero entry plus the sum, over the edges whose row number is r, of the update's entry j
  rw [Cert.SparseMM.scatterAdd_rows_apply wfS, bcast_scalar_apply, constant_apply, Ideal.ofBits_zero_f32, zero_add]
  unfold agg lands
  refine Finset.sum_congr (Finset.filter_congr fun e _ => ?_) fun e _ => ?_
  · -- the column of row numbers at row e is the vector's entry e
    rw [bcast_col_apply]
  · -- the update at (e, j): the weight of edge e times the gathered row's entry j
    rw [mulf_apply, bcast_col_mat_apply, bcast_col_apply, Cert.SparseMM.gather_rows_apply (by decide : 0 < 40000) wfG]
    rfl

/-- THE NODES' TOTAL EDGE WEIGHTS: the accumulating scatter of the weights onto a zero vector [40000], reshaped to a
    column, read at row `r`. -/
theorem rowsumChain_apply
    (wfV : ScatterDims.WF (sh1 40000) (sh2 640000 1) (sh1 640000) [] [0] [0] 1)
    (hz : sh0.BroadcastsInDim (sh1 40000) ![]) (hr : (sh1 640000).BroadcastsInDim (sh2 640000 1) ![0])
    (hc : (sh1 40000).ShapeCasts (sh2 40000 1))
    (val : FVec Ideal (sh1 640000) .f32) (row : IVec (sh1 640000) 32) (r : Fin 40000) :
    shapeCast (sh2 40000 1) (Host.scatterAdd (Cert.SparseVec.vecDims 40000 640000 wfV)
          (broadcastInDim (sh1 40000) ![] hz (constant (F := Ideal) sh0 .f32 0x00000000#32))
          (broadcastInDim (sh2 640000 1) ![0] hr row) val) hc (ix2 r 0)
      = rowsum (lands row) (cur1 val) r := by
  -- entry (r, 0) of the column and entry r of the vector have the same row-major position
  rw [shapeCast_apply _ hc (ix2 r 0) (ix1 r) (by
    rw [Shape.rowMajor_val_one, Shape.rowMajor_val_two]
    show r.val = r.val * 1 + 0
    omega)]
  rw [Cert.SparseVec.scatterAdd_vec_apply wfV, bcast_scalar_apply, constant_apply, Ideal.ofBits_zero_f32, zero_add]
  unfold rowsum lands
  refine Finset.sum_congr (Finset.filter_congr fun e _ => ?_) fun e _ => rfl
  rw [bcast_col_apply]

/-- A DENSE LAYER ON THE HOST: the matrix product plus the bias vector broadcast to a row and then down the rows. -/
theorem hostLin_cur {n k : Nat} (x : FVec Ideal (sh2 n k) .f32) (w : FVec Ideal (sh2 k D) .f32) (b : FVec Ideal (sh1 D) .f32)
    (h1 : (sh1 D).BroadcastsInDim (sh2 1 D) ![1]) (h2 : (sh2 1 D).BroadcastsInDim (sh2 n D) ![0, 1]) :
    cur (addf (Host.dotGeneral (DotDims.plain n k D) none x w)
          (broadcastInDim (sh2 n D) ![0, 1] h2 (broadcastInDim (sh2 1 D) ![1] h1 b)))
      = lin (cur x) (cur w) (cur1 b) := by
  funext r j
  show addf (Host.dotGeneral (DotDims.plain n k D) none x w) _ (ix2 r j) = _
  rw [addf_apply, StackMember.dotGeneral_plain_apply, bcast_rows_apply, bcast_row_apply]
  rfl

/-- RELU ON THE HOST: the maximum with a zero splat. -/
theorem hostRelu_cur {n : Nat} (x : FVec Ideal (sh2 n D) .f32) (hz : sh0.BroadcastsInDim (sh2 n D) ![]) :
    cur (maximumf x (broadcastInDim (sh2 n D) ![] hz (constant (F := Ideal) sh0 .f32 0x00000000#32))) = relu (cur x) := by
  funext r j
  show maximumf x _ (ix2 r j) = _
  rw [maximumf_apply, bcast_scalar_apply, constant_apply, Ideal.ofBits_zero_f32]
  rfl

/-- THE RESIDUAL UPDATE ON THE HOST: `h + f * ts` with the scalar step broadcast over the array. -/
theorem hostAxpy_cur {n : Nat} (h f : FVec Ideal (sh2 n D) .f32) (ts : FVec Ideal sh0 .f32)
    (hb : sh0.BroadcastsInDim (sh2 n D) ![]) :
    cur (addf h (mulf f (broadcastInDim (sh2 n D) ![] hb ts))) = fun r j => cur h r j + cur f r j * ts ix0 := by
  funext r j
  show addf h (mulf f _) (ix2 r j) = _
  rw [addf_apply, mulf_apply, bcast_scalar_apply]
  rfl

/-- A vector reshaped to a one-row matrix, read at column `j`. -/
theorem rowOfVec_apply (b : FVec Ideal (sh1 D) .f32) (hc : (sh1 D).ShapeCasts (sh2 1 D)) (j : Fin D) :
    shapeCast (sh2 1 D) b hc (ix2 0 j) = b (ix1 j) := by
  -- entry (0, j) of the one-row matrix and entry j of the vector have the same row-major position
  refine shapeCast_apply b hc (ix2 0 j) (ix1 j) ?_
  rw [Shape.rowMajor_val_one, Shape.rowMajor_val_two]
  show j.val = 0 * D + j.val
  omega

/-- A scalar reshaped to a [1, 1] array, read at its one entry. -/
theorem oneOfScalar_apply (t : FVec Ideal sh0 .f32) (hc : sh0.ShapeCasts (sh2 1 1)) :
    shapeCast (sh2 1 1) t hc (ix2 0 0) = t ix0 := by
  -- both arrays have one entry, at row-major position 0
  refine shapeCast_apply t hc (ix2 0 0) ix0 ?_
  have h0 : (sh0.rowMajor ix0).val = 0 := Shape.rowMajorPi_zero _ _
  rw [h0, Shape.rowMajor_val_two]
  rfl

end Chains

/-- The kernel's matrix product into a zero accumulator is the host's matrix product, at the ideal values. -/
theorem matmul_zero_eq_dot {sl sr so : Shape} (d : DotDims sl sr so) (prec : Option ContractPrecision)
    (A : FVec Ideal sl .f32) (B : FVec Ideal sr .f32) :
    matmul d prec A B (constant so .f32 0x00000000#32) = Host.dotGeneral d prec A B := by
  funext j
  -- at every index both sides are the sum over the contraction index of the products of the operands' entries
  show FloatOps.matmul d prec A B (constant so .f32 0x00000000#32) j = FloatOps.dotGeneral d prec .single A B j
  exact (Ideal.matmul_constant_zero_apply d prec A B j).trans (Ideal.dotGeneral_apply d prec .single A B j).symm

end Cert.GraphNet

end
-- ==== Proof.Net.lean ====
/-
  The network's result as ONE function of the eleven argument arrays, in its two arrangements, and their equality
  on real inputs.

  From the arguments: the edges landing on a node are read off `row`; the start indices of the row gather are the
  column numbers with the negative ones shifted up by 40000 (`startIdx`; the gather then clamps them); layer i of the
  two residual steps has weights `wm[i]` and bias `bm[i]` (`wMid`, `bMid`: a slice and a reshape, so every entry
  of either is an entry of the stacked array); the step size is the scalar's one entry.
-/
import proofs.«400381_j16071767622287_3_alg».proof.Proof.Spec

noncomputable section

namespace Cert.GraphNet

open Idealize.ShloMosaic Idealize.ShloMosaic.ValueIdx

/-- The stacked weights' shape [2, 128, 128] and one layer's [1, 128, 128]. -/
abbrev sh3 (a b c : Nat) : Shape := ⟨3, ![a, b, c]⟩

/-- The start indices of the row gather: the column numbers, a negative one shifted up by 40000, as a column. -/
def startIdx (col : IVec (sh1 640000) 32) : IVec (sh2 640000 1) 32 :=
  broadcastInDim (sh2 640000 1) ![0] (by decide)
    (select (cmpi .slt col (broadcastInDim (sh1 640000) ![] (by decide) (constantI sh0 32 0#32)))
      (addi col (broadcastInDim (sh1 640000) ![] (by decide) (constantI sh0 32 40000#32))) col)

/-- Layer i's weights out of the stacked [2, 128, 128] array. -/
def wMid (i : Nat) (hs : (sh3 2 128 128).Slices ![i, 0, 0] (sh3 1 128 128)) (wm : FVec Ideal (sh3 2 128 128) .f32) :
    FVec Ideal (sh2 128 128) .f32 :=
  shapeCast (sh2 128 128) (extractStridedSlice (sh3 1 128 128) ![i, 0, 0] wm hs) (by decide)

/-- Layer i's bias out of the stacked [2, 128] array. -/
def bMid (i : Nat) (hs : (sh2 2 128).Slices ![i, 0] (sh2 1 128)) (bm : FVec Ideal (sh2 2 128) .f32) :
    FVec Ideal (sh1 128) .f32 :=
  shapeCast (sh1 128) (extractStridedSlice (sh2 1 128) ![i, 0] bm hs) (by decide)

section Result

variable (x : FVec Ideal (sh2 40000 256) .f32) (row col : IVec (sh1 640000) 32) (val : FVec Ideal (sh1 640000) .f32)
  (w1 : FVec Ideal (sh2 256 128) .f32) (b1 : FVec Ideal (sh1 128) .f32) (wm : FVec Ideal (sh3 2 128 128) .f32)
  (bm : FVec Ideal (sh2 2 128) .f32) (w2 : FVec Ideal (sh2 128 64) .f32) (b2 : FVec Ideal (sh1 64) .f32)
  (ts : FVec Ideal sh0 .f32)

/-- The network's result, every step the dense layer first. -/
def outRef : FVec Ideal (sh2 40000 64) .f32 :=
  unc (netRef (lands row) (src (startIdx col)) (cur1 val) (cur x) (cur w1) (cur1 b1)
    (cur (wMid 0 (by decide) wm)) (cur1 (bMid 0 (by decide) bm)) (cur (wMid 1 (by decide) wm)) (cur1 (bMid 1 (by decide) bm))
    (cur w2) (cur1 b2) (ts ix0))

/-- The network's result, the two residual steps aggregating first. -/
def outAgg : FVec Ideal (sh2 40000 64) .f32 :=
  unc (netAgg (lands row) (src (startIdx col)) (cur1 val) (cur x) (cur w1) (cur1 b1)
    (cur (wMid 0 (by decide) wm)) (cur1 (bMid 0 (by decide) bm)) (cur (wMid 1 (by decide) wm)) (cur1 (bMid 1 (by decide) bm))
    (cur w2) (cur1 b2) (ts ix0))

end Result

/-- Reading a real array through any map of indices gives a real array. -/
theorem Real1.comp {ι κ : Type} {x : ι → EReal} (h : Real1 x) (f : κ → ι) : Real1 (fun j => x (f j)) := by
  obtain ⟨x', rfl⟩ := h
  exact ⟨fun j => x' (f j), rfl⟩

theorem real_cur {a b : Nat} {x : FVec Ideal (sh2 a b) .f32} (h : Real1 x) : Real2 (cur x) := by
  obtain ⟨x', rfl⟩ := h
  exact ⟨fun r j => x' (ix2 r j), rfl⟩

theorem real_cur1 {a : Nat} {x : FVec Ideal (sh1 a) .f32} (h : Real1 x) : Real1 (cur1 x) := h.comp _

/-- ON REAL INPUTS THE TWO ARRANGEMENTS GIVE ONE RESULT. -/
theorem outAgg_eq_outRef (x : FVec Ideal (sh2 40000 256) .f32) (row col : IVec (sh1 640000) 32) (val : FVec Ideal (sh1 640000) .f32)
    (w1 : FVec Ideal (sh2 256 128) .f32) (b1 : FVec Ideal (sh1 128) .f32) (wm : FVec Ideal (sh3 2 128 128) .f32)
    (bm : FVec Ideal (sh2 2 128) .f32) (w2 : FVec Ideal (sh2 128 64) .f32) (b2 : FVec Ideal (sh1 64) .f32)
    (ts : FVec Ideal sh0 .f32)
    (hx : Real1 x) (hval : Real1 val) (hw1 : Real1 w1) (hb1 : Real1 b1) (hwm : Real1 wm) (hbm : Real1 bm) (hts : Real1 ts) :
    outAgg x row col val w1 b1 wm bm w2 b2 ts = outRef x row col val w1 b1 wm bm w2 b2 ts := by
  unfold outAgg outRef
  refine congrArg unc (netAgg_eq_netRef _ _ (real_cur1 hval) (real_cur hx) (real_cur hw1) (real_cur1 hb1)
    (real_cur (hwm.comp _)) (real_cur1 (hbm.comp _)) (real_cur (hwm.comp _)) (real_cur1 (hbm.comp _)) ?_)
  obtain ⟨t, rfl⟩ := hts
  exact ⟨t ix0, rfl⟩

end Cert.GraphNet

end
-- ==== Proof.KernelNames.lean ====
/-
  Names for the kernel program's arrays: the eleven argument arrays and the nine arrays the stretches and calls of
  @main write in turn, each at its literal type, and the edge list read off the integer arguments.
-/
import proofs.«400381_j16071767622287_3_alg».proof.Proof.Gen.KernelIdeal.Frame
import proofs.«400381_j16071767622287_3_alg».proof.Proof.Carry
import proofs.«400381_j16071767622287_3_alg».proof.Proof.Net
import Idealize.ShloMosaic.Lib.StableHlo.Run

set_option maxRecDepth 16384

noncomputable section

namespace Cert.KernelIdeal.KValue

open Cert.KernelIdeal Cert.KernelIdeal.Gen Cert.KernelIdeal.Carry Cert.GraphNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## The argument arrays at their literal types -/

abbrev aX : FVec Ideal (sh2 40000 256) .f32 := m ((c : Thread nD τ).loc main_arg0)
abbrev aRow : IVec (sh1 640000) 32 := m ((c : Thread nD τ).loc main_arg1)
abbrev aCol : IVec (sh1 640000) 32 := m ((c : Thread nD τ).loc main_arg2)
abbrev aVal : FVec Ideal (sh1 640000) .f32 := m ((c : Thread nD τ).loc main_arg3)
abbrev aW1 : FVec Ideal (sh2 256 128) .f32 := m ((c : Thread nD τ).loc main_arg4)
abbrev aB1 : FVec Ideal (sh1 128) .f32 := m ((c : Thread nD τ).loc main_arg5)
abbrev aWm : FVec Ideal (sh3 2 128 128) .f32 := m ((c : Thread nD τ).loc main_arg6)
abbrev aBm : FVec Ideal (sh2 2 128) .f32 := m ((c : Thread nD τ).loc main_arg7)
abbrev aW2 : FVec Ideal (sh2 128 64) .f32 := m ((c : Thread nD τ).loc main_arg8)
abbrev aB2 : FVec Ideal (sh1 64) .f32 := m ((c : Thread nD τ).loc main_arg9)
abbrev aTs : FVec Ideal sh0 .f32 := m ((c : Thread nD τ).loc main_arg10)

/-- The edges landing on a node, the node an edge reads, the edge weights. -/
abbrev eS : Fin 40000 → Finset (Fin 640000) := lands (aRow m c)
abbrev eG : Fin 640000 → Fin 40000 := src (startIdx (aCol m c))
abbrev eV : Fin 640000 → EReal := cur1 (aVal m c)

/-! ## The intermediate arrays at their literal types -/

abbrev kD0 : FVec Ideal (sh2 40000 128) .f32 := W2 m ρ c (Proc.devRef .tc main_v5)
abbrev kA0 : FVec Ideal (sh2 40000 128) .f32 := W3 m ρ c (Proc.devRef .tc main_v18)
abbrev kH0 : FVec Ideal (sh2 40000 128) .f32 := W4 m ρ c (Proc.devRef .tc main_v19)
abbrev kA1 : FVec Ideal (sh2 40000 128) .f32 := W5 m ρ c (Proc.devRef .tc main_v32)
abbrev kH1 : FVec Ideal (sh2 40000 128) .f32 := W6 m ρ c (Proc.devRef .tc main_v39)
abbrev kA2 : FVec Ideal (sh2 40000 128) .f32 := W7 m ρ c (Proc.devRef .tc main_v52)
abbrev kH2 : FVec Ideal (sh2 40000 128) .f32 := W8 m ρ c (Proc.devRef .tc main_v59)
abbrev kD4 : FVec Ideal (sh2 40000 64) .f32 := W10 m ρ c (Proc.devRef .tc main_v61)
abbrev kOut : FVec Ideal (sh2 40000 64) .f32 := W11 m ρ c (Proc.devRef .tc main_v74)

end Cert.KernelIdeal.KValue

end
-- ==== Proof.KernelHost.lean ====
/-
  The four stretches of @main that aggregate: each ends with the accumulating scatter, at the rows `row` names, of
  the edge weights times the gathered rows of the array the call before it left. Read as two-index functions, the
  array such a stretch writes is the aggregation of the array it reads.
-/
import proofs.«400381_j16071767622287_3_alg».proof.Proof.KernelNames

set_option maxRecDepth 16384

noncomputable section

namespace Cert.KernelIdeal.KValue

open Cert.KernelIdeal Cert.KernelIdeal.Gen Cert.KernelIdeal.Carry Cert.GraphNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-- The stretch after call 0 aggregates the first dense layer. -/
theorem agg0 : cur (kA0 m ρ c) = agg (eS m c) (eG m c) (eV m c) (cur (kD0 m ρ c)) := by
  show cur (StableHlo.after hostOps1 (W2 m ρ c) (Proc.devRef .tc main_v18)) = _
  after_results_simp
  rw [W2_arg m ρ c (b := main_arg1) (by simp [argsB]), W2_arg m ρ c (b := main_arg2) (by simp [argsB]),
    W2_arg m ρ c (b := main_arg3) (by simp [argsB])]
  exact aggChain_cur Facts₀.scatter_S40000x128_S640000x1_S640000x128_1_0_0_1_wf
    Facts₀.gather_S40000x128_S640000x1_S640000x128_1_0_n_n_0_1_1128_wf _ _ _ _ _ _ _ _

/-- The stretch after call 1 aggregates the first residual input. -/
theorem agg1 : cur (kA1 m ρ c) = agg (eS m c) (eG m c) (eV m c) (cur (kH0 m ρ c)) := by
  show cur (StableHlo.after hostOps2 (W4 m ρ c) (Proc.devRef .tc main_v32)) = _
  after_results_simp
  rw [W4_arg m ρ c (b := main_arg1) (by simp [argsB]), W4_arg m ρ c (b := main_arg2) (by simp [argsB]),
    W4_arg m ρ c (b := main_arg3) (by simp [argsB])]
  exact aggChain_cur Facts₀.scatter_S40000x128_S640000x1_S640000x128_1_0_0_1_wf
    Facts₀.gather_S40000x128_S640000x1_S640000x128_1_0_n_n_0_1_1128_wf _ _ _ _ _ _ _ _

/-- The stretch after call 2 aggregates the second residual input. -/
theorem agg2 : cur (kA2 m ρ c) = agg (eS m c) (eG m c) (eV m c) (cur (kH1 m ρ c)) := by
  show cur (StableHlo.after hostOps3 (W6 m ρ c) (Proc.devRef .tc main_v52)) = _
  after_results_simp
  rw [W6_arg m ρ c (b := main_arg1) (by simp [argsB]), W6_arg m ρ c (b := main_arg2) (by simp [argsB]),
    W6_arg m ρ c (b := main_arg3) (by simp [argsB])]
  exact aggChain_cur Facts₀.scatter_S40000x128_S640000x1_S640000x128_1_0_0_1_wf
    Facts₀.gather_S40000x128_S640000x1_S640000x128_1_0_n_n_0_1_1128_wf _ _ _ _ _ _ _ _

/-- The last stretch aggregates the last dense layer into the result. -/
theorem agg4 : cur (kOut m ρ c) = agg (eS m c) (eG m c) (eV m c) (cur (kD4 m ρ c)) := by
  show cur (StableHlo.after hostOps5 (W10 m ρ c) (Proc.devRef .tc main_v74)) = _
  after_results_simp
  rw [W10_arg m ρ c (b := main_arg1) (by simp [argsE]), W10_arg m ρ c (b := main_arg2) (by simp [argsE]),
    W10_arg m ρ c (b := main_arg3) (by simp [argsE])]
  exact aggChain_cur Facts₀.scatter_S40000x64_S640000x1_S640000x64_1_0_0_1_wf
    Facts₀.gather_S40000x64_S640000x1_S640000x64_1_0_n_n_0_1_164_wf _ _ _ _ _ _ _ _

end Cert.KernelIdeal.KValue

end
-- ==== Proof.Region0.lean ====
/-
  What the first dense pallas_call leaves in its output array: the matrix product of its input rows with the
  weights plus the bias row.

  The call runs over 8 grid points. Point t reads rows 5000 t … 5000 t + 4999 of the input [40000, 256], the whole
  weight matrix [256, 128] and the whole bias row [1, 128], and writes rows 5000 t … 5000 t + 4999 of the output
  [40000, 128]. The body's one store is the matrix product of the loaded row block with the weights, accumulated into
  a zero splat, plus the bias row broadcast down the rows. An entry of the product depends only on its own row of the
  input, so what point t writes back is block t of the whole-array dense layer, and the 8 blocks tile the array.
-/
import proofs.«400381_j16071767622287_3_alg».proof.Proof.Gen.KernelIdeal.Frame
import proofs.«400381_j16071767622287_3_alg».proof.Proof.Spec
import Idealize.ShloMosaic.Lib.Pipeline.Value

set_option maxRecDepth 16384

noncomputable section

namespace Cert.KernelIdeal.Region0

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The input array as the call finds it, at its literal type. -/
abbrev xArr (c : Dev nD) : FVec Ideal S40000x256 .f32 := V c main_arg0
/-- The weights as the call finds them, at their literal type. -/
abbrev wArr (c : Dev nD) : FVec Ideal S256x128 .f32 := V c main_arg4
/-- The bias row as the call finds it, at its literal type. -/
abbrev bArr (c : Dev nD) : FVec Ideal S1x128 .f32 := V c main_v4

theorem zero_corner : (![0, 0] : Fin 2 → Nat) = fun _ => 0 := funext fun a => by fin_cases a <;> rfl

/-- The printed dimension numbers are those of the plain product of a 5000×256 by a 256×128 matrix. -/
theorem dot_eq_plain : dot_S5000x256_S256x128_S5000x128_1_0_0_1_n_n = DotDims.plain 5000 256 128 := rfl

/-- The product into the zero accumulator at an entry: the sum over the contracted index of the products. -/
theorem mat_apply (x0 : FVec Ideal S5000x256 .f32) (x1 : FVec Ideal S256x128 .f32) (p : Fin 5000) (q : Fin 128) :
    matmul dot_S5000x256_S256x128_S5000x128_1_0_0_1_n_n none x0 x1 (constant S5000x128 .f32 0x00000000#32) (ix2 p q)
      = ∑ k : Fin 256, x0 (ix2 p k) * x1 (ix2 k q) := by
  rw [matmul_zero_eq_dot, dot_eq_plain]
  exact Idealize.ShloMosaic.StackMember.dotGeneral_plain_apply none x0 x1 p q

/-- The bias row broadcast down the rows, at an entry: the row's entry in that column. -/
theorem bias_apply (x2 : FVec Ideal S1x128 .f32) (p : Fin 5000) (q : Fin 128) :
    broadcastTo S5000x128 x2 broadcasts_S1x128_S5000x128 (ix2 p q) = x2 (ix2 0 q) := by
  refine broadcastTo_apply x2 _ (ix2 p q) (ix2 0 q) ?_
  intro a
  match a with
  | ⟨0, _⟩ => rfl
  | ⟨1, _⟩ => rfl

/-- The body's stored value at an entry: the row of the loaded block times the column of the weights, plus the bias
    row's entry in that column. -/
theorem pay_apply (x0 : Vec Ideal S5000x256 .f32) (x1 : Vec Ideal S256x128 .f32) (x2 : Vec Ideal S1x128 .f32)
    (p : Fin 5000) (q : Fin 128) :
    k0_pay1 x0 x1 x2 (ix2 p q) = (∑ k : Fin 256, x0 (ix2 p k) * x1 (ix2 k q)) + x2 (ix2 0 q) := by
  unfold k0_pay1
  rw [shapeCast_self]
  show (matmul (F := Ideal) dot_S5000x256_S256x128_S5000x128_1_0_0_1_n_n none x0 x1 (constant S5000x128 .f32 0x00000000#32) (ix2 p q)
      + broadcastTo S5000x128 x2 broadcasts_S1x128_S5000x128 (ix2 p q) : Ideal .f32) = _
  rw [mat_apply, bias_apply]

/-- The input and output windows sit on row block t, column block 0; the weights and the bias row are one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the whole-array dense layer. -/
theorem flushed_eq (c : Dev nD) (t : Fin cfg0.N) :
    (dat0 V c).flushed 3 t
      = ((cfg0.win 3).blk t).view.read (Elt Ideal) (denseArr (V c main_arg0) (V c main_arg4) (V c main_v4)) := by
  show (cfg0.win 3).cut (grid0.coords t) ((dat0 V c).after 3 t) = _
  rw [after0_3]
  unfold out0_3
  rw [View.canon_unit_zero zero_corner]
  simp only [View.ld_unit_zero (S := S5000x256) zero_corner, View.ld_unit_zero (S := S256x128) zero_corner,
    View.ld_unit_zero (S := S1x128) zero_corner]
  obtain ⟨e00, e01, e10, e11, e20, e21, e30, e31⟩ := idx_facts t
  funext j
  obtain ⟨p, q, rfl⟩ : ∃ (p : Fin 5000) (q : Fin 128), j = ix2 p q := ⟨j 0, j 1, eq_ix2 j⟩
  -- the entry's place in the whole output array: row r, column s
  obtain ⟨r, s, hrs⟩ : ∃ (r : Fin 40000) (s : Fin 128), ((cfg0.win 3).blk t).view.emb (ix2 p q) = ix2 r s :=
    ⟨_, _, eq_ix2 _⟩
  have hr : win0_3.index t (0 : Fin 2) * 5000 + 1 * p.val = r.val := congrArg (fun z => (z 0).val) hrs
  have hs : win0_3.index t (1 : Fin 2) * 128 + 1 * q.val = s.val := congrArg (fun z => (z 1).val) hrs
  -- the loaded row block's entry (p, k) is the input's entry (r, k)
  have hemb0 : ∀ k : Fin 256, ((cfg0.win 0).blk t).view.emb (ix2 p k) = ix2 r k := fun k => by
    funext a; apply Fin.ext
    match a with
    | ⟨0, _⟩ => show win0_0.index t (0 : Fin 2) * 5000 + 1 * p.val = r.val; omega
    | ⟨1, _⟩ => show win0_0.index t (1 : Fin 2) * 256 + 1 * k.val = k.val; omega
  -- the weights' block is the whole matrix: its entry (k, q) is the weights' entry (k, s)
  have hemb1 : ∀ k : Fin 256, ((cfg0.win 1).blk t).view.emb (ix2 k q) = ix2 k s := fun k => by
    funext a; apply Fin.ext
    match a with
    | ⟨0, _⟩ => show win0_1.index t (0 : Fin 2) * 256 + 1 * k.val = k.val; omega
    | ⟨1, _⟩ => show win0_1.index t (1 : Fin 2) * 128 + 1 * q.val = s.val; omega
  -- the bias row's block is the whole row: its entry (0, q) is the row's entry (0, s)
  have hemb2 : ((cfg0.win 2).blk t).view.emb (ix2 0 q) = ix2 0 s := by
    funext a; apply Fin.ext
    match a with
    | ⟨0, _⟩ => show win0_2.index t (0 : Fin 2) * 1 + 1 * 0 = 0; omega
    | ⟨1, _⟩ => show win0_2.index t (1 : Fin 2) * 128 + 1 * q.val = s.val; omega
  show k0_pay1 (iblk0 V c 0 t) (iblk0 V c 1 t) (iblk0 V c 2 t) (ix2 p q)
    = denseArr (V c main_arg0) (V c main_arg4) (V c main_v4) (((cfg0.win 3).blk t).view.emb (ix2 p q))
  refine (pay_apply (iblk0 V c 0 t) (iblk0 V c 1 t) (iblk0 V c 2 t) p q).trans ?_
  rw [hrs]
  show (∑ k : Fin 256, xArr V c (((cfg0.win 0).blk t).view.emb (ix2 p k)) * wArr V c (((cfg0.win 1).blk t).view.emb (ix2 k q)))
      + bArr V c (((cfg0.win 2).blk t).view.emb (ix2 0 q))
    = (∑ k : Fin 256, xArr V c (ix2 r k) * wArr V c (ix2 k s)) + bArr V c (ix2 0 s)
  rw [hemb2]
  exact congrArg (· + bArr V c (ix2 0 s)) (Finset.sum_congr rfl fun k _ => by rw [hemb0 k, hemb1 k])

/-- An index of the output array is in point t's block iff each coordinate is in the block's range on its axis. -/
theorem mem_blk (t : Fin cfg0.N) (i : S40000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v5).slice (win0_3.rect t)).set ↔ _
  rw [View.set_slice_whole, Rect.mem_set_unit]
  exact Iff.rfl

/-- Every index of the output array is in the block of the point its row falls in. -/
theorem cover (i : S40000x128.Idx) :
    ∃ t : Fin cfg0.N, (cfg0.win 3).flush t = true ∧ i ∈ ((cfg0.win 3).blk t).view.set := by
  have hi0 : (i 0).val < 40000 := (i 0).isLt
  have hi1 : (i 1).val < 128 := (i 1).isLt
  have ht : (i 0).val / 5000 < cfg0.N := by
    show (i 0).val / 5000 < grid0.N
    rw [N_0]; omega
  refine ⟨⟨(i 0).val / 5000, ht⟩, flush0_3 _, ?_⟩
  rw [mem_blk]
  obtain ⟨-, -, -, -, -, -, e30, e31⟩ := idx_facts ⟨(i 0).val / 5000, ht⟩
  intro a
  match a with
  | ⟨0, _⟩ =>
    show win0_3.index ⟨(i 0).val / 5000, ht⟩ (0 : Fin 2) * 5000 ≤ (i 0).val
      ∧ (i 0).val < win0_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win0_3.index ⟨(i 0).val / 5000, ht⟩ (1 : Fin 2) * 128 ≤ (i 1).val
      ∧ (i 1).val < win0_3.index ⟨(i 0).val / 5000, ht⟩ (1 : Fin 2) * 128 + 128
    rw [e31]; omega

/-- THE OUTPUT ARRAY after the call: the dense layer of the input array, the weights and the bias row as the call finds them. -/
theorem final (c : Dev nD) : (dat0 V c).arrAt 3 cfg0.N = denseArr (V c main_arg0) (V c main_arg4) (V c main_v4) :=
  (dat0 V c).arrAt_eq_of_cover 3 _ (fun t _ => flushed_eq V c t) cover

end Cert.KernelIdeal.Region0

end
-- ==== Proof.Region1.lean ====
/-
  What the relu pallas_call leaves in its output array: the maximum with zero of its input array, entry by entry.

  The call runs over 8 grid points; point t reads rows 5000 t … 5000 t + 4999 of the input [40000, 128] and writes
  the same rows of the output. The body's one store is the maximum of the loaded block with a zero splat, so what
  point t writes back is block t of the whole-array function, and the 8 blocks tile the array.
-/
import proofs.«400381_j16071767622287_3_alg».proof.Proof.Gen.KernelIdeal.Frame
import proofs.«400381_j16071767622287_3_alg».proof.Proof.Spec
import Idealize.ShloMosaic.Lib.Pipeline.Value

set_option maxRecDepth 16384

noncomputable section

namespace Cert.KernelIdeal.Region1

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The input array as the call finds it, at its literal type. -/
abbrev inArr (c : Dev nD) : FVec Ideal S40000x128 .f32 := V c main_v18

theorem zero_corner : (![0, 0] : Fin 2 → Nat) = fun _ => 0 := funext fun a => by fin_cases a <;> rfl

/-- The body's stored value at an entry: the larger of the loaded entry and zero. -/
theorem pay_apply (x0 : Vec Ideal S5000x128 .f32) (p : Fin 5000) (q : Fin 128) :
    k1_pay1 x0 (ix2 p q) = max (x0 (ix2 p q)) 0 := by
  unfold k1_pay1
  rw [shapeCast_self]
  show max (x0 (ix2 p q)) (Ideal.ofBits .f32 0x00000000#32) = _
  rw [Ideal.ofBits_zero_f32]

/-- Both windows sit on row block t, column block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- What point t writes back is block t of the whole-array maximum with zero. -/
theorem flushed_eq (c : Dev nD) (t : Fin cfg1.N) :
    (dat1 V c).flushed 1 t = ((cfg1.win 1).blk t).view.read (Elt Ideal) (reluArr (V c main_v18)) := by
  show (cfg1.win 1).cut (grid1.coords t) ((dat1 V c).after 1 t) = _
  rw [after1_1]
  unfold out1_1
  rw [View.canon_unit_zero zero_corner]
  simp only [View.ld_unit_zero (S := S5000x128) zero_corner]
  obtain ⟨e0, e1, e2, e3⟩ := idx_facts t
  funext j
  obtain ⟨p, q, rfl⟩ : ∃ (p : Fin 5000) (q : Fin 128), j = ix2 p q := ⟨j 0, j 1, eq_ix2 j⟩
  have hemb : ((cfg1.win 0).blk t).view.emb (ix2 p q) = ((cfg1.win 1).blk t).view.emb (ix2 p q) := by
    funext a; apply Fin.ext
    match a with
    | ⟨0, _⟩ => show win1_0.index t (0 : Fin 2) * 5000 + 1 * p.val = win1_1.index t (0 : Fin 2) * 5000 + 1 * p.val; omega
    | ⟨1, _⟩ => show win1_0.index t (1 : Fin 2) * 128 + 1 * q.val = win1_1.index t (1 : Fin 2) * 128 + 1 * q.val; omega
  show k1_pay1 (iblk1 V c 0 t) (ix2 p q) = reluArr (V c main_v18) (((cfg1.win 1).blk t).view.emb (ix2 p q))
  refine (pay_apply (iblk1 V c 0 t) p q).trans ?_
  show max (inArr V c (((cfg1.win 0).blk t).view.emb (ix2 p q))) 0 = _
  rw [hemb]
  exact congrArg (fun z => max (inArr V c z) 0) (eq_ix2 _)

/-- An index of the output array is in point t's block iff each coordinate is in the block's range on its axis. -/
theorem mem_blk (t : Fin cfg1.N) (i : S40000x128.Idx) :
    i ∈ ((cfg1.win 1).blk t).view.set ↔ ∀ a : Fin 2, win1_1.index t a * S5000x128.size a ≤ (i a).val
      ∧ (i a).val < win1_1.index t a * S5000x128.size a + S5000x128.size a := by
  show i ∈ ((View.whole main_v19).slice (win1_1.rect t)).set ↔ _
  rw [View.set_slice_whole, Rect.mem_set_unit]
  exact Iff.rfl

/-- Every index of the output array is in the block of the point its row falls in. -/
theorem cover (i : S40000x128.Idx) :
    ∃ t : Fin cfg1.N, (cfg1.win 1).flush t = true ∧ i ∈ ((cfg1.win 1).blk t).view.set := by
  have hi0 : (i 0).val < 40000 := (i 0).isLt
  have hi1 : (i 1).val < 128 := (i 1).isLt
  have ht : (i 0).val / 5000 < cfg1.N := by
    show (i 0).val / 5000 < grid1.N
    rw [N_1]; omega
  refine ⟨⟨(i 0).val / 5000, ht⟩, flush1_1 _, ?_⟩
  rw [mem_blk]
  obtain ⟨-, -, e2, e3⟩ := idx_facts ⟨(i 0).val / 5000, ht⟩
  intro a
  match a with
  | ⟨0, _⟩ =>
    show win1_1.index ⟨(i 0).val / 5000, ht⟩ (0 : Fin 2) * 5000 ≤ (i 0).val
      ∧ (i 0).val < win1_1.index ⟨(i 0).val / 5000, ht⟩ (0 : Fin 2) * 5000 + 5000
    rw [e2]; show (i 0).val / 5000 * 5000 ≤ (i 0).val ∧ (i 0).val < (i 0).val / 5000 * 5000 + 5000; omega
  | ⟨1, _⟩ =>
    show win1_1.index ⟨(i 0).val / 5000, ht⟩ (1 : Fin 2) * 128 ≤ (i 1).val
      ∧ (i 1).val < win1_1.index ⟨(i 0).val / 5000, ht⟩ (1 : Fin 2) * 128 + 128
    rw [e3]; omega

/-- THE OUTPUT ARRAY after the call: the maximum with zero of the input array as the call finds it. -/
theorem final (c : Dev nD) : (dat1 V c).arrAt 1 cfg1.N = reluArr (V c main_v18) :=
  (dat1 V c).arrAt_eq_of_cover 1 _ (fun t _ => flushed_eq V c t) cover

end Cert.KernelIdeal.Region1

end
-- ==== Proof.Region2.lean ====
/-
  What the first fused residual pallas_call leaves in its output array: the fused residual step of its six input
  arrays, entry by entry.

  The call runs over 8 grid points. Point t reads rows 5000 t … 5000 t + 4999 of the aggregated rows [40000, 128],
  of the column of total edge weights [40000, 1] and of the residual input [40000, 128]; the weights [128, 128], the
  bias row [1, 128] and the step [1, 1] are read whole at every point. The body's one store is
      residual + max (aggregated · weights + column * bias row, 0) * step ,
  the product a matrix product into a zero accumulator, the column broadcast along the rows, the bias row broadcast
  down the rows, and the step's one entry broadcast over the block. At an entry (p, q) of the block this is the
  whole-array function's value at row 5000 t + p and column q, so what point t writes back is block t of the
  whole-array function, and the 8 blocks tile the output array.
-/
import proofs.«400381_j16071767622287_3_alg».proof.Proof.Gen.KernelIdeal.Frame
import proofs.«400381_j16071767622287_3_alg».proof.Proof.Spec
import Idealize.ShloMosaic.Lib.Pipeline.Value

set_option maxRecDepth 16384

noncomputable section

namespace Cert.KernelIdeal.Region2

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The corner (0, 0), spelt as the constant zero offset. -/
theorem zero_corner : (![0, 0] : Fin 2 → Nat) = fun _ => 0 := funext fun a => by fin_cases a <;> rfl

/-- The one entry of a [1, 1] array, extracted at position (0, 0). -/
theorem extract_apply (v : Vec Ideal S1x1 .f32) : extractAt ![0, 0] v inpos_S1x1_p0_0 = v (ix2 0 0) := by
  unfold extractAt
  exact congrArg v (funext fun a => by match a with | ⟨0, _⟩ => rfl | ⟨1, _⟩ => rfl)

/-- The kernel's matrix product into a zero accumulator, at an entry: the sum over the contracted coordinate. -/
theorem mm_apply (a : FVec Ideal S5000x128 .f32) (w : FVec Ideal S128x128 .f32) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  have hd : dot_S5000x128_S128x128_S5000x128_1_0_0_1_n_n = DotDims.plain 5000 128 128 := rfl
  rw [hd, matmul_zero_eq_dot]
  exact StackMember.dotGeneral_plain_apply none a w p q

/-- The column [5000, 1] broadcast along the rows, at an entry: the column's entry on that row. -/
theorem bcol_apply (v : Vec Ideal S5000x1 .f32) (p : Fin 5000) (q : Fin 128) :
    broadcastTo S5000x128 v broadcasts_S5000x1_S5000x128 (ix2 p q) = v (ix2 p 0) :=
  broadcastTo_apply v broadcasts_S5000x1_S5000x128 (ix2 p q) (ix2 p 0) (by
    intro a
    match a with
    | ⟨0, _⟩ => first | rfl | simp
    | ⟨1, _⟩ => first | rfl | simp)

/-- The row [1, 128] broadcast down the rows, at an entry: the row's entry in that column. -/
theorem brow_apply (v : Vec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (by
    intro a
    match a with
    | ⟨0, _⟩ => first | rfl | simp
    | ⟨1, _⟩ => first | rfl | simp)

/-- The body's stored value at an entry (p, q): the residual entry plus the step times the maximum with zero of the
    matrix product's entry plus the column's entry on row p times the bias row's entry in column q. -/
theorem pay_apply (v0 : Vec Ideal S5000x128 .f32) (v2 : Vec Ideal S128x128 .f32) (v5 : Vec Ideal S5000x1 .f32)
    (v7 : Vec Ideal S1x128 .f32) (v15 : Vec Ideal S1x1 .f32) (v17 : Vec Ideal S5000x128 .f32) (p : Fin 5000) (q : Fin 128) :
    k2_pay1 v0 v2 v5 v7 v15 v17 (ix2 p q)
      = v17 (ix2 p q) + max ((∑ k : Fin 128, v0 (ix2 p k) * v2 (ix2 k q)) + v5 (ix2 p 0) * v7 (ix2 0 q)) 0 * v15 (ix2 0 0) := by
  unfold k2_pay1
  -- the casts to the same shape are the identity
  simp only [shapeCast_self]
  -- the elementwise operations read at the entry
  show v17 (ix2 p q) + max ((matmul dot_S5000x128_S128x128_S5000x128_1_0_0_1_n_n none v0 v2 (constant S5000x128 .f32 0x00000000#32) : FVec Ideal S5000x128 .f32) (ix2 p q)
        + broadcastTo S5000x128 v5 broadcasts_S5000x1_S5000x128 (ix2 p q) * broadcastTo S5000x128 v7 broadcasts_S1x128_S5000x128 (ix2 p q))
        (Ideal.ofBits .f32 0x00000000#32) * extractAt ![0, 0] v15 inpos_S1x1_p0_0 = _
  -- the product is the sum over the contracted coordinate, the two broadcasts read their operands, the extraction
  -- reads the step's one entry, and the zero splat is the extended real 0
  rw [mm_apply, bcol_apply, brow_apply, extract_apply, Ideal.ofBits_zero_f32]

/-! The six input arrays as the call finds them, at their literal types. -/

/-- The aggregated rows. -/
abbrev inA (c : Dev nD) : FVec Ideal S40000x128 .f32 := V c main_v32
/-- The weights. -/
abbrev inW (c : Dev nD) : FVec Ideal S128x128 .f32 := V c main_v34
/-- The bias row. -/
abbrev inB (c : Dev nD) : FVec Ideal S1x128 .f32 := V c main_v37
/-- The column of the nodes' total edge weights. -/
abbrev inR (c : Dev nD) : FVec Ideal S40000x1 .f32 := V c main_v3
/-- The residual input. -/
abbrev inH (c : Dev nD) : FVec Ideal S40000x128 .f32 := V c main_v19
/-- The step. -/
abbrev inT (c : Dev nD) : FVec Ideal S1x1 .f32 := V c main_v38

/-- The block index of every window at every grid point: the row-blocked windows (aggregated rows, edge-weight
    column, residual input, output) sit on row block t and column block 0; the weights, the bias row and the step
    have one block, at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

set_option maxHeartbeats 400000 in
/-- What point t writes back is block t of the whole-array fused residual step. -/
theorem flushed_eq (c : Dev nD) (t : Fin cfg2.N) :
    (dat2 V c).flushed 6 t = ((cfg2.win 6).blk t).view.read (Elt Ideal)
      (fusedArr (V c main_v32) (V c main_v34) (V c main_v37) (V c main_v3) (V c main_v19) (V c main_v38)) := by
  show (cfg2.win 6).cut (grid2.coords t) ((dat2 V c).after 6 t) = _
  rw [after2_6]
  unfold out2_6
  rw [View.canon_unit_zero zero_corner]
  simp only [View.ld_unit_zero (S := S5000x128) zero_corner, View.ld_unit_zero (S := S128x128) zero_corner,
    View.ld_unit_zero (S := S5000x1) zero_corner, View.ld_unit_zero (S := S1x128) zero_corner,
    View.ld_unit_zero (S := S1x1) zero_corner]
  obtain ⟨a0, a1, w0, w1, b0, b1, r0, r1, h0, h1, s0, s1, o0, o1⟩ := idx_facts t
  funext j
  obtain ⟨p, q, rfl⟩ : ∃ (p : Fin 5000) (q : Fin 128), j = ix2 p q := ⟨j 0, j 1, eq_ix2 j⟩

  have ht : t.val < 8 := lt_of_lt_of_eq t.isLt N_2
  have hr : t.val * 5000 + p.val < 40000 := by have := p.isLt; omega
  -- the row of the whole arrays this entry sits on
  obtain ⟨r, hrv⟩ : ∃ r : Fin 40000, r.val = t.val * 5000 + p.val := ⟨⟨_, hr⟩, rfl⟩
  -- every window's block entry that the payload reads, as an entry of its whole array: block index times block
  -- size plus the coordinate inside the block, with the block indices of idx_facts
  have e6 : ((cfg2.win 6).blk t).view.emb (ix2 p q) = ix2 r q := by
    funext a; apply Fin.ext
    match a with
    | ⟨0, _⟩ => show win2_6.index t (0 : Fin 2) * 5000 + 1 * p.val = r.val; omega
    | ⟨1, _⟩ => show win2_6.index t (1 : Fin 2) * 128 + 1 * q.val = q.val; omega
  have e4 : ((cfg2.win 4).blk t).view.emb (ix2 p q) = ix2 r q := by
    funext a; apply Fin.ext
    match a with
    | ⟨0, _⟩ => show win2_4.index t (0 : Fin 2) * 5000 + 1 * p.val = r.val; omega
    | ⟨1, _⟩ => show win2_4.index t (1 : Fin 2) * 128 + 1 * q.val = q.val; omega
  have e0 : ∀ k : Fin 128, ((cfg2.win 0).blk t).view.emb (ix2 p k) = ix2 r k := fun k => by
    funext a; apply Fin.ext
    match a with
    | ⟨0, _⟩ => show win2_0.index t (0 : Fin 2) * 5000 + 1 * p.val = r.val; omega
    | ⟨1, _⟩ => show win2_0.index t (1 : Fin 2) * 128 + 1 * k.val = k.val; omega
  have e1 : ∀ k : Fin 128, ((cfg2.win 1).blk t).view.emb (ix2 k q) = ix2 k q := fun k => by
    funext a; apply Fin.ext
    match a with
    | ⟨0, _⟩ => show win2_1.index t (0 : Fin 2) * 128 + 1 * k.val = k.val; omega
    | ⟨1, _⟩ => show win2_1.index t (1 : Fin 2) * 128 + 1 * q.val = q.val; omega
  have e3 : ((cfg2.win 3).blk t).view.emb (ix2 p (0 : Fin 1)) = ix2 r (0 : Fin 1) := by
    funext a; apply Fin.ext
    match a with
    | ⟨0, _⟩ => show win2_3.index t (0 : Fin 2) * 5000 + 1 * p.val = r.val; omega
    | ⟨1, _⟩ => show win2_3.index t (1 : Fin 2) * 1 + 1 * 0 = 0; omega
  have e2 : ((cfg2.win 2).blk t).view.emb (ix2 (0 : Fin 1) q) = ix2 (0 : Fin 1) q := by
    funext a; apply Fin.ext
    match a with
    | ⟨0, _⟩ => show win2_2.index t (0 : Fin 2) * 1 + 1 * 0 = 0; omega
    | ⟨1, _⟩ => show win2_2.index t (1 : Fin 2) * 128 + 1 * q.val = q.val; omega
  have e5 : ((cfg2.win 5).blk t).view.emb (ix2 (0 : Fin 1) (0 : Fin 1)) = ix2 (0 : Fin 1) (0 : Fin 1) := by
    funext a; apply Fin.ext
    match a with
    | ⟨0, _⟩ => show win2_5.index t (0 : Fin 2) * 1 + 1 * 0 = 0; omega
    | ⟨1, _⟩ => show win2_5.index t (1 : Fin 2) * 1 + 1 * 0 = 0; omega
  -- the written entry is the payload of the six blocks at (p, q); the target is the whole-array function at the
  -- output block's entry
  show k2_pay1 (iblk2 V c 0 t) (iblk2 V c 1 t) (iblk2 V c 3 t) (iblk2 V c 2 t) (iblk2 V c 5 t) (iblk2 V c 4 t) (ix2 p q)
    = fusedArr (inA V c) (inW V c) (inB V c) (inR V c) (inH V c) (inT V c) (((cfg2.win 6).blk t).view.emb (ix2 p q))
  refine (pay_apply (iblk2 V c 0 t) (iblk2 V c 1 t) (iblk2 V c 3 t) (iblk2 V c 2 t) (iblk2 V c 5 t) (iblk2 V c 4 t) p q).trans ?_
  -- the output block's entry (p, q) is the entry (r, q) of the output array
  refine Eq.trans ?_ (congrArg (fusedArr (inA V c) (inW V c) (inB V c) (inR V c) (inH V c) (inT V c)) e6.symm)
  show inH V c (((cfg2.win 4).blk t).view.emb (ix2 p q))
      + max ((∑ k : Fin 128, inA V c (((cfg2.win 0).blk t).view.emb (ix2 p k)) * inW V c (((cfg2.win 1).blk t).view.emb (ix2 k q)))
          + inR V c (((cfg2.win 3).blk t).view.emb (ix2 p (0 : Fin 1))) * inB V c (((cfg2.win 2).blk t).view.emb (ix2 (0 : Fin 1) q))) 0
        * inT V c (((cfg2.win 5).blk t).view.emb (ix2 (0 : Fin 1) (0 : Fin 1)))
    = inH V c (ix2 r q) + max ((∑ k : Fin 128, inA V c (ix2 r k) * inW V c (ix2 k q))
          + inR V c (ix2 r (0 : Fin 1)) * inB V c (ix2 (0 : Fin 1) q)) 0 * inT V c (ix2 (0 : Fin 1) (0 : Fin 1))
  -- both sides are the same expression in the arrays' entries once each block entry is placed in its array
  rw [e4, e3, e2, e5]
  simp only [e0, e1]

/-- An index of the output array is in point t's block iff each coordinate is in the block's range on its axis. -/
theorem mem_blk (t : Fin cfg2.N) (i : S40000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v39).slice (win2_6.rect t)).set ↔ _
  rw [View.set_slice_whole, Rect.mem_set_unit]
  exact Iff.rfl

/-- Every index of the output array is in the block of the point its row falls in. -/
theorem cover (i : S40000x128.Idx) :
    ∃ t : Fin cfg2.N, (cfg2.win 6).flush t = true ∧ i ∈ ((cfg2.win 6).blk t).view.set := by
  have hi0 : (i 0).val < 40000 := (i 0).isLt
  have hi1 : (i 1).val < 128 := (i 1).isLt
  have ht : (i 0).val / 5000 < cfg2.N := by
    show (i 0).val / 5000 < grid2.N
    rw [N_2]; omega
  refine ⟨⟨(i 0).val / 5000, ht⟩, flush2_6 _, ?_⟩
  rw [mem_blk]
  obtain ⟨-, -, -, -, -, -, -, -, -, -, -, -, o0, o1⟩ := idx_facts ⟨(i 0).val / 5000, ht⟩
  intro a
  match a with
  | ⟨0, _⟩ =>
    show win2_6.index ⟨(i 0).val / 5000, ht⟩ (0 : Fin 2) * 5000 ≤ (i 0).val
      ∧ (i 0).val < win2_6.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win2_6.index ⟨(i 0).val / 5000, ht⟩ (1 : Fin 2) * 128 ≤ (i 1).val
      ∧ (i 1).val < win2_6.index ⟨(i 0).val / 5000, ht⟩ (1 : Fin 2) * 128 + 128
    rw [o1]; omega

/-- THE OUTPUT ARRAY after the call: the fused residual step of the arrays as the call finds them. -/
theorem final (c : Dev nD) : (dat2 V c).arrAt 6 cfg2.N
    = fusedArr (V c main_v32) (V c main_v34) (V c main_v37) (V c main_v3) (V c main_v19) (V c main_v38) :=
  (dat2 V c).arrAt_eq_of_cover 6 _ (fun t _ => flushed_eq V c t) cover

end Cert.KernelIdeal.Region2

end
-- ==== Proof.Region3.lean ====
/-
  What the second fused residual pallas_call leaves in its output array: the fused residual step of its six input
  arrays, entry by entry.

  The call runs over 8 grid points. Point t reads rows 5000 t … 5000 t + 4999 of the aggregated rows [40000, 128],
  of the column of total edge weights [40000, 1] and of the residual input [40000, 128] (the first fused call's
  output); the weights [128, 128], the bias row [1, 128] and the step [1, 1] are read whole at every point. The
  body's one store is
      residual + max (aggregated · weights + column * bias row, 0) * step ,
  the product a matrix product into a zero accumulator, the column broadcast along the rows, the bias row broadcast
  down the rows, and the step's one entry broadcast over the block. At an entry (p, q) of the block this is the
  whole-array function's value at row 5000 t + p and column q, so what point t writes back is block t of the
  whole-array function, and the 8 blocks tile the output array.
-/
import proofs.«400381_j16071767622287_3_alg».proof.Proof.Gen.KernelIdeal.Frame
import proofs.«400381_j16071767622287_3_alg».proof.Proof.Spec
import Idealize.ShloMosaic.Lib.Pipeline.Value

set_option maxRecDepth 16384

noncomputable section

namespace Cert.KernelIdeal.Region3

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The corner (0, 0), spelt as the constant zero offset. -/
theorem zero_corner : (![0, 0] : Fin 2 → Nat) = fun _ => 0 := funext fun a => by fin_cases a <;> rfl

/-- The one entry of a [1, 1] array, extracted at position (0, 0). -/
theorem extract_apply (v : Vec Ideal S1x1 .f32) : extractAt ![0, 0] v inpos_S1x1_p0_0 = v (ix2 0 0) := by
  unfold extractAt
  exact congrArg v (funext fun a => by match a with | ⟨0, _⟩ => rfl | ⟨1, _⟩ => rfl)

/-- The kernel's matrix product into a zero accumulator, at an entry: the sum over the contracted coordinate. -/
theorem mm_apply (a : FVec Ideal S5000x128 .f32) (w : FVec Ideal S128x128 .f32) (p : Fin 5000) (q : Fin 128) :
    matmul dot_S5000x128_S128x128_S5000x128_1_0_0_1_n_n none a w (constant S5000x128 .f32 0x00000000#32) (ix2 p q)
      = ∑ k : Fin 128, a (ix2 p k) * w (ix2 k q) := by
  have hd : dot_S5000x128_S128x128_S5000x128_1_0_0_1_n_n = DotDims.plain 5000 128 128 := rfl
  rw [hd, matmul_zero_eq_dot]
  exact StackMember.dotGeneral_plain_apply none a w p q

/-- The column [5000, 1] broadcast along the rows, at an entry: the column's entry on that row. -/
theorem bcol_apply (v : Vec Ideal S5000x1 .f32) (p : Fin 5000) (q : Fin 128) :
    broadcastTo S5000x128 v broadcasts_S5000x1_S5000x128 (ix2 p q) = v (ix2 p 0) :=
  broadcastTo_apply v broadcasts_S5000x1_S5000x128 (ix2 p q) (ix2 p 0) (by
    intro a
    match a with
    | ⟨0, _⟩ => first | rfl | simp
    | ⟨1, _⟩ => first | rfl | simp)

/-- The row [1, 128] broadcast down the rows, at an entry: the row's entry in that column. -/
theorem brow_apply (v : Vec Ideal S1x128 .f32) (p : Fin 5000) (q : Fin 128) :
    broadcastTo S5000x128 v broadcasts_S1x128_S5000x128 (ix2 p q) = v (ix2 0 q) :=
  broadcastTo_apply v broadcasts_S1x128_S5000x128 (ix2 p q) (ix2 0 q) (by
    intro a
    match a with
    | ⟨0, _⟩ => first | rfl | simp
    | ⟨1, _⟩ => first | rfl | simp)

/-- The body's stored value at an entry (p, q): the residual entry plus the step times the maximum with zero of the
    matrix product's entry plus the column's entry on row p times the bias row's entry in column q. -/
theorem pay_apply (v0 : Vec Ideal S5000x128 .f32) (v2 : Vec Ideal S128x128 .f32) (v5 : Vec Ideal S5000x1 .f32)
    (v7 : Vec Ideal S1x128 .f32) (v15 : Vec Ideal S1x1 .f32) (v17 : Vec Ideal S5000x128 .f32) (p : Fin 5000) (q : Fin 128) :
    k3_pay1 v0 v2 v5 v7 v15 v17 (ix2 p q)
      = v17 (ix2 p q) + max ((∑ k : Fin 128, v0 (ix2 p k) * v2 (ix2 k q)) + v5 (ix2 p 0) * v7 (ix2 0 q)) 0 * v15 (ix2 0 0) := by
  unfold k3_pay1
  -- the casts to the same shape are the identity
  simp only [shapeCast_self]
  -- the elementwise operations read at the entry
  show v17 (ix2 p q) + max ((matmul dot_S5000x128_S128x128_S5000x128_1_0_0_1_n_n none v0 v2 (constant S5000x128 .f32 0x00000000#32) : FVec Ideal S5000x128 .f32) (ix2 p q)
        + broadcastTo S5000x128 v5 broadcasts_S5000x1_S5000x128 (ix2 p q) * broadcastTo S5000x128 v7 broadcasts_S1x128_S5000x128 (ix2 p q))
        (Ideal.ofBits .f32 0x00000000#32) * extractAt ![0, 0] v15 inpos_S1x1_p0_0 = _
  -- the product is the sum over the contracted coordinate, the two broadcasts read their operands, the extraction
  -- reads the step's one entry, and the zero splat is the extended real 0
  rw [mm_apply, bcol_apply, brow_apply, extract_apply, Ideal.ofBits_zero_f32]

/-! The six input arrays as the call finds them, at their literal types. -/

/-- The aggregated rows. -/
abbrev inA (c : Dev nD) : FVec Ideal S40000x128 .f32 := V c main_v52
/-- The weights. -/
abbrev inW (c : Dev nD) : FVec Ideal S128x128 .f32 := V c main_v54
/-- The bias row. -/
abbrev inB (c : Dev nD) : FVec Ideal S1x128 .f32 := V c main_v57
/-- The column of the nodes' total edge weights. -/
abbrev inR (c : Dev nD) : FVec Ideal S40000x1 .f32 := V c main_v3
/-- The residual input. -/
abbrev inH (c : Dev nD) : FVec Ideal S40000x128 .f32 := V c main_v39
/-- The step. -/
abbrev inT (c : Dev nD) : FVec Ideal S1x1 .f32 := V c main_v58

/-- The block index of every window at every grid point: the row-blocked windows (aggregated rows, edge-weight
    column, residual input, output) sit on row block t and column block 0; the weights, the bias row and the step
    have one block, at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = t.val ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-! Every window's block entry that the payload reads, as an entry of its whole array: block index times block
    size plus the coordinate inside the block, with the block indices of idx_facts. The row of the whole arrays
    that row p of block t sits on is r = 5000 t + p. -/

/-- The aggregated rows' block: entry (p, k) is entry (r, k) of the array. -/
theorem emb_A (t : Fin cfg3.N) (p : Fin 5000) (k : Fin 128) (r : Fin 40000) (hr : r.val = t.val * 5000 + p.val) :
    ((cfg3.win 0).blk t).view.emb (ix2 p k) = ix2 r k := by
  obtain ⟨a0, a1, -⟩ := idx_facts t
  funext a; apply Fin.ext
  match a with
  | ⟨0, _⟩ => show win3_0.index t (0 : Fin 2) * 5000 + 1 * p.val = r.val; omega
  | ⟨1, _⟩ => show win3_0.index t (1 : Fin 2) * 128 + 1 * k.val = k.val; omega

/-- The weights' one block is the whole array. -/
theorem emb_W (t : Fin cfg3.N) (k : Fin 128) (q : Fin 128) :
    ((cfg3.win 1).blk t).view.emb (ix2 k q) = ix2 k q := by
  obtain ⟨-, -, w0, w1, -⟩ := idx_facts t
  funext a; apply Fin.ext
  match a with
  | ⟨0, _⟩ => show win3_1.index t (0 : Fin 2) * 128 + 1 * k.val = k.val; omega
  | ⟨1, _⟩ => show win3_1.index t (1 : Fin 2) * 128 + 1 * q.val = q.val; omega

/-- The bias row's one block is the whole array. -/
theorem emb_B (t : Fin cfg3.N) (q : Fin 128) :
    ((cfg3.win 2).blk t).view.emb (ix2 (0 : Fin 1) q) = ix2 (0 : Fin 1) q := by
  obtain ⟨-, -, -, -, b0, b1, -⟩ := idx_facts t
  funext a; apply Fin.ext
  match a with
  | ⟨0, _⟩ => show win3_2.index t (0 : Fin 2) * 1 + 1 * 0 = 0; omega
  | ⟨1, _⟩ => show win3_2.index t (1 : Fin 2) * 128 + 1 * q.val = q.val; omega

/-- The edge-weight column's block: entry (p, 0) is entry (r, 0) of the array. -/
theorem emb_R (t : Fin cfg3.N) (p : Fin 5000) (r : Fin 40000) (hr : r.val = t.val * 5000 + p.val) :
    ((cfg3.win 3).blk t).view.emb (ix2 p (0 : Fin 1)) = ix2 r (0 : Fin 1) := by
  obtain ⟨-, -, -, -, -, -, r0, r1, -⟩ := idx_facts t
  funext a; apply Fin.ext
  match a with
  | ⟨0, _⟩ => show win3_3.index t (0 : Fin 2) * 5000 + 1 * p.val = r.val; omega
  | ⟨1, _⟩ => show win3_3.index t (1 : Fin 2) * 1 + 1 * 0 = 0; omega

/-- The residual input's block: entry (p, q) is entry (r, q) of the array. -/
theorem emb_H (t : Fin cfg3.N) (p : Fin 5000) (q : Fin 128) (r : Fin 40000) (hr : r.val = t.val * 5000 + p.val) :
    ((cfg3.win 4).blk t).view.emb (ix2 p q) = ix2 r q := by
  obtain ⟨-, -, -, -, -, -, -, -, h0, h1, -⟩ := idx_facts t
  funext a; apply Fin.ext
  match a with
  | ⟨0, _⟩ => show win3_4.index t (0 : Fin 2) * 5000 + 1 * p.val = r.val; omega
  | ⟨1, _⟩ => show win3_4.index t (1 : Fin 2) * 128 + 1 * q.val = q.val; omega

/-- The step's one block is the whole array. -/
theorem emb_T (t : Fin cfg3.N) :
    ((cfg3.win 5).blk t).view.emb (ix2 (0 : Fin 1) (0 : Fin 1)) = ix2 (0 : Fin 1) (0 : Fin 1) := by
  obtain ⟨-, -, -, -, -, -, -, -, -, -, s0, s1, -⟩ := idx_facts t
  funext a; apply Fin.ext
  match a with
  | ⟨0, _⟩ => show win3_5.index t (0 : Fin 2) * 1 + 1 * 0 = 0; omega
  | ⟨1, _⟩ => show win3_5.index t (1 : Fin 2) * 1 + 1 * 0 = 0; omega

/-- The output's block: entry (p, q) is entry (r, q) of the array. -/
theorem emb_O (t : Fin cfg3.N) (p : Fin 5000) (q : Fin 128) (r : Fin 40000) (hr : r.val = t.val * 5000 + p.val) :
    ((cfg3.win 6).blk t).view.emb (ix2 p q) = ix2 r q := by
  obtain ⟨-, -, -, -, -, -, -, -, -, -, -, -, o0, o1⟩ := idx_facts t
  funext a; apply Fin.ext
  match a with
  | ⟨0, _⟩ => show win3_6.index t (0 : Fin 2) * 5000 + 1 * p.val = r.val; omega
  | ⟨1, _⟩ => show win3_6.index t (1 : Fin 2) * 128 + 1 * q.val = q.val; omega

/-- The payload's expression in the six blocks' entries at (p, q) is the fused residual step's expression in the
    arrays' entries at (r, q): each block entry placed in its array. -/
theorem entry_eq (c : Dev nD) (t : Fin cfg3.N) (p : Fin 5000) (q : Fin 128) (r : Fin 40000)
    (hr : r.val = t.val * 5000 + p.val) :
    inH V c (((cfg3.win 4).blk t).view.emb (ix2 p q))
      + max ((∑ k : Fin 128, inA V c (((cfg3.win 0).blk t).view.emb (ix2 p k)) * inW V c (((cfg3.win 1).blk t).view.emb (ix2 k q)))
          + inR V c (((cfg3.win 3).blk t).view.emb (ix2 p (0 : Fin 1))) * inB V c (((cfg3.win 2).blk t).view.emb (ix2 (0 : Fin 1) q))) 0
        * inT V c (((cfg3.win 5).blk t).view.emb (ix2 (0 : Fin 1) (0 : Fin 1)))
    = inH V c (ix2 r q) + max ((∑ k : Fin 128, inA V c (ix2 r k) * inW V c (ix2 k q))
          + inR V c (ix2 r (0 : Fin 1)) * inB V c (ix2 (0 : Fin 1) q)) 0 * inT V c (ix2 (0 : Fin 1) (0 : Fin 1)) := by
  rw [emb_H t p q r hr, emb_R t p r hr, emb_B t q, emb_T t]
  simp only [emb_A t p _ r hr, emb_W t _ q]

/-- What point t writes back is block t of the whole-array fused residual step. -/
theorem flushed_eq (c : Dev nD) (t : Fin cfg3.N) :
    (dat3 V c).flushed 6 t = ((cfg3.win 6).blk t).view.read (Elt Ideal)
      (fusedArr (V c main_v52) (V c main_v54) (V c main_v57) (V c main_v3) (V c main_v39) (V c main_v58)) := by
  show (cfg3.win 6).cut (grid3.coords t) ((dat3 V c).after 6 t) = _
  rw [after3_6]
  unfold out3_6
  rw [View.canon_unit_zero zero_corner]
  simp only [View.ld_unit_zero (S := S5000x128) zero_corner, View.ld_unit_zero (S := S128x128) zero_corner,
    View.ld_unit_zero (S := S5000x1) zero_corner, View.ld_unit_zero (S := S1x128) zero_corner,
    View.ld_unit_zero (S := S1x1) zero_corner]
  funext j
  obtain ⟨p, q, rfl⟩ : ∃ (p : Fin 5000) (q : Fin 128), j = ix2 p q := ⟨j 0, j 1, eq_ix2 j⟩
  have ht : t.val < 8 := lt_of_lt_of_eq t.isLt N_3
  -- the row of the whole arrays this entry sits on
  have hr : t.val * 5000 + p.val < 40000 := by have := p.isLt; omega
  -- the written entry is the payload of the six blocks at (p, q); the target is the whole-array function at the
  -- output block's entry
  show k3_pay1 (iblk3 V c 0 t) (iblk3 V c 1 t) (iblk3 V c 3 t) (iblk3 V c 2 t) (iblk3 V c 5 t) (iblk3 V c 4 t) (ix2 p q)
    = fusedArr (inA V c) (inW V c) (inB V c) (inR V c) (inH V c) (inT V c) (((cfg3.win 6).blk t).view.emb (ix2 p q))
  refine (pay_apply (iblk3 V c 0 t) (iblk3 V c 1 t) (iblk3 V c 3 t) (iblk3 V c 2 t) (iblk3 V c 5 t) (iblk3 V c 4 t) p q).trans ?_
  -- the output block's entry (p, q) is the entry (r, q) of the output array
  refine Eq.trans ?_ (congrArg (fusedArr (inA V c) (inW V c) (inB V c) (inR V c) (inH V c) (inT V c))
    (emb_O t p q ⟨t.val * 5000 + p.val, hr⟩ rfl).symm)
  exact entry_eq V c t p q ⟨t.val * 5000 + p.val, hr⟩ rfl

/-- An index of the output array is in point t's block iff each coordinate is in the block's range on its axis. -/
theorem mem_blk (t : Fin cfg3.N) (i : S40000x128.Idx) :
    i ∈ ((cfg3.win 6).blk t).view.set ↔ ∀ a : Fin 2, win3_6.index t a * S5000x128.size a ≤ (i a).val
      ∧ (i a).val < win3_6.index t a * S5000x128.size a + S5000x128.size a := by
  show i ∈ ((View.whole main_v59).slice (win3_6.rect t)).set ↔ _
  rw [View.set_slice_whole, Rect.mem_set_unit]
  exact Iff.rfl

/-- Every index of the output array is in the block of the point its row falls in. -/
theorem cover (i : S40000x128.Idx) :
    ∃ t : Fin cfg3.N, (cfg3.win 6).flush t = true ∧ i ∈ ((cfg3.win 6).blk t).view.set := by
  have hi0 : (i 0).val < 40000 := (i 0).isLt
  have hi1 : (i 1).val < 128 := (i 1).isLt
  have ht : (i 0).val / 5000 < cfg3.N := by
    show (i 0).val / 5000 < grid3.N
    rw [N_3]; omega
  refine ⟨⟨(i 0).val / 5000, ht⟩, flush3_6 _, ?_⟩
  rw [mem_blk]
  obtain ⟨-, -, -, -, -, -, -, -, -, -, -, -, o0, o1⟩ := idx_facts ⟨(i 0).val / 5000, ht⟩
  intro a
  match a with
  | ⟨0, _⟩ =>
    show win3_6.index ⟨(i 0).val / 5000, ht⟩ (0 : Fin 2) * 5000 ≤ (i 0).val
      ∧ (i 0).val < win3_6.index ⟨(i 0).val / 5000, ht⟩ (0 : Fin 2) * 5000 + 5000
    rw [o0]; show (i 0).val / 5000 * 5000 ≤ (i 0).val ∧ (i 0).val < (i 0).val / 5000 * 5000 + 5000; omega
  | ⟨1, _⟩ =>
    show win3_6.index ⟨(i 0).val / 5000, ht⟩ (1 : Fin 2) * 128 ≤ (i 1).val
      ∧ (i 1).val < win3_6.index ⟨(i 0).val / 5000, ht⟩ (1 : Fin 2) * 128 + 128
    rw [o1]; omega

/-- THE OUTPUT ARRAY after the call: the fused residual step of the arrays as the call finds them. -/
theorem final (c : Dev nD) : (dat3 V c).arrAt 6 cfg3.N
    = fusedArr (V c main_v52) (V c main_v54) (V c main_v57) (V c main_v3) (V c main_v39) (V c main_v58) :=
  (dat3 V c).arrAt_eq_of_cover 6 _ (fun t _ => flushed_eq V c t) cover

end Cert.KernelIdeal.Region3

end
-- ==== Proof.Region4.lean ====
/-
  What the last dense pallas_call leaves in its output array: the matrix product of its input rows with the weights
  plus the bias row.

  The call runs over 8 grid points. Point t reads rows 5000 t … 5000 t + 4999 of the input [40000, 128], the whole
  weight matrix [128, 64] and the whole bias row [1, 64], and writes rows 5000 t … 5000 t + 4999 of the output
  [40000, 64]. The body's one store is the matrix product of the loaded row block with the weights, accumulated into
  a zero splat, plus the bias row broadcast down the rows. An entry of the product depends only on its own row of the
  input, so what point t writes back is block t of the whole-array dense layer, and the 8 blocks tile the array.
-/
import proofs.«400381_j16071767622287_3_alg».proof.Proof.Gen.KernelIdeal.Frame
import proofs.«400381_j16071767622287_3_alg».proof.Proof.Spec
import Idealize.ShloMosaic.Lib.Pipeline.Value

set_option maxRecDepth 16384

noncomputable section

namespace Cert.KernelIdeal.Region4

open Cert.KernelIdeal Cert.KernelIdeal.Gen Cert.GraphNet
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The input array as the call finds it, at its literal type. -/
abbrev xArr (c : Dev nD) : FVec Ideal S40000x128 .f32 := V c main_v59
/-- The weights as the call finds them, at their literal type. -/
abbrev wArr (c : Dev nD) : FVec Ideal S128x64 .f32 := V c main_arg8
/-- The bias row as the call finds it, at its literal type. -/
abbrev bArr (c : Dev nD) : FVec Ideal S1x64 .f32 := V c main_v60

theorem zero_corner : (![0, 0] : Fin 2 → Nat) = fun _ => 0 := funext fun a => by fin_cases a <;> rfl

/-- The printed dimension numbers are those of the plain product of a 5000×128 by a 128×64 matrix. -/
theorem dot_eq_plain : dot_S5000x128_S128x64_S5000x64_1_0_0_1_n_n = DotDims.plain 5000 128 64 := rfl

/-- The product into the zero accumulator at an entry: the sum over the contracted index of the products. -/
theorem mat_apply (x0 : FVec Ideal S5000x128 .f32) (x1 : FVec Ideal S128x64 .f32) (p : Fin 5000) (q : Fin 64) :
    matmul dot_S5000x128_S128x64_S5000x64_1_0_0_1_n_n none x0 x1 (constant S5000x64 .f32 0x00000000#32) (ix2 p q)
      = ∑ k : Fin 128, x0 (ix2 p k) * x1 (ix2 k q) := by
  rw [matmul_zero_eq_dot, dot_eq_plain]
  exact Idealize.ShloMosaic.StackMember.dotGeneral_plain_apply none x0 x1 p q

/-- The bias row broadcast down the rows, at an entry: the row's entry in that column. -/
theorem bias_apply (x2 : FVec Ideal S1x64 .f32) (p : Fin 5000) (q : Fin 64) :
    broadcastTo S5000x64 x2 broadcasts_S1x64_S5000x64 (ix2 p q) = x2 (ix2 0 q) := by
  refine broadcastTo_apply x2 _ (ix2 p q) (ix2 0 q) ?_
  intro a
  match a with
  | ⟨0, _⟩ => rfl
  | ⟨1, _⟩ => rfl

/-- The body's stored value at an entry: the row of the loaded block times the column of the weights, plus the bias
    row's entry in that column. The two reshapes in the body keep the shape, so they change nothing. -/
theorem pay_apply (x0 : Vec Ideal S5000x128 .f32) (x1 : Vec Ideal S128x64 .f32) (x2 : Vec Ideal S1x64 .f32)
    (p : Fin 5000) (q : Fin 64) :
    k4_pay1 x0 x1 x2 (ix2 p q) = (∑ k : Fin 128, x0 (ix2 p k) * x1 (ix2 k q)) + x2 (ix2 0 q) := by
  unfold k4_pay1
  rw [shapeCast_self, shapeCast_self]
  show (matmul (F := Ideal) dot_S5000x128_S128x64_S5000x64_1_0_0_1_n_n none x0 x1 (constant S5000x64 .f32 0x00000000#32) (ix2 p q)
      + broadcastTo S5000x64 x2 broadcasts_S1x64_S5000x64 (ix2 p q) : Ideal .f32) = _
  rw [mat_apply, bias_apply]

/-- The input and output windows sit on row block t, column block 0; the weights and the bias row are one block. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- What point t writes back is block t of the whole-array dense layer. -/
theorem flushed_eq (c : Dev nD) (t : Fin cfg4.N) :
    (dat4 V c).flushed 3 t
      = ((cfg4.win 3).blk t).view.read (Elt Ideal) (denseArr (V c main_v59) (V c main_arg8) (V c main_v60)) := by
  show (cfg4.win 3).cut (grid4.coords t) ((dat4 V c).after 3 t) = _
  rw [after4_3]
  unfold out4_3
  rw [View.canon_unit_zero zero_corner]
  simp only [View.ld_unit_zero (S := S5000x128) zero_corner, View.ld_unit_zero (S := S128x64) zero_corner,
    View.ld_unit_zero (S := S1x64) zero_corner]
  obtain ⟨e00, e01, e10, e11, e20, e21, e30, e31⟩ := idx_facts t
  funext j
  obtain ⟨p, q, rfl⟩ : ∃ (p : Fin 5000) (q : Fin 64), j = ix2 p q := ⟨j 0, j 1, eq_ix2 j⟩
  -- the entry's place in the whole output array: row r, column s
  obtain ⟨r, s, hrs⟩ : ∃ (r : Fin 40000) (s : Fin 64), ((cfg4.win 3).blk t).view.emb (ix2 p q) = ix2 r s :=
    ⟨_, _, eq_ix2 _⟩
  have hr : win4_3.index t (0 : Fin 2) * 5000 + 1 * p.val = r.val := congrArg (fun z => (z 0).val) hrs
  have hs : win4_3.index t (1 : Fin 2) * 64 + 1 * q.val = s.val := congrArg (fun z => (z 1).val) hrs
  -- the loaded row block's entry (p, k) is the input's entry (r, k)
  have hemb0 : ∀ k : Fin 128, ((cfg4.win 0).blk t).view.emb (ix2 p k) = ix2 r k := fun k => by
    funext a; apply Fin.ext
    match a with
    | ⟨0, _⟩ => show win4_0.index t (0 : Fin 2) * 5000 + 1 * p.val = r.val; omega
    | ⟨1, _⟩ => show win4_0.index t (1 : Fin 2) * 128 + 1 * k.val = k.val; omega
  -- the weights' block is the whole matrix: its entry (k, q) is the weights' entry (k, s)
  have hemb1 : ∀ k : Fin 128, ((cfg4.win 1).blk t).view.emb (ix2 k q) = ix2 k s := fun k => by
    funext a; apply Fin.ext
    match a with
    | ⟨0, _⟩ => show win4_1.index t (0 : Fin 2) * 128 + 1 * k.val = k.val; omega
    | ⟨1, _⟩ => show win4_1.index t (1 : Fin 2) * 64 + 1 * q.val = s.val; omega
  -- the bias row's block is the whole row: its entry (0, q) is the row's entry (0, s)
  have hemb2 : ((cfg4.win 2).blk t).view.emb (ix2 0 q) = ix2 0 s := by
    funext a; apply Fin.ext
    match a with
    | ⟨0, _⟩ => show win4_2.index t (0 : Fin 2) * 1 + 1 * 0 = 0; omega
    | ⟨1, _⟩ => show win4_2.index t (1 : Fin 2) * 64 + 1 * q.val = s.val; omega
  show k4_pay1 (iblk4 V c 0 t) (iblk4 V c 1 t) (iblk4 V c 2 t) (ix2 p q)
    = denseArr (V c main_v59) (V c main_arg8) (V c main_v60) (((cfg4.win 3).blk t).view.emb (ix2 p q))
  refine (pay_apply (iblk4 V c 0 t) (iblk4 V c 1 t) (iblk4 V c 2 t) p q).trans ?_
  rw [hrs]
  show (∑ k : Fin 128, xArr V c (((cfg4.win 0).blk t).view.emb (ix2 p k)) * wArr V c (((cfg4.win 1).blk t).view.emb (ix2 k q)))
      + bArr V c (((cfg4.win 2).blk t).view.emb (ix2 0 q))
    = (∑ k : Fin 128, xArr V c (ix2 r k) * wArr V c (ix2 k s)) + bArr V c (ix2 0 s)
  rw [hemb2]
  exact congrArg (· + bArr V c (ix2 0 s)) (Finset.sum_congr rfl fun k _ => by rw [hemb0 k, hemb1 k])

/-- An index of the output array is in point t's block iff each coordinate is in the block's range on its axis. -/
theorem mem_blk (t : Fin cfg4.N) (i : S40000x64.Idx) :
    i ∈ ((cfg4.win 3).blk t).view.set ↔ ∀ a : Fin 2, win4_3.index t a * S5000x64.size a ≤ (i a).val
      ∧ (i a).val < win4_3.index t a * S5000x64.size a + S5000x64.size a := by
  show i ∈ ((View.whole main_v61).slice (win4_3.rect t)).set ↔ _
  rw [View.set_slice_whole, Rect.mem_set_unit]
  exact Iff.rfl

/-- Every index of the output array is in the block of the point its row falls in. -/
theorem cover (i : S40000x64.Idx) :
    ∃ t : Fin cfg4.N, (cfg4.win 3).flush t = true ∧ i ∈ ((cfg4.win 3).blk t).view.set := by
  have hi0 : (i 0).val < 40000 := (i 0).isLt
  have hi1 : (i 1).val < 64 := (i 1).isLt
  have ht : (i 0).val / 5000 < cfg4.N := by
    show (i 0).val / 5000 < grid4.N
    rw [N_4]; omega
  refine ⟨⟨(i 0).val / 5000, ht⟩, flush4_3 _, ?_⟩
  rw [mem_blk]
  obtain ⟨-, -, -, -, -, -, e30, e31⟩ := idx_facts ⟨(i 0).val / 5000, ht⟩
  intro a
  match a with
  | ⟨0, _⟩ =>
    show win4_3.index ⟨(i 0).val / 5000, ht⟩ (0 : Fin 2) * 5000 ≤ (i 0).val
      ∧ (i 0).val < win4_3.index ⟨(i 0).val / 5000, ht⟩ (0 : Fin 2) * 5000 + 5000
    rw [e30]; show (i 0).val / 5000 * 5000 ≤ (i 0).val ∧ (i 0).val < (i 0).val / 5000 * 5000 + 5000; omega
  | ⟨1, _⟩ =>
    show win4_3.index ⟨(i 0).val / 5000, ht⟩ (1 : Fin 2) * 64 ≤ (i 1).val
      ∧ (i 1).val < win4_3.index ⟨(i 0).val / 5000, ht⟩ (1 : Fin 2) * 64 + 64
    rw [e31]; omega

/-- THE OUTPUT ARRAY after the call: the dense layer of the input array, the weights and the bias row as the call finds them. -/
theorem final (c : Dev nD) : (dat4 V c).arrAt 3 cfg4.N = denseArr (V c main_v59) (V c main_arg8) (V c main_v60) :=
  (dat4 V c).arrAt_eq_of_cover 3 _ (fun t _ => flushed_eq V c t) cover

end Cert.KernelIdeal.Region4

end
-- ==== Proof.KernelCalls.lean ====
/-
  The five pallas_calls of @main read as layers: the array a call leaves is a whole-array function of the arrays it
  finds (one module per call proves that), and what it finds is what the stretch before it wrote or what the launch
  memory held. Call 0 and call 4 leave dense layers, call 1 the maximum with zero, calls 2 and 3 the residual step
  that aggregates first: their inputs are the aggregated rows, one layer's weights and bias sliced out of the stacked
  arguments, the column of the nodes' total edge weights written by the first stretch, the residual input and the step.
-/
import proofs.«400381_j16071767622287_3_alg».proof.Proof.KernelHost
import proofs.«400381_j16071767622287_3_alg».proof.Proof.Region0
import proofs.«400381_j16071767622287_3_alg».proof.Proof.Region1
import proofs.«400381_j16071767622287_3_alg».proof.Proof.Region2
import proofs.«400381_j16071767622287_3_alg».proof.Proof.Region3
import proofs.«400381_j16071767622287_3_alg».proof.Proof.Region4

set_option maxRecDepth 16384

noncomputable section

namespace Cert.KernelIdeal.KValue

open Cert.KernelIdeal Cert.KernelIdeal.Gen Cert.KernelIdeal.Carry Cert.GraphNet
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg) (c : Dev nD)

/-! ## What the calls find, at literal types -/

abbrev f0X : FVec Ideal (sh2 40000 256) .f32 := V1 m ρ c main_arg0
abbrev f0W : FVec Ideal (sh2 256 128) .f32 := V1 m ρ c main_arg4
abbrev f0B : FVec Ideal (sh2 1 128) .f32 := V1 m ρ c main_v4
abbrev f1X : FVec Ideal (sh2 40000 128) .f32 := V3 m ρ c main_v18
abbrev f2A : FVec Ideal (sh2 40000 128) .f32 := V5 m ρ c main_v32
abbrev f2W : FVec Ideal (sh2 128 128) .f32 := V5 m ρ c main_v34
abbrev f2B : FVec Ideal (sh2 1 128) .f32 := V5 m ρ c main_v37
abbrev f2R : FVec Ideal (sh2 40000 1) .f32 := V5 m ρ c main_v3
abbrev f2H : FVec Ideal (sh2 40000 128) .f32 := V5 m ρ c main_v19
abbrev f2T : FVec Ideal (sh2 1 1) .f32 := V5 m ρ c main_v38
abbrev f3A : FVec Ideal (sh2 40000 128) .f32 := V7 m ρ c main_v52
abbrev f3W : FVec Ideal (sh2 128 128) .f32 := V7 m ρ c main_v54
abbrev f3B : FVec Ideal (sh2 1 128) .f32 := V7 m ρ c main_v57
abbrev f3R : FVec Ideal (sh2 40000 1) .f32 := V7 m ρ c main_v3
abbrev f3H : FVec Ideal (sh2 40000 128) .f32 := V7 m ρ c main_v39
abbrev f3T : FVec Ideal (sh2 1 1) .f32 := V7 m ρ c main_v58
abbrev f4X : FVec Ideal (sh2 40000 128) .f32 := V9 m ρ c main_v59
abbrev f4W : FVec Ideal (sh2 128 64) .f32 := V9 m ρ c main_arg8
abbrev f4B : FVec Ideal (sh2 1 64) .f32 := V9 m ρ c main_v60

/-- The column the first stretch writes holds, at row r, the total weight of the edges landing on r. -/
theorem rowsum_col (r : Fin 40000) :
    (W1 m ρ c (Proc.devRef .tc main_v3) : FVec Ideal (sh2 40000 1) .f32) (ix2 r 0) = rowsum (eS m c) (eV m c) r := by
  show (StableHlo.after hostOps0 (W0 m ρ c) (Proc.devRef .tc main_v3) : FVec Ideal (sh2 40000 1) .f32) (ix2 r 0) = _
  after_results_simp
  exact rowsumChain_apply Facts₀.scatter_S40000_S640000x1_S640000_n_0_0_1_wf _ _ _ _ _ r

/-! ## Call 0 -/

/-- Call 0 leaves the first dense layer. -/
theorem dense0 : cur (kD0 m ρ c) = lin (cur (aX m c)) (cur (aW1 m c)) (cur1 (aB1 m c)) := by
  have e : kD0 m ρ c = denseArr (f0X m ρ c) (f0W m ρ c) (f0B m ρ c) :=
    (W2_arr m ρ c 3).trans (Region0.final (V1 m ρ) c)
  have hX : f0X m ρ c = aX m c := W1_arg m ρ c (b := main_arg0) (by simp [argsA])
  have hW : f0W m ρ c = aW1 m c := W1_arg m ρ c (b := main_arg4) (by simp [argsA])
  have hB : ∀ j : Fin 128, f0B m ρ c (ix2 0 j) = aB1 m c (ix1 j) := by
    intro j
    show (StableHlo.after hostOps0 (W0 m ρ c) (Proc.devRef .tc main_v4) : FVec Ideal (sh2 1 128) .f32) (ix2 0 j) = _
    after_results_simp
    exact rowOfVec_apply _ _ j
  calc cur (kD0 m ρ c) = cur (denseArr (f0X m ρ c) (f0W m ρ c) (f0B m ρ c)) := congrArg cur e
    _ = lin (cur (f0X m ρ c)) (cur (f0W m ρ c)) (fun j => f0B m ρ c (ix2 0 j)) := rfl
    _ = lin (cur (aX m c)) (cur (aW1 m c)) (cur1 (aB1 m c)) := by
        rw [hX, hW]; exact congrArg (lin _ _) (funext hB)

/-! ## Call 1 -/

/-- Call 1 takes the maximum with zero. -/
theorem relu0 : cur (kH0 m ρ c) = relu (cur (kA0 m ρ c)) := by
  have e : kH0 m ρ c = reluArr (f1X m ρ c) := (W4_arr m ρ c 1).trans (Region1.final (V3 m ρ) c)
  exact (congrArg cur e).trans (cur_unc (relu (cur (f1X m ρ c))))

/-! ## Calls 2 and 3 -/

/-- Call 2 leaves the first residual step, aggregating first. -/
theorem step1 : cur (kH1 m ρ c) = stepAgg (eS m c) (eG m c) (eV m c) (cur (kH0 m ρ c))
    (cur (wMid 0 (by decide) (aWm m c))) (cur1 (bMid 0 (by decide) (aBm m c))) (aTs m c ix0) := by
  have e : kH1 m ρ c = fusedArr (f2A m ρ c) (f2W m ρ c) (f2B m ρ c) (f2R m ρ c) (f2H m ρ c) (f2T m ρ c) :=
    (W6_arr m ρ c 6).trans (Region2.final (V5 m ρ) c)
  have hA : cur (f2A m ρ c) = agg (eS m c) (eG m c) (eV m c) (cur (kH0 m ρ c)) := agg1 m ρ c
  have hW : f2W m ρ c = wMid 0 (by decide) (aWm m c) := by
    show (StableHlo.after hostOps2 (W4 m ρ c) (Proc.devRef .tc main_v34) : FVec Ideal (sh2 128 128) .f32) = _
    after_results_simp
    rw [W4_arg m ρ c (b := main_arg6) (by simp [argsB])]
    rfl
  have hB : ∀ j : Fin 128, f2B m ρ c (ix2 0 j) = bMid 0 (by decide) (aBm m c) (ix1 j) := by
    intro j
    show (StableHlo.after hostOps2 (W4 m ρ c) (Proc.devRef .tc main_v37) : FVec Ideal (sh2 1 128) .f32) (ix2 0 j) = _
    after_results_simp
    rw [W4_arg m ρ c (b := main_arg7) (by simp [argsB])]
    exact rowOfVec_apply _ _ j
  have hR : ∀ r : Fin 40000, f2R m ρ c (ix2 r 0) = rowsum (eS m c) (eV m c) r := by
    intro r
    have e3 : f2R m ρ c = (W1 m ρ c (Proc.devRef .tc main_v3) : FVec Ideal (sh2 40000 1) .f32) := W5_v3 m ρ c
    rw [e3]
    exact rowsum_col m ρ c r
  have hH : f2H m ρ c = kH0 m ρ c := W5_v19 m ρ c
  have hT : f2T m ρ c (ix2 0 0) = aTs m c ix0 := by
    show (StableHlo.after hostOps2 (W4 m ρ c) (Proc.devRef .tc main_v38) : FVec Ideal (sh2 1 1) .f32) (ix2 0 0) = _
    after_results_simp
    rw [W4_arg m ρ c (b := main_arg10) (by simp [argsB])]
    exact oneOfScalar_apply _ _
  calc cur (kH1 m ρ c) = cur (fusedArr (f2A m ρ c) (f2W m ρ c) (f2B m ρ c) (f2R m ρ c) (f2H m ρ c) (f2T m ρ c)) := congrArg cur e
    _ = fun r j => cur (f2H m ρ c) r j + max ((∑ k, cur (f2A m ρ c) r k * cur (f2W m ρ c) k j)
          + f2R m ρ c (ix2 r 0) * f2B m ρ c (ix2 0 j)) 0 * f2T m ρ c (ix2 0 0) := rfl
    _ = _ := by
        rw [hA, hW, hH]
        funext r j
        rw [hR r, hB j, hT]
        rfl

/-- Call 3 leaves the second residual step, aggregating first. -/
theorem step2 : cur (kH2 m ρ c) = stepAgg (eS m c) (eG m c) (eV m c) (cur (kH1 m ρ c))
    (cur (wMid 1 (by decide) (aWm m c))) (cur1 (bMid 1 (by decide) (aBm m c))) (aTs m c ix0) := by
  have e : kH2 m ρ c = fusedArr (f3A m ρ c) (f3W m ρ c) (f3B m ρ c) (f3R m ρ c) (f3H m ρ c) (f3T m ρ c) :=
    (W8_arr m ρ c 6).trans (Region3.final (V7 m ρ) c)
  have hA : cur (f3A m ρ c) = agg (eS m c) (eG m c) (eV m c) (cur (kH1 m ρ c)) := agg2 m ρ c
  have hW : f3W m ρ c = wMid 1 (by decide) (aWm m c) := by
    show (StableHlo.after hostOps3 (W6 m ρ c) (Proc.devRef .tc main_v54) : FVec Ideal (sh2 128 128) .f32) = _
    after_results_simp
    rw [W6_arg m ρ c (b := main_arg6) (by simp [argsB])]
    rfl
  have hB : ∀ j : Fin 128, f3B m ρ c (ix2 0 j) = bMid 1 (by decide) (aBm m c) (ix1 j) := by
    intro j
    show (StableHlo.after hostOps3 (W6 m ρ c) (Proc.devRef .tc main_v57) : FVec Ideal (sh2 1 128) .f32) (ix2 0 j) = _
    after_results_simp
    rw [W6_arg m ρ c (b := main_arg7) (by simp [argsB])]
    exact rowOfVec_apply _ _ j
  have hR : ∀ r : Fin 40000, f3R m ρ c (ix2 r 0) = rowsum (eS m c) (eV m c) r := by
    intro r
    have e3 : f3R m ρ c = (W1 m ρ c (Proc.devRef .tc main_v3) : FVec Ideal (sh2 40000 1) .f32) := W7_v3 m ρ c
    rw [e3]
    exact rowsum_col m ρ c r
  have hH : f3H m ρ c = kH1 m ρ c := W7_v39 m ρ c
  have hT : f3T m ρ c (ix2 0 0) = aTs m c ix0 := by
    show (StableHlo.after hostOps3 (W6 m ρ c) (Proc.devRef .tc main_v58) : FVec Ideal (sh2 1 1) .f32) (ix2 0 0) = _
    after_results_simp
    rw [W6_arg m ρ c (b := main_arg10) (by simp [argsB])]
    exact oneOfScalar_apply _ _
  calc cur (kH2 m ρ c) = cur (fusedArr (f3A m ρ c) (f3W m ρ c) (f3B m ρ c) (f3R m ρ c) (f3H m ρ c) (f3T m ρ c)) := congrArg cur e
    _ = fun r j => cur (f3H m ρ c) r j + max ((∑ k, cur (f3A m ρ c) r k * cur (f3W m ρ c) k j)
          + f3R m ρ c (ix2 r 0) * f3B m ρ c (ix2 0 j)) 0 * f3T m ρ c (ix2 0 0) := rfl
    _ = _ := by
        rw [hA, hW, hH]
        funext r j
        rw [hR r, hB j, hT]
        rfl

/-! ## Call 4 -/

/-- Call 4 leaves the last dense layer. -/
theorem dense4 : cur (kD4 m ρ c) = lin (cur (kH2 m ρ c)) (cur (aW2 m c)) (cur1 (aB2 m c)) := by
  have e : kD4 m ρ c = denseArr (f4X m ρ c) (f4W m ρ c) (f4B m ρ c) :=
    (W10_arr m ρ c 3).trans (Region4.final (V9 m ρ) c)
  have hX : f4X m ρ c = kH2 m ρ c := W9_v59 m ρ c
  have hW : f4W m ρ c = aW2 m c := W9_arg m ρ c (b := main_arg8) (by simp [argsD])
  have hB : ∀ j : Fin 64, f4B m ρ c (ix2 0 j) = aB2 m c (ix1 j) := by
    intro j
    show (StableHlo.after hostOps4 (W8 m ρ c) (Proc.devRef .tc main_v60) : FVec Ideal (sh2 1 64) .f32) (ix2 0 j) = _
    after_results_simp
    rw [W8_arg m ρ c (b := main_arg9) (by simp [argsC])]
    exact rowOfVec_apply _ _ j
  calc cur (kD4 m ρ c) = cur (denseArr (f4X m ρ c) (f4W m ρ c) (f4B m ρ c)) := congrArg cur e
    _ = lin (cur (f4X m ρ c)) (cur (f4W m ρ c)) (fun j => f4B m ρ c (ix2 0 j)) := rfl
    _ = lin (cur (kH2 m ρ c)) (cur (aW2 m c)) (cur1 (aB2 m c)) := by
        rw [hX, hW]; exact congrArg (lin _ _) (funext hB)

end Cert.KernelIdeal.KValue

end
-- ==== Proof.KernelValue.lean ====
/-
  The kernel program's result is the network's result, the two residual steps aggregating first.

  @main is six stretches of host operations with five pallas_calls between them. Boundary by boundary: call 0 leaves
  the first dense layer; the next stretch aggregates it; call 1 takes the maximum with zero; then twice a stretch
  aggregates the residual input and a fused call leaves the residual step; call 4 leaves the last dense layer and the
  last stretch aggregates it into the result. Composed, that is the network with its two residual steps aggregating
  first.
-/
import proofs.«400381_j16071767622287_3_alg».proof.Proof.KernelCalls

noncomputable section

namespace Cert.KernelIdeal.KValue

open Cert.KernelIdeal Cert.KernelIdeal.Gen Cert.GraphNet
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- THE KERNEL PROGRAM'S RESULT at the last boundary is `outAgg` of the argument arrays. -/
theorem result_eq : kOut m ρ c = outAgg (aX m c) (aRow m c) (aCol m c) (aVal m c) (aW1 m c) (aB1 m c) (aWm m c) (aBm m c)
    (aW2 m c) (aB2 m c) (aTs m c) := by
  refine (unc_cur (kOut m ρ c)).symm.trans ?_
  unfold outAgg netAgg
  refine congrArg unc ?_
  rw [agg4, dense4, step2, step1, relu0, agg0, dense0]

end Cert.KernelIdeal.KValue

end
-- ==== Proof.RefValue.lean ====
/-
  The reference program's result is the network's result, every step the dense layer first.

  The reference's run ends with its result at one composed term of the argument arrays. Read from the outside in,
  that term is: the aggregation (an accumulating scatter of weighted gathered rows) of a dense layer of the second
  residual step of the first residual step of relu of the aggregation of a dense layer of the input. Each stretch
  is one of the layer readings, so the term, read as a two-index function, is `netRef` of the arguments.
-/
import proofs.«400381_j16071767622287_3_alg».proof.Proof.Gen.ReferenceIdeal.Run
import proofs.«400381_j16071767622287_3_alg».proof.Proof.Net

set_option maxRecDepth 16384

noncomputable section

namespace Cert.ReferenceIdeal.RefValue

open Cert.ReferenceIdeal Cert.ReferenceIdeal.Gen Cert.GraphNet
open Idealize.ShloMosaic Idealize.ShloMosaic.TcCoe Idealize.ShloMosaic.ValueIdx Idealize.SL.Sem

/-- The printed dimension records are the row scatter's, the row gather's and the plain matrix product's. -/
theorem scat128_eq : scatter_S40000x128_S640000x1_S640000x128_1_0_0_1
    = Cert.SparseMM.rowDims 40000 128 640000 Facts₀.scatter_S40000x128_S640000x1_S640000x128_1_0_0_1_wf := rfl
theorem scat64_eq : scatter_S40000x64_S640000x1_S640000x64_1_0_0_1
    = Cert.SparseMM.rowDims 40000 64 640000 Facts₀.scatter_S40000x64_S640000x1_S640000x64_1_0_0_1_wf := rfl
theorem gath128_eq : gather_S40000x128_S640000x1_S640000x128_1_0_n_n_0_1_1128
    = Cert.SparseMM.rowGatherDims 40000 128 640000 Facts₀.gather_S40000x128_S640000x1_S640000x128_1_0_n_n_0_1_1128_wf := rfl
theorem gath64_eq : gather_S40000x64_S640000x1_S640000x64_1_0_n_n_0_1_164
    = Cert.SparseMM.rowGatherDims 40000 64 640000 Facts₀.gather_S40000x64_S640000x1_S640000x64_1_0_n_n_0_1_164_wf := rfl
theorem dot0_eq : dot_S40000x256_S256x128_S40000x128_1_0_0_1_n_n = DotDims.plain 40000 256 128 := rfl
theorem dotm_eq : dot_S40000x128_S128x128_S40000x128_1_0_0_1_n_n = DotDims.plain 40000 128 128 := rfl
theorem dot2_eq : dot_S40000x128_S128x64_S40000x64_1_0_0_1_n_n = DotDims.plain 40000 128 64 := rfl

/-- THE REFERENCE'S RESULT is `outRef` of its argument arrays. -/
theorem result_eq (m : (ℓ : Loc nD τ sig) → Buf (Elt Ideal) ℓ) (c : Dev nD) :
    Cert.ReferenceIdeal.Value.res_main_v84 (F := Ideal) m c
      = outRef (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) := by
  refine (unc_cur (a := 40000) (b := 64) (Cert.ReferenceIdeal.Value.res_main_v84 (F := Ideal) m c)).symm.trans ?_
  unfold outRef
  refine congrArg unc ?_
  unfold Cert.ReferenceIdeal.Value.res_main_v84 netRef stepRef startIdx wMid bMid
  simp only [scat128_eq, scat64_eq, gath128_eq, gath64_eq, dot0_eq, dotm_eq, dot2_eq]
  repeat (first | rw [aggChain_cur] | rw [hostLin_cur] | rw [hostAxpy_cur] | rw [hostRelu_cur])

end Cert.ReferenceIdeal.RefValue

end
-- ==== Proof.Finite.lean ====
/-
  Every float input is an array of real numbers.

  The precondition evaluates, for each of the nine float inputs, "every entry's absolute value is below +infinity",
  and the conjunction of the nine answers is the one-bit array of all ones. On the extended reals an entry whose
  absolute value is below +infinity is neither +infinity nor -infinity, so it is the coercion of a real number; an
  array all of whose entries are such is the coercion of a real array.
-/
import proofs.«400381_j16071767622287_3_alg».proof.Pre_finite_inputs
import proofs.«400381_j16071767622287_3_alg».proof.Proof.Gen.Pre_finite_inputs
import proofs.«400381_j16071767622287_3_alg».proof.Proof.GraphMath
import Idealize.ShloMosaic.Lib.ReduceAll
import Idealize.ShloMosaic.Lib.ValueIdx
import Idealize.ShloMosaic.PureOps.Ideal.Laws

noncomputable section

namespace Cert.FiniteInputs

open Idealize.ShloMosaic Cert.Pre_finite_inputs Cert.GraphNet

variable [Cert.Pre_finite_inputs.Facts]

/-- The scalar shape has exactly one index: there is no axis to give a coordinate on. -/
instance subsingleton_scalar_idx : Subsingleton S_.Idx := ⟨fun a b => funext fun d => d.elim0⟩

/-- The word 0x7F800000 (sign 0, exponent all ones, significand 0) denotes +infinity. -/
theorem inf_word : Ideal.ofBits .f32 0x7F800000#32 = (⊤ : EReal) := by
  simp [Ideal.ofBits, Ideal.ieee]

/-- An extended real x with max x (-x) < +infinity is neither infinity: at x = +infinity the maximum is x itself,
    at x = -infinity it is -x = +infinity, and in both cases it is not below +infinity. -/
theorem finite_of_abs_lt_top (x : EReal) (h : max x (-x) < (⊤ : EReal)) : x ≠ ⊤ ∧ x ≠ ⊥ := by
  induction x using EReal.rec with
  | bot => exact absurd h (by simp)
  | coe r => exact ⟨EReal.coe_ne_top r, EReal.coe_ne_bot r⟩
  | top => exact absurd h (by simp)

/-- The one-bit answer of "|x| < +infinity" being 1 says that x is neither infinity. -/
theorem finite_of_cmp (x top : EReal) (htop : top = ⊤)
    (h : FloatOps.cmpf (F := Ideal) (φ := .f32) .olt (FloatOps.hostAbsf (F := Ideal) (φ := .f32) x) top = 1#1) :
    x ≠ ⊤ ∧ x ≠ ⊥ := by
  subst htop
  refine finite_of_abs_lt_top x ?_
  by_contra hn
  have : FloatOps.cmpf (F := Ideal) (φ := .f32) .olt (FloatOps.hostAbsf (F := Ideal) (φ := .f32) x) (⊤ : EReal) = 0#1 := by
    show BitVec.ofBool (decide (max x (-x) < (⊤ : EReal))) = 0#1
    rw [decide_eq_false hn]; rfl
  rw [this] at h
  exact absurd h (by decide)

/-- An array whose "all entries finite" test came out 1 is an array of reals: the reduction by "and" over every axis
    being 1 makes every compared entry 1, each such entry is neither infinity, and an extended real that is neither
    infinity is the coercion of its real part. -/
theorem real1_of_all_finite {s : Shape} {axes : List (Fin s.rank)} (a top : FVec Ideal s .f32)
    (htop : ∀ i, top i = (⊤ : EReal)) (hr : s.ReducesTo axes S_) (hu : 0 < S_.numel) (init : IVec S_ 1)
    (e : Host.reduce IntOp.andi (cmpf .olt (Host.absf a) top) init hr hu ValueIdx.ix0 = 1#1) : Real1 a := by
  have hall : ∀ i, a i ≠ (⊤ : EReal) ∧ a i ≠ (⊥ : EReal) := fun i =>
    finite_of_cmp (a i) (top i) (htop i) (Host.reduce_andi_all _ init hr hu ValueIdx.ix0 e i)
  exact ⟨fun i => (a i).toReal, funext fun i => (EReal.coe_toReal (hall i).1 (hall i).2).symm⟩

/-- If the precondition holds of the eleven arguments, each of the nine float arguments is a real array. -/
theorem real_of_pre
    (a0 : FVec Ideal S40000x256 .f32) (a1 a2 : IVec S640000 32) (a3 : FVec Ideal S640000 .f32)
    (a4 : FVec Ideal S256x128 .f32) (a5 : FVec Ideal S128 .f32) (a6 : FVec Ideal S2x128x128 .f32)
    (a7 : FVec Ideal S2x128 .f32) (a8 : FVec Ideal S128x64 .f32) (a9 : FVec Ideal S64 .f32) (a10 : FVec Ideal S_ .f32)
    (h : Cert.Pre_finite_inputs.fn (F := Ideal) a0 a1 a2 a3 a4 a5 a6 a7 a8 a9 a10 = fun _ => 1#1) :
    Real1 a0 ∧ Real1 a3 ∧ Real1 a4 ∧ Real1 a5 ∧ Real1 a6 ∧ Real1 a7 ∧ Real1 a8 ∧ Real1 a9 ∧ Real1 a10 := by
  -- the one entry of the one-bit result, unfolded: the "and" of the nine tests is 1, so each test is 1
  have h0 := congrFun h ValueIdx.ix0
  simp only [Cert.Pre_finite_inputs.fn, fn_part1, fn_part2, andi, IntOp.andi_eq_one] at h0
  obtain ⟨⟨⟨⟨⟨⟨⟨⟨e0, e3⟩, e4⟩, e5⟩, e6⟩, e7⟩, e8⟩, e9⟩, e10⟩ := h0
  -- the array each input is compared with reads +infinity at every index: it is the constant's one value, broadcast
  exact ⟨real1_of_all_finite a0 _ (fun _ => inf_word) _ _ _ e0,
    real1_of_all_finite a3 _ (fun _ => inf_word) _ _ _ e3,
    real1_of_all_finite a4 _ (fun _ => inf_word) _ _ _ e4,
    real1_of_all_finite a5 _ (fun _ => inf_word) _ _ _ e5,
    real1_of_all_finite a6 _ (fun _ => inf_word) _ _ _ e6,
    real1_of_all_finite a7 _ (fun _ => inf_word) _ _ _ e7,
    real1_of_all_finite a8 _ (fun _ => inf_word) _ _ _ e8,
    real1_of_all_finite a9 _ (fun _ => inf_word) _ _ _ e9,
    real1_of_all_finite a10 _ (fun _ => inf_word) _ _ _ e10⟩

end Cert.FiniteInputs

end
-- ==== Proof.lean ====
/-
  A four-layer graph network (a dense layer, two residual steps and a last dense layer, each followed by a sparse
  aggregation over 640000 weighted edges onto 40000 nodes) computed by five Pallas calls among stretches of host
  operations, against its plain jax reference.

  The reference applies, at each residual step, the dense layer first and aggregates after it:
  h + relu (agg (h W + b)) * ts. The kernel aggregates first and feeds the aggregated rows to a fused call:
  h + relu (agg h W + rowsum * b) * ts, with rowsum the total weight of the edges landing on a node. The aggregation
  is linear, so on real (finite) inputs the two agree; that is the one law the certificate needs, and it needs the
  precondition, since the extended reals do not distribute at infinities. Everything else is the same operations in
  the same order: the kernel's matrix products into zero accumulators are the host's matrix products, its maximum
  with a zero splat is the reference's relu, and the gathers and accumulating scatters are the very same host
  operations on the same index arrays.

  The three frames are the generated ones (the reference's is its generated run with the result dropped); the
  idealization rewrote nothing, so there is nothing to preserve; the algebraic claim puts the kernel's run, with its
  result array named, beside the reference's run and identifies both results with one function of the arguments.
-/
import proofs.«400381_j16071767622287_3_alg».proof.Defs
import proofs.«400381_j16071767622287_3_alg».proof.Proof.Gen.Kernel
import proofs.«400381_j16071767622287_3_alg».proof.Proof.Gen.Kernel.Skeleton
import proofs.«400381_j16071767622287_3_alg».proof.Proof.Gen.Kernel.Launch
import proofs.«400381_j16071767622287_3_alg».proof.Proof.Gen.Kernel.Points
import proofs.«400381_j16071767622287_3_alg».proof.Proof.Gen.Kernel.Frame
import proofs.«400381_j16071767622287_3_alg».proof.Proof.Gen.KernelIdeal
import proofs.«400381_j16071767622287_3_alg».proof.Proof.Gen.KernelIdeal.Skeleton
import proofs.«400381_j16071767622287_3_alg».proof.Proof.Gen.KernelIdeal.Launch
import proofs.«400381_j16071767622287_3_alg».proof.Proof.Gen.KernelIdeal.Points
import proofs.«400381_j16071767622287_3_alg».proof.Proof.Gen.KernelIdeal.Frame
import proofs.«400381_j16071767622287_3_alg».proof.Proof.Gen.ReferenceIdeal
import proofs.«400381_j16071767622287_3_alg».proof.Proof.Gen.Pre_finite_inputs
import proofs.«400381_j16071767622287_3_alg».proof.Proof.Gen.ReferenceIdeal.Run
import proofs.«400381_j16071767622287_3_alg».proof.Proof.KernelRun
import proofs.«400381_j16071767622287_3_alg».proof.Proof.KernelValue
import proofs.«400381_j16071767622287_3_alg».proof.Proof.RefValue
import proofs.«400381_j16071767622287_3_alg».proof.Proof.Finite
import Idealize.ShloMosaic.Adequacy
import Idealize.ShloMosaic.Init

noncomputable section

namespace Cert.Proof

open Idealize.ShloMosaic Idealize.ShloMosaic.TcCoe Idealize.SL.Sem Cert.GraphNet

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with their result at one function of the argument arrays: the kernel's run names its result
    array, which is the network aggregating first; the reference's result is the network with the dense layer first;
    the precondition makes every float argument a real array, and on real inputs the two networks agree. -/
theorem algebraic : Cert.algebraic_KernelIdeal_ReferenceIdeal := by
  intro m ρ m' ρ' hpre hagree
  refine ⟨fun c => Cert.KernelIdeal.Gen.W11 m ρ c (Proc.devRef .tc Cert.KernelIdeal.main_v74),
    Cert.KernelIdeal.GenRun.run_result m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.result_eq m' c).trans ?_
  refine Eq.trans ?_ (Cert.KernelIdeal.KValue.result_eq m ρ c).symm
  obtain ⟨e0, e1, e2, e3, e4, e5, e6, e7, e8, e9, e10⟩ := hagree c
  rw [e0, e1, e2, e3, e4, e5, e6, e7, e8, e9, e10]
  obtain ⟨r0, r3, r4, r5, r6, r7, r8, r9, r10⟩ := Cert.FiniteInputs.real_of_pre _ _ _ _ _ _ _ _ _ _ _ (hpre c)
  exact (outAgg_eq_outRef _ _ _ _ _ _ _ _ _ _ _ r0 r3 r4 r5 r6 r7 r10).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
